-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v36)) (v2 : (c : Dev Cert.KernelIdeal.nD) → Buf (Elt Ideal) ((c.tc : Thread Cert.KernelIdeal.nD Cert.KernelIdeal.τ).loc Cert.KernelIdeal.main_v21_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_v21_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S50000x3 : Shape := ⟨2, ![50000, 3]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_
  bcast_S_S2x500000 : S_.BroadcastsInDim S2x500000 (![] : Fin 0 → Fin S2x500000.rank)
  reducesTo_S2x500000_S_d0_1 : S2x500000.ReducesTo [0, 1] S_

variable [Facts]

def fn_part4 {F : FTy → Type} [FloatOps F] (main_arg1 : IVec S2x500000 32) (main_arg15 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_c_28 : IVec S_ 32 := constantI S_ 32 0#32
  let main_v74 : IVec S2x500000 32 := broadcastInDim S2x500000 ![] bcast_S_S2x500000 main_c_28
  let main_v75 : IVec S2x500000 1 := cmpi .sge main_arg1 main_v74
  let main_c_29 : IVec S_ 1 := constantI S_ 1 1#1
  let main_v76 : IVec S_ 1 := (fun x v => Host.reduce IntOp.andi x v reducesTo_S2x500000_S_d0_1 h_S_) main_v75 main_c_29
  let main_v77 : IVec S_ 1 := andi main_v73 main_v76
  let main_c_30 : IVec S_ 32 := constantI S_ 32 50000#32
  let main_v78 : IVec S2x500000 32 := broadcastInDim S2x500000 ![] bcast_S_S2x500000 main_c_30
  let main_v79 : IVec S2x500000 1 := cmpi .slt main_arg1 main_v78
  let main_c_31 : IVec S_ 1 := constantI S_ 1 1#1
  let main_v80 : IVec S_ 1 := (fun x v => Host.reduce IntOp.andi x v reducesTo_S2x500000_S_d0_1 h_S_) main_v79 main_c_31
  let main_v81 : IVec S_ 1 := andi main_v77 main_v80
  main_v81

def fn_part3 {F : FTy → Type} [FloatOps F] (main_arg1 : IVec S2x500000 32) (main_arg12 : FVec F S256x128 .f32) (main_arg13 : FVec F S128 .f32) (main_arg14 : FVec F S128x128 .f32) (main_arg15 : FVec F S128 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S256x128 .f32 := Host.absf main_arg12
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg1 main_arg15 main_v63 main_v67

def fn_part2 {F : FTy → Type} [FloatOps F] (main_arg1 : IVec S2x500000 32) (main_arg8 : FVec F S1 .f32) (main_arg9 : FVec F S128x128 .f32) (main_arg10 : FVec F S128 .f32) (main_arg11 : FVec F S128x1 .f32) (main_arg12 : FVec F S256x128 .f32) (main_arg13 : FVec F S128 .f32) (main_arg14 : FVec F S128x128 .f32) (main_arg15 : FVec F S128 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg11
  let main_cst_18 : FVec F S_ .f32 := constant S_ .f32 0x7F800000#32
  let main_v50 : FVec F S128x1 .f32 := broadcastInDim S128x1 ![] bcast_S_S128x1 main_cst_18
  fn_part3 (F := F) main_arg1 main_arg12 main_arg13 main_arg14 main_arg15 main_v48 main_v49 main_v50

def fn_part1 {F : FTy → Type} [FloatOps F] (main_arg1 : IVec S2x500000 32) (main_arg5 : FVec F S128x128 .f32) (main_arg6 : FVec F S128 .f32) (main_arg7 : FVec F S128x1 .f32) (main_arg8 : FVec F S1 .f32) (main_arg9 : FVec F S128x128 .f32) (main_arg10 : FVec F S128 .f32) (main_arg11 : FVec F S128x1 .f32) (main_arg12 : FVec F S256x128 .f32) (main_arg13 : FVec F S128 .f32) (main_arg14 : FVec F S128x128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg7
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg1 main_arg8 main_arg9 main_arg10 main_arg11 main_arg12 main_arg13 main_arg14 main_arg15 main_v33

def fn {F : FTy → Type} [FloatOps F] (main_arg0 : FVec F S50000x128 .f32) (main_arg1 : IVec S2x500000 32) (main_arg2 : FVec F S50000x3 .f32) (main_arg3 : FVec F S257x128 .f32) (main_arg4 : FVec F S128 .f32) (main_arg5 : FVec F S128x128 .f32) (main_arg6 : FVec F S128 .f32) (main_arg7 : FVec F S128x1 .f32) (main_arg8 : FVec F S1 .f32) (main_arg9 : FVec F S128x128 .f32) (main_arg10 : FVec F S128 .f32) (main_arg11 : FVec F S128x1 .f32) (main_arg12 : FVec F S256x128 .f32) (main_arg13 : FVec F S128 .f32) (main_arg14 : FVec F S128x128 .f32) (main_arg15 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg2
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S257x128 .f32 := Host.absf main_arg3
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x500000 : Shape := ⟨2, ![2, 500000]⟩
abbrev S50000x3 : Shape := ⟨2, ![50000, 3]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1x1 : Shape := ⟨2, ![1, 1]⟩
abbrev S500000x128 : Shape := ⟨2, ![500000, 128]⟩
abbrev S500000x3 : Shape := ⟨2, ![500000, 3]⟩
abbrev S1x128 : Shape := ⟨2, ![1, 128]⟩
abbrev S5000x128 : Shape := ⟨2, ![5000, 128]⟩
abbrev S5000x1 : Shape := ⟨2, ![5000, 1]⟩
abbrev S5000x3 : Shape := ⟨2, ![5000, 3]⟩
abbrev S50000x1 : Shape := ⟨2, ![50000, 1]⟩

abbrev nBuf : Space → Nat
  | .hbm => 176
  | .vmem => 34
  | .smem => 0
  | _ => 0

abbrev hbmTy0_0 (i : Nat) : BufTy := match i % 128 with
  | 0 => ⟨S50000x128, .f32⟩
  | 1 => ⟨S2x500000, .i32⟩
  | 2 => ⟨S50000x3, .f32⟩
  | 3 => ⟨S257x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S128x128, .f32⟩
  | 10 => ⟨S128, .f32⟩
  | 11 => ⟨S128x1, .f32⟩
  | 12 => ⟨S256x128, .f32⟩
  | 13 => ⟨S128, .f32⟩
  | 14 => ⟨S128x128, .f32⟩
  | 15 => ⟨S128, .f32⟩
  | 16 => ⟨S1x500000, .i32⟩
  | 17 => ⟨S500000, .i32⟩
  | 18 => ⟨S_, .i32⟩
  | 19 => ⟨S_, .i32⟩
  | 20 => ⟨S_, .i32⟩
  | 21 => ⟨S500000, .i32⟩
  | 22 => ⟨S500000, .i32⟩
  | 23 => ⟨S_, .i32⟩
  | 24 => ⟨S500000, .i32⟩
  | 25 => ⟨S500000, .i32⟩
  | 26 => ⟨S1x500000, .i32⟩
  | 27 => ⟨S500000, .i32⟩
  | 28 => ⟨S_, .i32⟩
  | 29 => ⟨S_, .i32⟩
  | 30 => ⟨S_, .i32⟩
  | 31 => ⟨S500000, .i32⟩
  | 32 => ⟨S500000, .i32⟩
  | 33 => ⟨S_, .i32⟩
  | 34 => ⟨S500000, .i32⟩
  | 35 => ⟨S500000, .i32⟩
  | 36 => ⟨S_, .i32⟩
  | 37 => ⟨S500000, .i32⟩
  | 38 => ⟨S500000, .i1⟩
  | 39 => ⟨S_, .i32⟩
  | 40 => ⟨S500000, .i32⟩
  | 41 => ⟨S500000, .i32⟩
  | 42 => ⟨S500000, .i32⟩
  | 43 => ⟨S500000x1, .i32⟩
  | 44 => ⟨S1, .i32⟩
  | 45 => ⟨S_, .i32⟩
  | 46 => ⟨S500000x1, .i32⟩
  | 47 => ⟨S500000x1, .i1⟩
  | 48 => ⟨S1x1, .i32⟩
  | 49 => ⟨S500000x1, .i32⟩
  | 50 => ⟨S500000x1, .i1⟩
  | 51 => ⟨S500000x1, .i1⟩
  | 52 => ⟨S_, .i1⟩
  | 53 => ⟨S500000, .i1⟩
  | 54 => ⟨S500000x128, .f32⟩
  | 55 => ⟨S500000x128, .i1⟩
  | 56 => ⟨S_, .f32⟩
  | 57 => ⟨S500000x128, .f32⟩
  | 58 => ⟨S500000x128, .f32⟩
  | 59 => ⟨S_, .i32⟩
  | 60 => ⟨S500000, .i32⟩
  | 61 => ⟨S500000, .i1⟩
  | 62 => ⟨S_, .i32⟩
  | 63 => ⟨S500000, .i32⟩
  | 64 => ⟨S500000, .i32⟩
  | 65 => ⟨S500000, .i32⟩
  | 66 => ⟨S500000x1, .i32⟩
  | 67 => ⟨S1, .i32⟩
  | 68 => ⟨S_, .i32⟩
  | 69 => ⟨S500000x1, .i32⟩
  | 70 => ⟨S500000x1, .i1⟩
  | 71 => ⟨S1x1, .i32⟩
  | 72 => ⟨S500000x1, .i32⟩
  | 73 => ⟨S500000x1, .i1⟩
  | 74 => ⟨S500000x1, .i1⟩
  | 75 => ⟨S_, .i1⟩
  | 76 => ⟨S500000, .i1⟩
  | 77 => ⟨S500000x128, .f32⟩
  | 78 => ⟨S500000x128, .i1⟩
  | 79 => ⟨S_, .f32⟩
  | 80 => ⟨S500000x128, .f32⟩
  | 81 => ⟨S500000x128, .f32⟩
  | 82 => ⟨S_, .i32⟩
  | 83 => ⟨S500000, .i32⟩
  | 84 => ⟨S500000, .i1⟩
  | 85 => ⟨S_, .i32⟩
  | 86 => ⟨S500000, .i32⟩
  | 87 => ⟨S500000, .i32⟩
  | 88 => ⟨S500000, .i32⟩
  | 89 => ⟨S500000x1, .i32⟩
  | 90 => ⟨S1, .i32⟩
  | 91 => ⟨S_, .i32⟩
  | 92 => ⟨S500000x1, .i32⟩
  | 93 => ⟨S500000x1, .i1⟩
  | 94 => ⟨S1x1, .i32⟩
  | 95 => ⟨S500000x1, .i32⟩
  | 96 => ⟨S500000x1, .i1⟩
  | 97 => ⟨S500000x1, .i1⟩
  | 98 => ⟨S_, .i1⟩
  | 99 => ⟨S500000, .i1⟩
  | 100 => ⟨S500000x3, .f32⟩
  | 101 => ⟨S500000x3, .i1⟩
  | 102 => ⟨S_, .f32⟩
  | 103 => ⟨S500000x3, .f32⟩
  | 104 => ⟨S500000x3, .f32⟩
  | 105 => ⟨S_, .i32⟩
  | 106 => ⟨S500000, .i32⟩
  | 107 => ⟨S500000, .i1⟩
  | 108 => ⟨S_, .i32⟩
  | 109 => ⟨S500000, .i32⟩
  | 110 => ⟨S500000, .i32⟩
  | 111 => ⟨S500000, .i32⟩
  | 112 => ⟨S500000x1, .i32⟩
  | 113 => ⟨S1, .i32⟩
  | 114 => ⟨S_, .i32⟩
  | 115 => ⟨S500000x1, .i32⟩
  | 116 => ⟨S500000x1, .i1⟩
  | 117 => ⟨S1x1, .i32⟩
  | 118 => ⟨S500000x1, .i32⟩
  | 119 => ⟨S500000x1, .i1⟩
  | 120 => ⟨S500000x1, .i1⟩
  | 121 => ⟨S_, .i1⟩
  | 122 => ⟨S500000, .i1⟩
  | 123 => ⟨S500000x3, .f32⟩
  | 124 => ⟨S500000x3, .i1⟩
  | 125 => ⟨S_, .f32⟩
  | 126 => ⟨S500000x3, .f32⟩
  | 127 => ⟨S500000x3, .f32⟩
  | _ => ⟨S50000x128, .f32⟩

abbrev hbmTy0_1 (i : Nat) : BufTy := match i % 128 with
  | 0 => ⟨S500000x3, .f32⟩
  | 1 => ⟨S500000x3, .f32⟩
  | 2 => ⟨S_, .f32⟩
  | 3 => ⟨S500000, .f32⟩
  | 4 => ⟨S500000x1, .f32⟩
  | 5 => ⟨S128x128, .f32⟩
  | 6 => ⟨S128x128, .f32⟩
  | 7 => ⟨S1x128, .f32⟩
  | 8 => ⟨S1x128, .f32⟩
  | 9 => ⟨S1x128, .f32⟩
  | 10 => ⟨S1x1, .f32⟩
  | 11 => ⟨S1x128, .f32⟩
  | 12 => ⟨S500000x128, .f32⟩
  | 13 => ⟨S500000x3, .f32⟩
  | 14 => ⟨S_, .f32⟩
  | 15 => ⟨S50000x128, .f32⟩
  | 16 => ⟨S500000x1, .i32⟩
  | 17 => ⟨S50000x128, .f32⟩
  | 18 => ⟨S_, .f32⟩
  | 19 => ⟨S50000x3, .f32⟩
  | 20 => ⟨S500000x1, .i32⟩
  | 21 => ⟨S50000x3, .f32⟩
  | 22 => ⟨S_, .f32⟩
  | 23 => ⟨S500000x1, .f32⟩
  | 24 => ⟨S_, .f32⟩
  | 25 => ⟨S50000x1, .f32⟩
  | 26 => ⟨S500000x1, .i32⟩
  | 27 => ⟨S50000x1, .f32⟩
  | 28 => ⟨S_, .f32⟩
  | 29 => ⟨S_, .f32⟩
  | 30 => ⟨S50000x1, .f32⟩
  | 31 => ⟨S50000x1, .f32⟩
  | 32 => ⟨S50000x3, .f32⟩
  | 33 => ⟨S50000x3, .f32⟩
  | 34 => ⟨S_, .f32⟩
  | 35 => ⟨S_, .f32⟩
  | 36 => ⟨S_, .f32⟩
  | 37 => ⟨S50000x3, .f32⟩
  | 38 => ⟨S50000x3, .f32⟩
  | 39 => ⟨S_, .f32⟩
  | 40 => ⟨S50000x3, .f32⟩
  | 41 => ⟨S50000x3, .f32⟩
  | 42 => ⟨S50000x3, .f32⟩
  | 43 => ⟨S128x128, .f32⟩
  | 44 => ⟨S128x128, .f32⟩
  | 45 => ⟨S1x128, .f32⟩
  | 46 => ⟨S1x128, .f32⟩
  | 47 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S5000x3, .f32⟩
  | .local _ .vmem, ⟨7, _⟩ => ⟨S5000x3, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x1, .f32⟩
  | .local _ .vmem, ⟨15, _⟩ => ⟨S1x1, .f32⟩
  | .local _ .vmem, ⟨16, _⟩ => ⟨S128x128, .f32⟩
  | .local _ .vmem, ⟨17, _⟩ => ⟨S1x128, .f32⟩
  | .local _ .vmem, ⟨18, _⟩ => ⟨S128x1, .f32⟩
  | .local _ .vmem, ⟨19, _⟩ => ⟨S5000x128, .f32⟩
  | .local _ .vmem, ⟨20, _⟩ => ⟨S5000x128, .f32⟩
  | .local _ .vmem, ⟨21, _⟩ => ⟨S5000x3, .f32⟩
  | .local _ .vmem, ⟨22, _⟩ => ⟨S5000x3, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S128x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_c_1 : Ref sig .tc := ⟨.hbm, 28, rfl⟩
abbrev main_c_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v5 : Ref sig .tc := ⟨.hbm, 35, rfl⟩
abbrev main_call2_c : Ref sig .tc := ⟨.hbm, 36, rfl⟩
abbrev main_call2_v0 : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c_1 : Ref sig .tc := ⟨.hbm, 44, rfl⟩
abbrev main_call2_c_2 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_c_3 : Ref sig .tc := ⟨.hbm, 52, rfl⟩
abbrev main_call2_v12 : Ref sig .tc := ⟨.hbm, 53, rfl⟩
abbrev main_call2_v13 : Ref sig .tc := ⟨.hbm, 54, rfl⟩
abbrev main_call2_v14 : Ref sig .tc := ⟨.hbm, 55, rfl⟩
abbrev main_call2_cst : Ref sig .tc := ⟨.hbm, 56, rfl⟩
abbrev main_call2_v15 : Ref sig .tc := ⟨.hbm, 57, rfl⟩
abbrev main_v6 : Ref sig .tc := ⟨.hbm, 58, rfl⟩
abbrev main_call3_c : Ref sig .tc := ⟨.hbm, 59, rfl⟩
abbrev main_call3_v0 : Ref sig .tc := ⟨.hbm, 60, rfl⟩
abbrev main_call3_v1 : Ref sig .tc := ⟨.hbm, 61, rfl⟩
abbrev main_call3_c_0 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_call3_v5 : Ref sig .tc := ⟨.hbm, 66, rfl⟩
abbrev main_call3_c_1 : Ref sig .tc := ⟨.hbm, 67, rfl⟩
abbrev main_call3_c_2 : Ref sig .tc := ⟨.hbm, 68, rfl⟩
abbrev main_call3_v6 : Ref sig .tc := ⟨.hbm, 69, rfl⟩
abbrev main_call3_v7 : Ref sig .tc := ⟨.hbm, 70, rfl⟩
abbrev main_call3_v8 : Ref sig .tc := ⟨.hbm, 71, rfl⟩
abbrev main_call3_v9 : Ref sig .tc := ⟨.hbm, 72, rfl⟩
abbrev main_call3_v10 : Ref sig .tc := ⟨.hbm, 73, rfl⟩
abbrev main_call3_v11 : Ref sig .tc := ⟨.hbm, 74, rfl⟩
abbrev main_call3_c_3 : Ref sig .tc := ⟨.hbm, 75, rfl⟩
abbrev main_call3_v12 : Ref sig .tc := ⟨.hbm, 76, rfl⟩
abbrev main_call3_v13 : Ref sig .tc := ⟨.hbm, 77, rfl⟩
abbrev main_call3_v14 : Ref sig .tc := ⟨.hbm, 78, rfl⟩
abbrev main_call3_cst : Ref sig .tc := ⟨.hbm, 79, rfl⟩
abbrev main_call3_v15 : Ref sig .tc := ⟨.hbm, 80, rfl⟩
abbrev main_v7 : Ref sig .tc := ⟨.hbm, 81, rfl⟩
abbrev main_call4_c : Ref sig .tc := ⟨.hbm, 82, rfl⟩
abbrev main_call4_v0 : Ref sig .tc := ⟨.hbm, 83, rfl⟩
abbrev main_call4_v1 : Ref sig .tc := ⟨.hbm, 84, rfl⟩
abbrev main_call4_c_0 : Ref sig .tc := ⟨.hbm, 85, rfl⟩
abbrev main_call4_v2 : Ref sig .tc := ⟨.hbm, 86, rfl⟩
abbrev main_call4_v3 : Ref sig .tc := ⟨.hbm, 87, rfl⟩
abbrev main_call4_v4 : Ref sig .tc := ⟨.hbm, 88, rfl⟩
abbrev main_call4_v5 : Ref sig .tc := ⟨.hbm, 89, rfl⟩
abbrev main_call4_c_1 : Ref sig .tc := ⟨.hbm, 90, rfl⟩
abbrev main_call4_c_2 : Ref sig .tc := ⟨.hbm, 91, rfl⟩
abbrev main_call4_v6 : Ref sig .tc := ⟨.hbm, 92, rfl⟩
abbrev main_call4_v7 : Ref sig .tc := ⟨.hbm, 93, rfl⟩
abbrev main_call4_v8 : Ref sig .tc := ⟨.hbm, 94, rfl⟩
abbrev main_call4_v9 : Ref sig .tc := ⟨.hbm, 95, rfl⟩
abbrev main_call4_v10 : Ref sig .tc := ⟨.hbm, 96, rfl⟩
abbrev main_call4_v11 : Ref sig .tc := ⟨.hbm, 97, rfl⟩
abbrev main_call4_c_3 : Ref sig .tc := ⟨.hbm, 98, rfl⟩
abbrev main_call4_v12 : Ref sig .tc := ⟨.hbm, 99, rfl⟩
abbrev main_call4_v13 : Ref sig .tc := ⟨.hbm, 100, rfl⟩
abbrev main_call4_v14 : Ref sig .tc := ⟨.hbm, 101, rfl⟩
abbrev main_call4_cst : Ref sig .tc := ⟨.hbm, 102, rfl⟩
abbrev main_call4_v15 : Ref sig .tc := ⟨.hbm, 103, rfl⟩
abbrev main_v8 : Ref sig .tc := ⟨.hbm, 104, rfl⟩
abbrev main_call5_c : Ref sig .tc := ⟨.hbm, 105, rfl⟩
abbrev main_call5_v0 : Ref sig .tc := ⟨.hbm, 106, rfl⟩
abbrev main_call5_v1 : Ref sig .tc := ⟨.hbm, 107, rfl⟩
abbrev main_call5_c_0 : Ref sig .tc := ⟨.hbm, 108, rfl⟩
abbrev main_call5_v2 : Ref sig .tc := ⟨.hbm, 109, rfl⟩
abbrev main_call5_v3 : Ref sig .tc := ⟨.hbm, 110, rfl⟩
abbrev main_call5_v4 : Ref sig .tc := ⟨.hbm, 111, rfl⟩
abbrev main_call5_v5 : Ref sig .tc := ⟨.hbm, 112, rfl⟩
abbrev main_call5_c_1 : Ref sig .tc := ⟨.hbm, 113, rfl⟩
abbrev main_call5_c_2 : Ref sig .tc := ⟨.hbm, 114, rfl⟩
abbrev main_call5_v6 : Ref sig .tc := ⟨.hbm, 115, rfl⟩
abbrev main_call5_v7 : Ref sig .tc := ⟨.hbm, 116, rfl⟩
abbrev main_call5_v8 : Ref sig .tc := ⟨.hbm, 117, rfl⟩
abbrev main_call5_v9 : Ref sig .tc := ⟨.hbm, 118, rfl⟩
abbrev main_call5_v10 : Ref sig .tc := ⟨.hbm, 119, rfl⟩
abbrev main_call5_v11 : Ref sig .tc := ⟨.hbm, 120, rfl⟩
abbrev main_call5_c_3 : Ref sig .tc := ⟨.hbm, 121, rfl⟩
abbrev main_call5_v12 : Ref sig .tc := ⟨.hbm, 122, rfl⟩
abbrev main_call5_v13 : Ref sig .tc := ⟨.hbm, 123, rfl⟩
abbrev main_call5_v14 : Ref sig .tc := ⟨.hbm, 124, rfl⟩
abbrev main_call5_cst : Ref sig .tc := ⟨.hbm, 125, rfl⟩
abbrev main_call5_v15 : Ref sig .tc := ⟨.hbm, 126, rfl⟩
abbrev main_v9 : Ref sig .tc := ⟨.hbm, 127, rfl⟩
abbrev main_v10 : Ref sig .tc := ⟨.hbm, 128, rfl⟩
abbrev main_v11 : Ref sig .tc := ⟨.hbm, 129, rfl⟩
abbrev main_cst : Ref sig .tc := ⟨.hbm, 130, rfl⟩
abbrev main_v12 : Ref sig .tc := ⟨.hbm, 131, rfl⟩
abbrev main_v13 : Ref sig .tc := ⟨.hbm, 132, rfl⟩
abbrev main_v14 : Ref sig .tc := ⟨.hbm, 133, rfl⟩
abbrev main_v15 : Ref sig .tc := ⟨.hbm, 134, rfl⟩
abbrev main_v16 : Ref sig .tc := ⟨.hbm, 135, rfl⟩
abbrev main_v17 : Ref sig .tc := ⟨.hbm, 136, rfl⟩
abbrev main_v18 : Ref sig .tc := ⟨.hbm, 137, rfl⟩
abbrev main_v19 : Ref sig .tc := ⟨.hbm, 138, rfl⟩
abbrev main_v20 : Ref sig .tc := ⟨.hbm, 139, rfl⟩
abbrev main_v21_0 : Ref sig .tc := ⟨.hbm, 140, rfl⟩
abbrev main_v21_1 : Ref sig .tc := ⟨.hbm, 141, rfl⟩
abbrev main_cst_3 : Ref sig .tc := ⟨.hbm, 142, rfl⟩
abbrev main_v22 : Ref sig .tc := ⟨.hbm, 143, rfl⟩
abbrev main_v23 : Ref sig .tc := ⟨.hbm, 144, rfl⟩
abbrev main_v24 : Ref sig .tc := ⟨.hbm, 145, rfl⟩
abbrev main_cst_4 : Ref sig .tc := ⟨.hbm, 146, rfl⟩
abbrev main_v25 : Ref sig .tc := ⟨.hbm, 147, rfl⟩
abbrev main_v26 : Ref sig .tc := ⟨.hbm, 148, rfl⟩
abbrev main_v27 : Ref sig .tc := ⟨.hbm, 149, rfl⟩
abbrev main_cst_5 : Ref sig .tc := ⟨.hbm, 150, rfl⟩
abbrev main_v28 : Ref sig .tc := ⟨.hbm, 151, rfl⟩
abbrev main_cst_6 : Ref sig .tc := ⟨.hbm, 152, rfl⟩
abbrev main_v29 : Ref sig .tc := ⟨.hbm, 153, rfl⟩
abbrev main_v30 : Ref sig .tc := ⟨.hbm, 154, rfl⟩
abbrev main_v31 : Ref sig .tc := ⟨.hbm, 155, rfl⟩
abbrev main_cst_7 : Ref sig .tc := ⟨.hbm, 156, rfl⟩
abbrev main_call6_v0 : Ref sig .tc := ⟨.hbm, 157, rfl⟩
abbrev main_call6_v1 : Ref sig .tc := ⟨.hbm, 158, rfl⟩
abbrev main_v32 : Ref sig .tc := ⟨.hbm, 159, rfl⟩
abbrev main_v33 : Ref sig .tc := ⟨.hbm, 160, rfl⟩
abbrev main_v34 : Ref sig .tc := ⟨.hbm, 161, rfl⟩
abbrev main_cst_8 : Ref sig .tc := ⟨.hbm, 162, rfl⟩
abbrev main_cst_9 : Ref sig .tc := ⟨.hbm, 163, rfl⟩
abbrev main_call7_v0 : Ref sig .tc := ⟨.hbm, 164, rfl⟩
abbrev main_call7_v1 : Ref sig .tc := ⟨.hbm, 165, rfl⟩
abbrev main_call7_v2 : Ref sig .tc := ⟨.hbm, 166, rfl⟩
abbrev main_call7_v3 : Ref sig .tc := ⟨.hbm, 167, rfl⟩
abbrev main_call7_v4 : Ref sig .tc := ⟨.hbm, 168, rfl⟩
abbrev main_v35 : Ref sig .tc := ⟨.hbm, 169, rfl⟩
abbrev main_v36 : Ref sig .tc := ⟨.hbm, 170, rfl⟩
abbrev main_v37 : Ref sig .tc := ⟨.hbm, 171, rfl⟩
abbrev main_v38 : Ref sig .tc := ⟨.hbm, 172, rfl⟩
abbrev main_v39 : Ref sig .tc := ⟨.hbm, 173, rfl⟩
abbrev main_v40 : Ref sig .tc := ⟨.hbm, 174, rfl⟩
abbrev main_v41 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg3_0 : Ref sig .tc := ⟨.vmem, 28, rfl⟩
abbrev cc1_stg4_0 : Ref sig .tc := ⟨.vmem, 29, rfl⟩
abbrev cc1_stg5_0 : Ref sig .tc := ⟨.vmem, 30, rfl⟩
abbrev cc1_stg6_0 : Ref sig .tc := ⟨.vmem, 31, rfl⟩
abbrev cc1_stg7_0 : Ref sig .tc := ⟨.vmem, 32, rfl⟩
abbrev cc1_stg7_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem3_0 : DmaSem sig := 28
abbrev cc1_sem4_0 : DmaSem sig := 29
abbrev cc1_sem5_0 : DmaSem sig := 30
abbrev cc1_sem6_0 : DmaSem sig := 31
abbrev cc1_sem7_0 : DmaSem sig := 32
abbrev cc1_sem7_1 : DmaSem sig := 33

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S5000x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S5000x3 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  slices_S2x500000_S1x500000_1_0 : S2x500000.Slices ![1, 0] S1x500000
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  bcast_S500000_S500000x3_0 : S500000.BroadcastsInDim S500000x3 (![0] : Fin 1 → Fin S500000x3.rank)
  bcast_S_S500000x3 : S_.BroadcastsInDim S500000x3 (![] : Fin 0 → Fin S500000x3.rank)
  reducesTo_S500000x3_S500000_d1 : S500000x3.ReducesTo [1] S500000
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S128_S1x128 : S128.ShapeCasts S1x128
  shapeCasts_S1_S1x1 : S1.ShapeCasts S1x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S5000x1_S5000x128 : S5000x1.Broadcasts S5000x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  broadcasts_S5000x1_S5000x3 : S5000x1.Broadcasts S5000x3
  bcast_S_S50000x128 : S_.BroadcastsInDim S50000x128 (![] : Fin 0 → Fin S50000x128.rank)
  bcast_S_S50000x3 : S_.BroadcastsInDim S50000x3 (![] : Fin 0 → Fin S50000x3.rank)
  bcast_S_S50000x1 : S_.BroadcastsInDim S50000x1 (![] : Fin 0 → Fin S50000x1.rank)
  bcast_S50000x1_S50000x3_0_1 : S50000x1.BroadcastsInDim S50000x3 (![0, 1] : Fin 2 → Fin S50000x3.rank)
  slices_S256x128_S128x128_0_0 : S256x128.Slices ![0, 0] S128x128
  slices_S256x128_S128x128_128_0 : S256x128.Slices ![128, 0] S128x128
  gather_S50000x128_S500000x1_S500000x128_1_0_n_n_0_1_1128_wf : GatherDims.WF S50000x128 S500000x1 S500000x128 [1] [0] [] [0] [] 1 ![1, 128]
  gather_S50000x3_S500000x1_S500000x3_1_0_n_n_0_1_13_wf : GatherDims.WF S50000x3 S500000x1 S500000x3 [1] [0] [] [0] [] 1 ![1, 3]
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  scatter_S50000x128_S500000x1_S500000x128_1_0_0_1_wf : ScatterDims.WF S50000x128 S500000x1 S500000x128 [1] [0] [0] 1
  scatter_S50000x3_S500000x1_S500000x3_1_0_0_1_wf : ScatterDims.WF S50000x3 S500000x1 S500000x3 [1] [0] [0] 1
  scatter_S50000x1_S500000x1_S500000x1_1_0_0_1_wf : ScatterDims.WF S50000x1 S500000x1 S500000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S500000x1.size a
  hwx0_2 : ∀ i : grid0.Coords, EltTy.bits .f32 = 32 ∨ (Rect.block (s := S500000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x3.size a ≤ S500000x3.size a
  hwx0_3 : ∀ i : grid0.Coords, EltTy.bits .f32 = 32 ∨ (Rect.block (s := S500000x3) S5000x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x1.size a ≤ S128x1.size a
  hwx0_10 : ∀ i : grid0.Coords, EltTy.bits .f32 = 32 ∨ (Rect.block (s := S128x1) S128x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x1.size a ≤ S128x1.size a
  hwx0_14 : ∀ i : grid0.Coords, EltTy.bits .f32 = 32 ∨ (Rect.block (s := S128x1) S128x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S5000x128.size a ≤ S500000x128.size a
  hwx0_15 : ∀ i : grid0.Coords, EltTy.bits .f32 = 32 ∨ (Rect.block (s := S500000x128) S5000x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S5000x3.size a ≤ S500000x3.size a
  hwx0_16 : ∀ i : grid0.Coords, EltTy.bits .f32 = 32 ∨ (Rect.block (s := S500000x3) S5000x3.size (cc0_transform_16 i) (hinb0_16 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def gather_S50000x3_S500000x1_S500000x3_1_0_n_n_0_1_13 : GatherDims S50000x3 S500000x1 S500000x3 where
  offsetDims := [1]
  collapsedSliceDims := [0]
  operandBatchingDims := []
  startIndicesBatchingDims := []
  startIndexMap := [0]
  indexVectorDim := 1
  sliceSizes := ![1, 3]
  wf := gather_S50000x3_S500000x1_S500000x3_1_0_n_n_0_1_13_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000x3_S500000x1_S500000x3_1_0_0_1 : ScatterDims S50000x3 S500000x1 S500000x3 where
  updateWindowDims := [1]
  insertedWindowDims := [0]
  scatterDimsToOperandDims := [0]
  indexVectorDim := 1
  wf := scatter_S50000x3_S500000x1_S500000x3_1_0_0_1_wf
def scatter_S50000x1_S500000x1_S500000x1_1_0_0_1 : ScatterDims S50000x1 S500000x1 S500000x1 where
  updateWindowDims := [1]
  insertedWindowDims := [0]
  scatterDimsToOperandDims := [0]
  indexVectorDim := 1
  wf := scatter_S50000x1_S500000x1_S500000x1_1_0_0_1_wf

abbrev win0_0 : Pipeline.Window sig grid0 :=
  Pipeline.Window.ofSpec (Memref.whole main_v6) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S5000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg7) S128x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v19) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg9) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v20) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg11) S128x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v21_0) S5000x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v21_1) S5000x3.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S50000x3 : Shape := ⟨2, ![50000, 3]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x3 : Shape := ⟨2, ![500000, 3]⟩
abbrev S500000x128 : Shape := ⟨2, ![500000, 128]⟩
abbrev S500000x257 : Shape := ⟨2, ![500000, 257]⟩
abbrev S1x128 : Shape := ⟨2, ![1, 128]⟩
abbrev S1x1 : Shape := ⟨2, ![1, 1]⟩
abbrev S50000x256 : Shape := ⟨2, ![50000, 256]⟩

abbrev nBuf : Space → Nat
  | .hbm => 173
  | .vmem => 0
  | .smem => 0
  | _ => 0

abbrev hbmTy0_0 (i : Nat) : BufTy := match i % 128 with
  | 0 => ⟨S50000x128, .f32⟩
  | 1 => ⟨S2x500000, .i32⟩
  | 2 => ⟨S50000x3, .f32⟩
  | 3 => ⟨S257x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S128x128, .f32⟩
  | 10 => ⟨S128, .f32⟩
  | 11 => ⟨S128x1, .f32⟩
  | 12 => ⟨S256x128, .f32⟩
  | 13 => ⟨S128, .f32⟩
  | 14 => ⟨S128x128, .f32⟩
  | 15 => ⟨S128, .f32⟩
  | 16 => ⟨S1x500000, .i32⟩
  | 17 => ⟨S500000, .i32⟩
  | 18 => ⟨S1x500000, .i32⟩
  | 19 => ⟨S500000, .i32⟩
  | 20 => ⟨S_, .i32⟩
  | 21 => ⟨S500000, .i32⟩
  | 22 => ⟨S500000, .i1⟩
  | 23 => ⟨S_, .i32⟩
  | 24 => ⟨S500000, .i32⟩
  | 25 => ⟨S500000, .i32⟩
  | 26 => ⟨S500000, .i32⟩
  | 27 => ⟨S500000x1, .i32⟩
  | 28 => ⟨S500000x3, .f32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S500000x1, .i32⟩
  | 37 => ⟨S500000x3, .f32⟩
  | 38 => ⟨S500000x3, .f32⟩
  | 39 => ⟨S500000x3, .f32⟩
  | 40 => ⟨S_, .f32⟩
  | 41 => ⟨S500000, .f32⟩
  | 42 => ⟨S500000x1, .f32⟩
  | 43 => ⟨S_, .i32⟩
  | 44 => ⟨S500000, .i32⟩
  | 45 => ⟨S500000, .i1⟩
  | 46 => ⟨S_, .i32⟩
  | 47 => ⟨S500000, .i32⟩
  | 48 => ⟨S500000, .i32⟩
  | 49 => ⟨S500000, .i32⟩
  | 50 => ⟨S500000x1, .i32⟩
  | 51 => ⟨S500000x128, .f32⟩
  | 52 => ⟨S_, .i32⟩
  | 53 => ⟨S500000, .i32⟩
  | 54 => ⟨S500000, .i1⟩
  | 55 => ⟨S_, .i32⟩
  | 56 => ⟨S500000, .i32⟩
  | 57 => ⟨S500000, .i32⟩
  | 58 => ⟨S500000, .i32⟩
  | 59 => ⟨S500000x1, .i32⟩
  | 60 => ⟨S500000x128, .f32⟩
  | 61 => ⟨S500000x257, .f32⟩
  | 62 => ⟨S500000x128, .f32⟩
  | 63 => ⟨S1x128, .f32⟩
  | 64 => ⟨S500000x128, .f32⟩
  | 65 => ⟨S500000x128, .f32⟩
  | 66 => ⟨S500000x128, .f32⟩
  | 67 => ⟨S500000x128, .f32⟩
  | 68 => ⟨S_, .f32⟩
  | 69 => ⟨S500000x128, .f32⟩
  | 70 => ⟨S500000x128, .f32⟩
  | 71 => ⟨S_, .f32⟩
  | 72 => ⟨S500000x128, .f32⟩
  | 73 => ⟨S500000x128, .f32⟩
  | 74 => ⟨S500000x128, .f32⟩
  | 75 => ⟨S500000x128, .f32⟩
  | 76 => ⟨S1x128, .f32⟩
  | 77 => ⟨S500000x128, .f32⟩
  | 78 => ⟨S500000x128, .f32⟩
  | 79 => ⟨S500000x128, .f32⟩
  | 80 => ⟨S500000x128, .f32⟩
  | 81 => ⟨S_, .f32⟩
  | 82 => ⟨S500000x128, .f32⟩
  | 83 => ⟨S500000x128, .f32⟩
  | 84 => ⟨S_, .f32⟩
  | 85 => ⟨S500000x128, .f32⟩
  | 86 => ⟨S500000x128, .f32⟩
  | 87 => ⟨S500000x128, .f32⟩
  | 88 => ⟨S500000x1, .f32⟩
  | 89 => ⟨S1x1, .f32⟩
  | 90 => ⟨S500000x1, .f32⟩
  | 91 => ⟨S500000x1, .f32⟩
  | 92 => ⟨S500000x1, .f32⟩
  | 93 => ⟨S500000x1, .f32⟩
  | 94 => ⟨S_, .f32⟩
  | 95 => ⟨S500000x1, .f32⟩
  | 96 => ⟨S500000x1, .f32⟩
  | 97 => ⟨S_, .f32⟩
  | 98 => ⟨S500000x1, .f32⟩
  | 99 => ⟨S500000x1, .f32⟩
  | 100 => ⟨S500000x128, .f32⟩
  | 101 => ⟨S500000x128, .f32⟩
  | 102 => ⟨S500000x128, .f32⟩
  | 103 => ⟨S1x128, .f32⟩
  | 104 => ⟨S500000x128, .f32⟩
  | 105 => ⟨S500000x128, .f32⟩
  | 106 => ⟨S500000x128, .f32⟩
  | 107 => ⟨S500000x128, .f32⟩
  | 108 => ⟨S_, .f32⟩
  | 109 => ⟨S500000x128, .f32⟩
  | 110 => ⟨S500000x128, .f32⟩
  | 111 => ⟨S_, .f32⟩
  | 112 => ⟨S500000x128, .f32⟩
  | 113 => ⟨S500000x128, .f32⟩
  | 114 => ⟨S500000x128, .f32⟩
  | 115 => ⟨S500000x1, .f32⟩
  | 116 => ⟨S500000x3, .f32⟩
  | 117 => ⟨S500000x3, .f32⟩
  | 118 => ⟨S_, .f32⟩
  | 119 => ⟨S_, .f32⟩
  | 120 => ⟨S_, .f32⟩
  | 121 => ⟨S500000x3, .f32⟩
  | 122 => ⟨S500000x3, .f32⟩
  | 123 => ⟨S_, .f32⟩
  | 124 => ⟨S500000x3, .f32⟩
  | 125 => ⟨S500000x3, .f32⟩
  | 126 => ⟨S_, .f32⟩
  | 127 => ⟨S50000x3, .f32⟩
  | _ => ⟨S50000x128, .f32⟩

abbrev hbmTy0_1 (i : Nat) : BufTy := match i % 128 with
  | 0 => ⟨S500000x1, .i32⟩
  | 1 => ⟨S50000x3, .f32⟩
  | 2 => ⟨S_, .f32⟩
  | 3 => ⟨S500000x3, .f32⟩
  | 4 => ⟨S_, .f32⟩
  | 5 => ⟨S50000x3, .f32⟩
  | 6 => ⟨S500000x1, .i32⟩
  | 7 => ⟨S50000x3, .f32⟩
  | 8 => ⟨S_, .f32⟩
  | 9 => ⟨S_, .f32⟩
  | 10 => ⟨S50000x3, .f32⟩
  | 11 => ⟨S50000x3, .f32⟩
  | 12 => ⟨S50000x3, .f32⟩
  | 13 => ⟨S_, .f32⟩
  | 14 => ⟨S_, .f32⟩
  | 15 => ⟨S_, .f32⟩
  | 16 => ⟨S50000x3, .f32⟩
  | 17 => ⟨S50000x3, .f32⟩
  | 18 => ⟨S_, .f32⟩
  | 19 => ⟨S50000x3, .f32⟩
  | 20 => ⟨S50000x3, .f32⟩
  | 21 => ⟨S50000x3, .f32⟩
  | 22 => ⟨S_, .f32⟩
  | 23 => ⟨S50000x128, .f32⟩
  | 24 => ⟨S500000x1, .i32⟩
  | 25 => ⟨S50000x128, .f32⟩
  | 26 => ⟨S50000x256, .f32⟩
  | 27 => ⟨S50000x128, .f32⟩
  | 28 => ⟨S1x128, .f32⟩
  | 29 => ⟨S50000x128, .f32⟩
  | 30 => ⟨S50000x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S50000x128, .f32⟩
  | 40 => ⟨S50000x128, .f32⟩
  | 41 => ⟨S1x128, .f32⟩
  | 42 => ⟨S50000x128, .f32⟩
  | 43 => ⟨S50000x128, .f32⟩
  | 44 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst : Ref sig .tc := ⟨.hbm, 40, rfl⟩
abbrev main_v20 : Ref sig .tc := ⟨.hbm, 41, rfl⟩
abbrev main_v21 : Ref sig .tc := ⟨.hbm, 42, rfl⟩
abbrev main_c_3 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_call0_v5 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_call1_v0 : Ref sig .tc := ⟨.hbm, 79, rfl⟩
abbrev main_call1_v1 : Ref sig .tc := ⟨.hbm, 80, rfl⟩
abbrev main_call1_cst : Ref sig .tc := ⟨.hbm, 81, rfl⟩
abbrev main_call1_v2 : Ref sig .tc := ⟨.hbm, 82, rfl⟩
abbrev main_call1_v3 : Ref sig .tc := ⟨.hbm, 83, rfl⟩
abbrev main_call1_cst_0 : Ref sig .tc := ⟨.hbm, 84, rfl⟩
abbrev main_call1_v4 : Ref sig .tc := ⟨.hbm, 85, rfl⟩
abbrev main_call1_v5 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_cst_7 : Ref sig .tc := ⟨.hbm, 94, rfl⟩
abbrev main_v53 : Ref sig .tc := ⟨.hbm, 95, rfl⟩
abbrev main_v54 : Ref sig .tc := ⟨.hbm, 96, rfl⟩
abbrev main_cst_8 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_call2_v0 : Ref sig .tc := ⟨.hbm, 106, rfl⟩
abbrev main_call2_v1 : Ref sig .tc := ⟨.hbm, 107, rfl⟩
abbrev main_call2_cst : Ref sig .tc := ⟨.hbm, 108, rfl⟩
abbrev main_call2_v2 : Ref sig .tc := ⟨.hbm, 109, rfl⟩
abbrev main_call2_v3 : Ref sig .tc := ⟨.hbm, 110, rfl⟩
abbrev main_call2_cst_0 : Ref sig .tc := ⟨.hbm, 111, rfl⟩
abbrev main_call2_v4 : Ref sig .tc := ⟨.hbm, 112, rfl⟩
abbrev main_call2_v5 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_cst_9 : Ref sig .tc := ⟨.hbm, 118, rfl⟩
abbrev main_cst_10 : Ref sig .tc := ⟨.hbm, 119, rfl⟩
abbrev main_call3_v0 : Ref sig .tc := ⟨.hbm, 120, rfl⟩
abbrev main_call3_v1 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_v67 : Ref sig .tc := ⟨.hbm, 125, rfl⟩
abbrev main_cst_11 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_cst_12 : Ref sig .tc := ⟨.hbm, 130, rfl⟩
abbrev main_v71 : Ref sig .tc := ⟨.hbm, 131, rfl⟩
abbrev main_cst_13 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_cst_14 : Ref sig .tc := ⟨.hbm, 136, rfl⟩
abbrev main_call4_v0 : Ref sig .tc := ⟨.hbm, 137, rfl⟩
abbrev main_call4_v1 : Ref sig .tc := ⟨.hbm, 138, rfl⟩
abbrev main_v75 : Ref sig .tc := ⟨.hbm, 139, rfl⟩
abbrev main_v76 : Ref sig .tc := ⟨.hbm, 140, rfl⟩
abbrev main_cst_15 : Ref sig .tc := ⟨.hbm, 141, rfl⟩
abbrev main_cst_16 : Ref sig .tc := ⟨.hbm, 142, rfl⟩
abbrev main_call5_v0 : Ref sig .tc := ⟨.hbm, 143, rfl⟩
abbrev main_call5_v1 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_v77 : Ref sig .tc := ⟨.hbm, 148, rfl⟩
abbrev main_v78 : Ref sig .tc := ⟨.hbm, 149, rfl⟩
abbrev main_cst_17 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_call6_v0 : Ref sig .tc := ⟨.hbm, 159, rfl⟩
abbrev main_call6_v1 : Ref sig .tc := ⟨.hbm, 160, rfl⟩
abbrev main_call6_cst : Ref sig .tc := ⟨.hbm, 161, rfl⟩
abbrev main_call6_v2 : Ref sig .tc := ⟨.hbm, 162, rfl⟩
abbrev main_call6_v3 : Ref sig .tc := ⟨.hbm, 163, rfl⟩
abbrev main_call6_cst_0 : Ref sig .tc := ⟨.hbm, 164, rfl⟩
abbrev main_call6_v4 : Ref sig .tc := ⟨.hbm, 165, rfl⟩
abbrev main_call6_v5 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  reducesTo_S500000x3_S500000_d1 : S500000x3.ReducesTo [1] S500000
  h_S_ : 0 < S_.numel
  concatenates_S500000x128_S500000x128_S500000x1_S500000x257_d1 : Shape.Concatenates [S500000x128, S500000x128, S500000x1] S500000x257 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  bcast_S500000x1_S500000x128_0_1 : S500000x1.BroadcastsInDim S500000x128 (![0, 1] : Fin 2 → Fin S500000x128.rank)
  bcast_S500000x1_S500000x3_0_1 : S500000x1.BroadcastsInDim S500000x3 (![0, 1] : Fin 2 → Fin S500000x3.rank)
  bcast_S_S500000x3 : S_.BroadcastsInDim S500000x3 (![] : Fin 0 → Fin S500000x3.rank)
  bcast_S_S50000x3 : S_.BroadcastsInDim S50000x3 (![] : Fin 0 → Fin S50000x3.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x3_S500000x1_S500000x3_1_0_n_n_0_1_13_wf : GatherDims.WF S50000x3 S500000x1 S500000x3 [1] [0] [] [0] [] 1 ![1, 3]
  gather_S50000x128_S500000x1_S500000x128_1_0_n_n_0_1_1128_wf : GatherDims.WF S50000x128 S500000x1 S500000x128 [1] [0] [] [0] [] 1 ![1, 128]
  dot_S500000x257_S257x128_S500000x128_1_0_0_1_n_n_wf : DotDims.WF S500000x257 S257x128 S500000x128 [1] [0] [0] [1] [] []
  dot_S500000x128_S128x128_S500000x128_1_0_0_1_n_n_wf : DotDims.WF S500000x128 S128x128 S500000x128 [1] [0] [0] [1] [] []
  dot_S500000x128_S128x1_S500000x1_1_0_0_1_n_n_wf : DotDims.WF S500000x128 S128x1 S500000x1 [1] [0] [0] [1] [] []
  scatter_S50000x3_S500000x1_S500000x3_1_0_0_1_wf : ScatterDims.WF S50000x3 S500000x1 S500000x3 [1] [0] [0] 1
  scatter_S50000x128_S500000x1_S500000x128_1_0_0_1_wf : ScatterDims.WF S50000x128 S500000x1 S500000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x3_S500000x1_S500000x3_1_0_n_n_0_1_13 : GatherDims S50000x3 S500000x1 S500000x3 where
  offsetDims := [1]
  collapsedSliceDims := [0]
  operandBatchingDims := []
  startIndicesBatchingDims := []
  startIndexMap := [0]
  indexVectorDim := 1
  sliceSizes := ![1, 3]
  wf := gather_S50000x3_S500000x1_S500000x3_1_0_n_n_0_1_13_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x257_S257x128_S500000x128_1_0_0_1_n_n : DotDims S500000x257 S257x128 S500000x128 where
  lhsContracting := [1]
  rhsContracting := [0]
  lhsNonContracting := [0]
  rhsNonContracting := [1]
  lhsBatch := []
  rhsBatch := []
  wf := dot_S500000x257_S257x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf
def scatter_S50000x3_S500000x1_S500000x3_1_0_0_1 : ScatterDims S50000x3 S500000x1 S500000x3 where
  updateWindowDims := [1]
  insertedWindowDims := [0]
  scatterDimsToOperandDims := [0]
  indexVectorDim := 1
  wf := scatter_S50000x3_S500000x1_S500000x3_1_0_0_1_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RefRun.lean ====
/-
  The reference program's run, read stretch by stretch. Its 157 host operations are cut into four stretches, one cut
  before each concatenation: the index treatment, gathers, coordinate differences and squared distances (45
  operations); the three-piece concatenation alone; the edge perceptrons, the scatter sums and the coordinate update
  (92); the node perceptron (19). Over an arbitrary valuation each stretch leaves, in every buffer a later stretch
  reads, that buffer's stage as a function of what the stretch found; a buffer a stretch does not write keeps its
  contents. Chained from the launch memory this gives each result buffer at its stage of the arguments, and the
  arguments unchanged, for every weakly fair execution.
-/
import proofs.«409691_j59871844106306_3_alg».proof.Proof.RunP
import proofs.«409691_j59871844106306_3_alg».proof.Proof.ReadP
import Idealize.ShloMosaic.Lib.StableHlo.Run
import Idealize.ShloMosaic.Lib.Pipeline.Frame

noncomputable section

namespace Cert.ReferenceIdeal.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The first stretch: everything before the three-piece concatenation. -/
abbrev opsA : List (HloOp τ sig (Elt F)) :=
  [ unary main_arg1 main_v0 ((extractStridedSlice S1x500000 ![0, 0] · slices_S2x500000_S1x500000_0_0) : (⟨S2x500000, .i32⟩ : BufTy).Contents (Elt F) → (⟨S1x500000, .i32⟩ : BufTy).Contents (Elt F)),
    reshape main_v0 main_v1 rfl shapeCasts_S1x500000_S500000,
    unary main_arg1 main_v2 ((extractStridedSlice S1x500000 ![1, 0] · slices_S2x500000_S1x500000_1_0) : (⟨S2x500000, .i32⟩ : BufTy).Contents (Elt F) → (⟨S1x500000, .i32⟩ : BufTy).Contents (Elt F)),
    reshape main_v2 main_v3 rfl shapeCasts_S1x500000_S500000,
    nullary main_c (constantI S_ 32 0#32),
    unary main_c main_v4 (broadcastInDim S500000 ![] bcast_S_S500000 : (⟨S_, .i32⟩ : BufTy).Contents (Elt F) → (⟨S500000, .i32⟩ : BufTy).Contents (Elt F)),
    binary main_v1 main_v4 main_v5 (cmpi .slt : (⟨S500000, .i32⟩ : BufTy).Contents (Elt F) → (⟨S500000, .i32⟩ : BufTy).Contents (Elt F) → (⟨S500000, .i1⟩ : BufTy).Contents (Elt F)),
    nullary main_c_0 (constantI S_ 32 50000#32),
    unary main_c_0 main_v6 (broadcastInDim S500000 ![] bcast_S_S500000 : (⟨S_, .i32⟩ : BufTy).Contents (Elt F) → (⟨S500000, .i32⟩ : BufTy).Contents (Elt F)),
    binary main_v1 main_v6 main_v7 (addi : (⟨S500000, .i32⟩ : BufTy).Contents (Elt F) → (⟨S500000, .i32⟩ : BufTy).Contents (Elt F) → (⟨S500000, .i32⟩ : BufTy).Contents (Elt F)),
    ternary main_v5 main_v7 main_v1 main_v8 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v8 main_v9 (broadcastInDim S500000x1 ![0] bcast_S500000_S500000x1_0 : (⟨S500000, .i32⟩ : BufTy).Contents (Elt F) → (⟨S500000x1, .i32⟩ : BufTy).Contents (Elt F)),
    binary main_arg2 main_v9 main_v10 ((fun x i => Host.gather gather_S50000x3_S500000x1_S500000x3_1_0_n_n_0_1_13 x i) : (⟨S50000x3, .f32⟩ : BufTy).Contents (Elt F) → (⟨S500000x1, .i32⟩ : BufTy).Contents (Elt F) → (⟨S500000x3, .f32⟩ : BufTy).Contents (Elt F)),
    nullary main_c_1 (constantI S_ 32 0#32),
    unary main_c_1 main_v11 (broadcastInDim S500000 ![] bcast_S_S500000 : (⟨S_, .i32⟩ : BufTy).Contents (Elt F) → (⟨S500000, .i32⟩ : BufTy).Contents (Elt F)),
    binary main_v3 main_v11 main_v12 (cmpi .slt : (⟨S500000, .i32⟩ : BufTy).Contents (Elt F) → (⟨S500000, .i32⟩ : BufTy).Contents (Elt F) → (⟨S500000, .i1⟩ : BufTy).Contents (Elt F)),
    nullary main_c_2 (constantI S_ 32 50000#32),
    unary main_c_2 main_v13 (broadcastInDim S500000 ![] bcast_S_S500000 : (⟨S_, .i32⟩ : BufTy).Contents (Elt F) → (⟨S500000, .i32⟩ : BufTy).Contents (Elt F)),
    binary main_v3 main_v13 main_v14 (addi : (⟨S500000, .i32⟩ : BufTy).Contents (Elt F) → (⟨S500000, .i32⟩ : BufTy).Contents (Elt F) → (⟨S500000, .i32⟩ : BufTy).Contents (Elt F)),
    ternary main_v12 main_v14 main_v3 main_v15 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v15 main_v16 (broadcastInDim S500000x1 ![0] bcast_S500000_S500000x1_0 : (⟨S500000, .i32⟩ : BufTy).Contents (Elt F) → (⟨S500000x1, .i32⟩ : BufTy).Contents (Elt F)),
    binary main_arg2 main_v16 main_v17 ((fun x i => Host.gather gather_S50000x3_S500000x1_S500000x3_1_0_n_n_0_1_13 x i) : (⟨S50000x3, .f32⟩ : BufTy).Contents (Elt F) → (⟨S500000x1, .i32⟩ : BufTy).Contents (Elt F) → (⟨S500000x3, .f32⟩ : BufTy).Contents (Elt F)),
    binary main_v10 main_v17 main_v18 (subf : (⟨S500000x3, .f32⟩ : BufTy).Contents (Elt F) → (⟨S500000x3, .f32⟩ : BufTy).Contents (Elt F) → (⟨S500000x3, .f32⟩ : BufTy).Contents (Elt F)),
    binary main_v18 main_v18 main_v19 (mulf : (⟨S500000x3, .f32⟩ : BufTy).Contents (Elt F) → (⟨S500000x3, .f32⟩ : BufTy).Contents (Elt F) → (⟨S500000x3, .f32⟩ : BufTy).Contents (Elt F)),
    nullary main_cst (constant S_ .f32 0x00000000#32),
    binary main_v19 main_cst main_v20 ((fun x v => Host.reduceAdd x v reducesTo_S500000x3_S500000_d1 h_S_) : (⟨S500000x3, .f32⟩ : BufTy).Contents (Elt F) → (⟨S_, .f32⟩ : BufTy).Contents (Elt F) → (⟨S500000, .f32⟩ : BufTy).Contents (Elt F)),
    unary main_v20 main_v21 (broadcastInDim S500000x1 ![0] bcast_S500000_S500000x1_0 : (⟨S500000, .f32⟩ : BufTy).Contents (Elt F) → (⟨S500000x1, .f32⟩ : BufTy).Contents (Elt F)),
    nullary main_c_3 (constantI S_ 32 0#32),
    unary main_c_3 main_v22 (broadcastInDim S500000 ![] bcast_S_S500000 : (⟨S_, .i32⟩ : BufTy).Contents (Elt F) → (⟨S500000, .i32⟩ : BufTy).Contents (Elt F)),
    binary main_v1 main_v22 main_v23 (cmpi .slt : (⟨S500000, .i32⟩ : BufTy).Contents (Elt F) → (⟨S500000, .i32⟩ : BufTy).Contents (Elt F) → (⟨S500000, .i1⟩ : BufTy).Contents (Elt F)),
    nullary main_c_4 (constantI S_ 32 50000#32),
    unary main_c_4 main_v24 (broadcastInDim S500000 ![] bcast_S_S500000 : (⟨S_, .i32⟩ : BufTy).Contents (Elt F) → (⟨S500000, .i32⟩ : BufTy).Contents (Elt F)),
    binary main_v1 main_v24 main_v25 (addi : (⟨S500000, .i32⟩ : BufTy).Contents (Elt F) → (⟨S500000, .i32⟩ : BufTy).Contents (Elt F) → (⟨S500000, .i32⟩ : BufTy).Contents (Elt F)),
    ternary main_v23 main_v25 main_v1 main_v26 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v26 main_v27 (broadcastInDim S500000x1 ![0] bcast_S500000_S500000x1_0 : (⟨S500000, .i32⟩ : BufTy).Contents (Elt F) → (⟨S500000x1, .i32⟩ : BufTy).Contents (Elt F)),
    binary main_arg0 main_v27 main_v28 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    nullary main_c_5 (constantI S_ 32 0#32),
    unary main_c_5 main_v29 (broadcastInDim S500000 ![] bcast_S_S500000 : (⟨S_, .i32⟩ : BufTy).Contents (Elt F) → (⟨S500000, .i32⟩ : BufTy).Contents (Elt F)),
    binary main_v3 main_v29 main_v30 (cmpi .slt : (⟨S500000, .i32⟩ : BufTy).Contents (Elt F) → (⟨S500000, .i32⟩ : BufTy).Contents (Elt F) → (⟨S500000, .i1⟩ : BufTy).Contents (Elt F)),
    nullary main_c_6 (constantI S_ 32 50000#32),
    unary main_c_6 main_v31 (broadcastInDim S500000 ![] bcast_S_S500000 : (⟨S_, .i32⟩ : BufTy).Contents (Elt F) → (⟨S500000, .i32⟩ : BufTy).Contents (Elt F)),
    binary main_v3 main_v31 main_v32 (addi : (⟨S500000, .i32⟩ : BufTy).Contents (Elt F) → (⟨S500000, .i32⟩ : BufTy).Contents (Elt F) → (⟨S500000, .i32⟩ : BufTy).Contents (Elt F)),
    ternary main_v30 main_v32 main_v3 main_v33 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v33 main_v34 (broadcastInDim S500000x1 ![0] bcast_S500000_S500000x1_0 : (⟨S500000, .i32⟩ : BufTy).Contents (Elt F) → (⟨S500000x1, .i32⟩ : BufTy).Contents (Elt F)),
    binary main_arg0 main_v34 main_v35 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)) ]

/-- The three-piece concatenation [source features, target features, squared distance]. -/
abbrev opsK : List (HloOp τ sig (Elt F)) :=
  [ nary ![main_v28, main_v35, main_v21] main_v36 (fun u => concatenate S500000x257 1 [⟨S500000x128, u 0⟩, ⟨S500000x128, u 1⟩, ⟨S500000x1, u 2⟩] concatenates_S500000x128_S500000x128_S500000x1_S500000x257_d1) ]

/-- The edge perceptrons, the scatter sums and the coordinate update. -/
abbrev opsB : List (HloOp τ sig (Elt F)) :=
  [ binary main_v36 main_arg3 main_v37 ((fun l r => Host.dotGeneral dot_S500000x257_S257x128_S500000x128_1_0_0_1_n_n none l r) : (⟨S500000x257, .f32⟩ : BufTy).Contents (Elt F) → (⟨S257x128, .f32⟩ : BufTy).Contents (Elt F) → (⟨S500000x128, .f32⟩ : BufTy).Contents (Elt F)),
    unary main_arg4 main_v38 (broadcastInDim S1x128 ![1] bcast_S128_S1x128_1 : (⟨S128, .f32⟩ : BufTy).Contents (Elt F) → (⟨S1x128, .f32⟩ : BufTy).Contents (Elt F)),
    unary main_v38 main_v39 (broadcastInDim S500000x128 ![0, 1] bcast_S1x128_S500000x128_0_1 : (⟨S1x128, .f32⟩ : BufTy).Contents (Elt F) → (⟨S500000x128, .f32⟩ : BufTy).Contents (Elt F)),
    binary main_v37 main_v39 main_v40 (addf : (⟨S500000x128, .f32⟩ : BufTy).Contents (Elt F) → (⟨S500000x128, .f32⟩ : BufTy).Contents (Elt F) → (⟨S500000x128, .f32⟩ : BufTy).Contents (Elt F)),
    TRef.unary (TRef.of (T := ⟨S500000x128, .f32⟩) main_v40) (TRef.of (T := ⟨S500000x128, .f32⟩) main_call0_v0) Host.negf,
    TRef.unary (TRef.of (T := ⟨S500000x128, .f32⟩) main_call0_v0) (TRef.of (T := ⟨S500000x128, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S500000x128, .f32⟩) main_call0_v2) (broadcastInDim S500000x128 ![] bcast_S_S500000x128),
    TRef.binary (TRef.of (T := ⟨S500000x128, .f32⟩) main_call0_v2) (TRef.of (T := ⟨S500000x128, .f32⟩) main_call0_v1) (TRef.of (T := ⟨S500000x128, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S500000x128, .f32⟩) main_call0_v4) (broadcastInDim S500000x128 ![] bcast_S_S500000x128),
    TRef.binary (TRef.of (T := ⟨S500000x128, .f32⟩) main_call0_v4) (TRef.of (T := ⟨S500000x128, .f32⟩) main_call0_v3) (TRef.of (T := ⟨S500000x128, .f32⟩) main_call0_v5) Host.divf,
    TRef.binary (TRef.of (T := ⟨S500000x128, .f32⟩) main_v40) (TRef.of (T := ⟨S500000x128, .f32⟩) main_call0_v5) (TRef.of (T := ⟨S500000x128, .f32⟩) main_v41) mulf,
    binary main_v41 main_arg5 main_v42 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    unary main_arg6 main_v43 (broadcastInDim S1x128 ![1] bcast_S128_S1x128_1 : (⟨S128, .f32⟩ : BufTy).Contents (Elt F) → (⟨S1x128, .f32⟩ : BufTy).Contents (Elt F)),
    unary main_v43 main_v44 (broadcastInDim S500000x128 ![0, 1] bcast_S1x128_S500000x128_0_1 : (⟨S1x128, .f32⟩ : BufTy).Contents (Elt F) → (⟨S500000x128, .f32⟩ : BufTy).Contents (Elt F)),
    binary main_v42 main_v44 main_v45 (addf : (⟨S500000x128, .f32⟩ : BufTy).Contents (Elt F) → (⟨S500000x128, .f32⟩ : BufTy).Contents (Elt F) → (⟨S500000x128, .f32⟩ : BufTy).Contents (Elt F)),
    TRef.unary (TRef.of (T := ⟨S500000x128, .f32⟩) main_v45) (TRef.of (T := ⟨S500000x128, .f32⟩) main_call1_v0) Host.negf,
    TRef.unary (TRef.of (T := ⟨S500000x128, .f32⟩) main_call1_v0) (TRef.of (T := ⟨S500000x128, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S500000x128, .f32⟩) main_call1_v2) (broadcastInDim S500000x128 ![] bcast_S_S500000x128),
    TRef.binary (TRef.of (T := ⟨S500000x128, .f32⟩) main_call1_v2) (TRef.of (T := ⟨S500000x128, .f32⟩) main_call1_v1) (TRef.of (T := ⟨S500000x128, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S500000x128, .f32⟩) main_call1_v4) (broadcastInDim S500000x128 ![] bcast_S_S500000x128),
    TRef.binary (TRef.of (T := ⟨S500000x128, .f32⟩) main_call1_v4) (TRef.of (T := ⟨S500000x128, .f32⟩) main_call1_v3) (TRef.of (T := ⟨S500000x128, .f32⟩) main_call1_v5) Host.divf,
    TRef.binary (TRef.of (T := ⟨S500000x128, .f32⟩) main_v45) (TRef.of (T := ⟨S500000x128, .f32⟩) main_call1_v5) (TRef.of (T := ⟨S500000x128, .f32⟩) main_v46) mulf,
    binary main_v46 main_arg7 main_v47 ((fun l r => Host.dotGeneral dot_S500000x128_S128x1_S500000x1_1_0_0_1_n_n none l r) : (⟨S500000x128, .f32⟩ : BufTy).Contents (Elt F) → (⟨S128x1, .f32⟩ : BufTy).Contents (Elt F) → (⟨S500000x1, .f32⟩ : BufTy).Contents (Elt F)),
    unary main_arg8 main_v48 (broadcastInDim S1x1 ![1] bcast_S1_S1x1_1 : (⟨S1, .f32⟩ : BufTy).Contents (Elt F) → (⟨S1x1, .f32⟩ : BufTy).Contents (Elt F)),
    unary main_v48 main_v49 (broadcastInDim S500000x1 ![0, 1] bcast_S1x1_S500000x1_0_1 : (⟨S1x1, .f32⟩ : BufTy).Contents (Elt F) → (⟨S500000x1, .f32⟩ : BufTy).Contents (Elt F)),
    binary main_v47 main_v49 main_v50 (addf : (⟨S500000x1, .f32⟩ : BufTy).Contents (Elt F) → (⟨S500000x1, .f32⟩ : BufTy).Contents (Elt F) → (⟨S500000x1, .f32⟩ : BufTy).Contents (Elt F)),
    unary main_v50 main_v51 (Host.negf : (⟨S500000x1, .f32⟩ : BufTy).Contents (Elt F) → (⟨S500000x1, .f32⟩ : BufTy).Contents (Elt F)),
    unary main_v51 main_v52 (Host.exp : (⟨S500000x1, .f32⟩ : BufTy).Contents (Elt F) → (⟨S500000x1, .f32⟩ : BufTy).Contents (Elt F)),
    nullary main_cst_7 (constant S_ .f32 0x3F800000#32),
    unary main_cst_7 main_v53 (broadcastInDim S500000x1 ![] bcast_S_S500000x1 : (⟨S_, .f32⟩ : BufTy).Contents (Elt F) → (⟨S500000x1, .f32⟩ : BufTy).Contents (Elt F)),
    binary main_v53 main_v52 main_v54 (addf : (⟨S500000x1, .f32⟩ : BufTy).Contents (Elt F) → (⟨S500000x1, .f32⟩ : BufTy).Contents (Elt F) → (⟨S500000x1, .f32⟩ : BufTy).Contents (Elt F)),
    nullary main_cst_8 (constant S_ .f32 0x3F800000#32),
    unary main_cst_8 main_v55 (broadcastInDim S500000x1 ![] bcast_S_S500000x1 : (⟨S_, .f32⟩ : BufTy).Contents (Elt F) → (⟨S500000x1, .f32⟩ : BufTy).Contents (Elt F)),
    binary main_v55 main_v54 main_v56 (Host.divf : (⟨S500000x1, .f32⟩ : BufTy).Contents (Elt F) → (⟨S500000x1, .f32⟩ : BufTy).Contents (Elt F) → (⟨S500000x1, .f32⟩ : BufTy).Contents (Elt F)),
    unary main_v56 main_v57 (broadcastInDim S500000x128 ![0, 1] bcast_S500000x1_S500000x128_0_1 : (⟨S500000x1, .f32⟩ : BufTy).Contents (Elt F) → (⟨S500000x128, .f32⟩ : BufTy).Contents (Elt F)),
    binary main_v46 main_v57 main_v58 (mulf : (⟨S500000x128, .f32⟩ : BufTy).Contents (Elt F) → (⟨S500000x128, .f32⟩ : BufTy).Contents (Elt F) → (⟨S500000x128, .f32⟩ : BufTy).Contents (Elt F)),
    binary main_v58 main_arg9 main_v59 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    unary main_arg10 main_v60 (broadcastInDim S1x128 ![1] bcast_S128_S1x128_1 : (⟨S128, .f32⟩ : BufTy).Contents (Elt F) → (⟨S1x128, .f32⟩ : BufTy).Contents (Elt F)),
    unary main_v60 main_v61 (broadcastInDim S500000x128 ![0, 1] bcast_S1x128_S500000x128_0_1 : (⟨S1x128, .f32⟩ : BufTy).Contents (Elt F) → (⟨S500000x128, .f32⟩ : BufTy).Contents (Elt F)),
    binary main_v59 main_v61 main_v62 (addf : (⟨S500000x128, .f32⟩ : BufTy).Contents (Elt F) → (⟨S500000x128, .f32⟩ : BufTy).Contents (Elt F) → (⟨S500000x128, .f32⟩ : BufTy).Contents (Elt F)),
    TRef.unary (TRef.of (T := ⟨S500000x128, .f32⟩) main_v62) (TRef.of (T := ⟨S500000x128, .f32⟩) main_call2_v0) Host.negf,
    TRef.unary (TRef.of (T := ⟨S500000x128, .f32⟩) main_call2_v0) (TRef.of (T := ⟨S500000x128, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S500000x128, .f32⟩) main_call2_v2) (broadcastInDim S500000x128 ![] bcast_S_S500000x128),
    TRef.binary (TRef.of (T := ⟨S500000x128, .f32⟩) main_call2_v2) (TRef.of (T := ⟨S500000x128, .f32⟩) main_call2_v1) (TRef.of (T := ⟨S500000x128, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S500000x128, .f32⟩) main_call2_v4) (broadcastInDim S500000x128 ![] bcast_S_S500000x128),
    TRef.binary (TRef.of (T := ⟨S500000x128, .f32⟩) main_call2_v4) (TRef.of (T := ⟨S500000x128, .f32⟩) main_call2_v3) (TRef.of (T := ⟨S500000x128, .f32⟩) main_call2_v5) Host.divf,
    TRef.binary (TRef.of (T := ⟨S500000x128, .f32⟩) main_v62) (TRef.of (T := ⟨S500000x128, .f32⟩) main_call2_v5) (TRef.of (T := ⟨S500000x128, .f32⟩) main_v63) mulf,
    binary main_v63 main_arg11 main_v64 ((fun l r => Host.dotGeneral dot_S500000x128_S128x1_S500000x1_1_0_0_1_n_n none l r) : (⟨S500000x128, .f32⟩ : BufTy).Contents (Elt F) → (⟨S128x1, .f32⟩ : BufTy).Contents (Elt F) → (⟨S500000x1, .f32⟩ : BufTy).Contents (Elt F)),
    unary main_v64 main_v65 (broadcastInDim S500000x3 ![0, 1] bcast_S500000x1_S500000x3_0_1 : (⟨S500000x1, .f32⟩ : BufTy).Contents (Elt F) → (⟨S500000x3, .f32⟩ : BufTy).Contents (Elt F)),
    binary main_v18 main_v65 main_v66 (mulf : (⟨S500000x3, .f32⟩ : BufTy).Contents (Elt F) → (⟨S500000x3, .f32⟩ : BufTy).Contents (Elt F) → (⟨S500000x3, .f32⟩ : BufTy).Contents (Elt F)),
    nullary main_cst_9 (constant S_ .f32 0xC1200000#32),
    nullary main_cst_10 (constant S_ .f32 0x41200000#32),
    TRef.unary (TRef.of (T := ⟨S_, .f32⟩) main_cst_9) (TRef.of (T := ⟨S_, .f32⟩) main_call3_v0) id,
    TRef.unary (TRef.of (T := ⟨S_, .f32⟩) main_call3_v0) (TRef.of (T := ⟨S500000x3, .f32⟩) main_call3_v1) (broadcastInDim S500000x3 ![] bcast_S_S500000x3),
    TRef.binary (TRef.of (T := ⟨S500000x3, .f32⟩) main_call3_v1) (TRef.of (T := ⟨S500000x3, .f32⟩) main_v66) (TRef.of (T := ⟨S500000x3, .f32⟩) main_call3_v2) maximumf,
    TRef.unary (TRef.of (T := ⟨S_, .f32⟩) main_cst_10) (TRef.of (T := ⟨S_, .f32⟩) main_call3_v3) id,
    TRef.unary (TRef.of (T := ⟨S_, .f32⟩) main_call3_v3) (TRef.of (T := ⟨S500000x3, .f32⟩) main_call3_v4) (broadcastInDim S500000x3 ![] bcast_S_S500000x3),
    TRef.binary (TRef.of (T := ⟨S500000x3, .f32⟩) main_call3_v4) (TRef.of (T := ⟨S500000x3, .f32⟩) main_call3_v2) (TRef.of (T := ⟨S500000x3, .f32⟩) main_v67) minimumf,
    nullary main_cst_11 (constant S_ .f32 0x00000000#32),
    unary main_cst_11 main_v68 (broadcastInDim S50000x3 ![] bcast_S_S50000x3 : (⟨S_, .f32⟩ : BufTy).Contents (Elt F) → (⟨S50000x3, .f32⟩ : BufTy).Contents (Elt F)),
    unary main_v1 main_v69 (broadcastInDim S500000x1 ![0] bcast_S500000_S500000x1_0 : (⟨S500000, .i32⟩ : BufTy).Contents (Elt F) → (⟨S500000x1, .i32⟩ : BufTy).Contents (Elt F)),
    ternary main_v68 main_v69 main_v67 main_v70 ((fun x i u => Host.scatterAdd scatter_S50000x3_S500000x1_S500000x3_1_0_0_1 x i u) : (⟨S50000x3, .f32⟩ : BufTy).Contents (Elt F) → (⟨S500000x1, .i32⟩ : BufTy).Contents (Elt F) → (⟨S500000x3, .f32⟩ : BufTy).Contents (Elt F) → (⟨S50000x3, .f32⟩ : BufTy).Contents (Elt F)),
    nullary main_cst_12 (constant S_ .f32 0x3F800000#32),
    unary main_cst_12 main_v71 (broadcastInDim S500000x3 ![] bcast_S_S500000x3 : (⟨S_, .f32⟩ : BufTy).Contents (Elt F) → (⟨S500000x3, .f32⟩ : BufTy).Contents (Elt F)),
    nullary main_cst_13 (constant S_ .f32 0x00000000#32),
    unary main_cst_13 main_v72 (broadcastInDim S50000x3 ![] bcast_S_S50000x3 : (⟨S_, .f32⟩ : BufTy).Contents (Elt F) → (⟨S50000x3, .f32⟩ : BufTy).Contents (Elt F)),
    unary main_v1 main_v73 (broadcastInDim S500000x1 ![0] bcast_S500000_S500000x1_0 : (⟨S500000, .i32⟩ : BufTy).Contents (Elt F) → (⟨S500000x1, .i32⟩ : BufTy).Contents (Elt F)),
    ternary main_v72 main_v73 main_v71 main_v74 ((fun x i u => Host.scatterAdd scatter_S50000x3_S500000x1_S500000x3_1_0_0_1 x i u) : (⟨S50000x3, .f32⟩ : BufTy).Contents (Elt F) → (⟨S500000x1, .i32⟩ : BufTy).Contents (Elt F) → (⟨S500000x3, .f32⟩ : BufTy).Contents (Elt F) → (⟨S50000x3, .f32⟩ : BufTy).Contents (Elt F)),
    nullary main_cst_14 (constant S_ .f32 0x3F800000#32),
    TRef.unary (TRef.of (T := ⟨S_, .f32⟩) main_cst_14) (TRef.of (T := ⟨S_, .f32⟩) main_call4_v0) id,
    TRef.unary (TRef.of (T := ⟨S_, .f32⟩) main_call4_v0) (TRef.of (T := ⟨S50000x3, .f32⟩) main_call4_v1) (broadcastInDim S50000x3 ![] bcast_S_S50000x3),
    TRef.binary (TRef.of (T := ⟨S50000x3, .f32⟩) main_call4_v1) (TRef.of (T := ⟨S50000x3, .f32⟩) main_v74) (TRef.of (T := ⟨S50000x3, .f32⟩) main_v75) maximumf,
    binary main_v70 main_v75 main_v76 (Host.divf : (⟨S50000x3, .f32⟩ : BufTy).Contents (Elt F) → (⟨S50000x3, .f32⟩ : BufTy).Contents (Elt F) → (⟨S50000x3, .f32⟩ : BufTy).Contents (Elt F)),
    nullary main_cst_15 (constant S_ .f32 0xC1200000#32),
    nullary main_cst_16 (constant S_ .f32 0x41200000#32),
    TRef.unary (TRef.of (T := ⟨S_, .f32⟩) main_cst_15) (TRef.of (T := ⟨S_, .f32⟩) main_call5_v0) id,
    TRef.unary (TRef.of (T := ⟨S_, .f32⟩) main_call5_v0) (TRef.of (T := ⟨S50000x3, .f32⟩) main_call5_v1) (broadcastInDim S50000x3 ![] bcast_S_S50000x3),
    TRef.binary (TRef.of (T := ⟨S50000x3, .f32⟩) main_call5_v1) (TRef.of (T := ⟨S50000x3, .f32⟩) main_v76) (TRef.of (T := ⟨S50000x3, .f32⟩) main_call5_v2) maximumf,
    TRef.unary (TRef.of (T := ⟨S_, .f32⟩) main_cst_16) (TRef.of (T := ⟨S_, .f32⟩) main_call5_v3) id,
    TRef.unary (TRef.of (T := ⟨S_, .f32⟩) main_call5_v3) (TRef.of (T := ⟨S50000x3, .f32⟩) main_call5_v4) (broadcastInDim S50000x3 ![] bcast_S_S50000x3),
    TRef.binary (TRef.of (T := ⟨S50000x3, .f32⟩) main_call5_v4) (TRef.of (T := ⟨S50000x3, .f32⟩) main_call5_v2) (TRef.of (T := ⟨S50000x3, .f32⟩) main_v77) minimumf,
    binary main_arg2 main_v77 main_v78 (addf : (⟨S50000x3, .f32⟩ : BufTy).Contents (Elt F) → (⟨S50000x3, .f32⟩ : BufTy).Contents (Elt F) → (⟨S50000x3, .f32⟩ : BufTy).Contents (Elt F)),
    nullary main_cst_17 (constant S_ .f32 0x00000000#32),
    unary main_cst_17 main_v79 (broadcastInDim S50000x128 ![] bcast_S_S50000x128 : (⟨S_, .f32⟩ : BufTy).Contents (Elt F) → (⟨S50000x128, .f32⟩ : BufTy).Contents (Elt F)),
    unary main_v1 main_v80 (broadcastInDim S500000x1 ![0] bcast_S500000_S500000x1_0 : (⟨S500000, .i32⟩ : BufTy).Contents (Elt F) → (⟨S500000x1, .i32⟩ : BufTy).Contents (Elt F)),
    ternary main_v79 main_v80 main_v58 main_v81 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)) ]

/-- The node perceptron, from the two-piece concatenation on. -/
abbrev opsC : List (HloOp τ sig (Elt F)) :=
  [ binary main_arg0 main_v81 main_v82 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v82 main_arg12 main_v83 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg13 main_v84 (broadcastInDim S1x128 ![1] bcast_S128_S1x128_1 : (⟨S128, .f32⟩ : BufTy).Contents (Elt F) → (⟨S1x128, .f32⟩ : BufTy).Contents (Elt F)),
    unary main_v84 main_v85 (broadcastInDim S50000x128 ![0, 1] bcast_S1x128_S50000x128_0_1 : (⟨S1x128, .f32⟩ : BufTy).Contents (Elt F) → (⟨S50000x128, .f32⟩ : BufTy).Contents (Elt F)),
    binary main_v83 main_v85 main_v86 (addf : (⟨S50000x128, .f32⟩ : BufTy).Contents (Elt F) → (⟨S50000x128, .f32⟩ : BufTy).Contents (Elt F) → (⟨S50000x128, .f32⟩ : BufTy).Contents (Elt F)),
    TRef.unary (TRef.of (T := ⟨S50000x128, .f32⟩) main_v86) (TRef.of (T := ⟨S50000x128, .f32⟩) main_call6_v0) Host.negf,
    TRef.unary (TRef.of (T := ⟨S50000x128, .f32⟩) main_call6_v0) (TRef.of (T := ⟨S50000x128, .f32⟩) main_call6_v1) Host.exp,
    TRef.nullary (TRef.of (T := ⟨S_, .f32⟩) main_call6_cst) (constant S_ .f32 0x3F800000#32),
    TRef.unary (TRef.of (T := ⟨S_, .f32⟩) main_call6_cst) (TRef.of (T := ⟨S50000x128, .f32⟩) main_call6_v2) (broadcastInDim S50000x128 ![] bcast_S_S50000x128),
    TRef.binary (TRef.of (T := ⟨S50000x128, .f32⟩) main_call6_v2) (TRef.of (T := ⟨S50000x128, .f32⟩) main_call6_v1) (TRef.of (T := ⟨S50000x128, .f32⟩) main_call6_v3) addf,
    TRef.nullary (TRef.of (T := ⟨S_, .f32⟩) main_call6_cst_0) (constant S_ .f32 0x3F800000#32),
    TRef.unary (TRef.of (T := ⟨S_, .f32⟩) main_call6_cst_0) (TRef.of (T := ⟨S50000x128, .f32⟩) main_call6_v4) (broadcastInDim S50000x128 ![] bcast_S_S50000x128),
    TRef.binary (TRef.of (T := ⟨S50000x128, .f32⟩) main_call6_v4) (TRef.of (T := ⟨S50000x128, .f32⟩) main_call6_v3) (TRef.of (T := ⟨S50000x128, .f32⟩) main_call6_v5) Host.divf,
    TRef.binary (TRef.of (T := ⟨S50000x128, .f32⟩) main_v86) (TRef.of (T := ⟨S50000x128, .f32⟩) main_call6_v5) (TRef.of (T := ⟨S50000x128, .f32⟩) main_v87) mulf,
    binary main_v87 main_arg14 main_v88 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg15 main_v89 (broadcastInDim S1x128 ![1] bcast_S128_S1x128_1 : (⟨S128, .f32⟩ : BufTy).Contents (Elt F) → (⟨S1x128, .f32⟩ : BufTy).Contents (Elt F)),
    unary main_v89 main_v90 (broadcastInDim S50000x128 ![0, 1] bcast_S1x128_S50000x128_0_1 : (⟨S1x128, .f32⟩ : BufTy).Contents (Elt F) → (⟨S50000x128, .f32⟩ : BufTy).Contents (Elt F)),
    binary main_v88 main_v90 main_v91 (addf : (⟨S50000x128, .f32⟩ : BufTy).Contents (Elt F) → (⟨S50000x128, .f32⟩ : BufTy).Contents (Elt F) → (⟨S50000x128, .f32⟩ : BufTy).Contents (Elt F)),
    binary main_arg0 main_v91 main_v92 (addf : (⟨S50000x128, .f32⟩ : BufTy).Contents (Elt F) → (⟨S50000x128, .f32⟩ : BufTy).Contents (Elt F) → (⟨S50000x128, .f32⟩ : BufTy).Contents (Elt F)) ]

theorem ops_cut : (ops : List (HloOp τ sig (Elt F))) = opsA ++ (opsK ++ (opsB ++ opsC)) := rfl

theorem after_cut (V : Valuation τ sig (Elt F)) :
    after ops V = after opsC (after opsB (after opsK (after opsA V))) := by
  rw [ops_cut, StableHlo.after_append, StableHlo.after_append, StableHlo.after_append]

/-! ## The first stretch: index treatment, gathers, coordinate differences, squared distances -/

set_option maxHeartbeats 4000000 in
theorem a28 (V : Valuation τ sig (Elt F)) :
    after opsA V (Proc.devRef .tc main_v28) = val_main_v28 (F := F) (V (Proc.devRef .tc main_arg0)) (V (Proc.devRef .tc main_arg1)) := by
  after_results_simp <;> rfl

set_option maxHeartbeats 4000000 in
theorem a35 (V : Valuation τ sig (Elt F)) :
    after opsA V (Proc.devRef .tc main_v35) = val_main_v35 (F := F) (V (Proc.devRef .tc main_arg0)) (V (Proc.devRef .tc main_arg1)) := by
  after_results_simp <;> rfl

set_option maxHeartbeats 4000000 in
theorem a21 (V : Valuation τ sig (Elt F)) :
    after opsA V (Proc.devRef .tc main_v21) = val_main_v21 (F := F) (V (Proc.devRef .tc main_arg1)) (V (Proc.devRef .tc main_arg2)) := by
  after_results_simp <;> rfl

set_option maxHeartbeats 4000000 in
theorem a18 (V : Valuation τ sig (Elt F)) :
    after opsA V (Proc.devRef .tc main_v18) = val_main_v18 (F := F) (V (Proc.devRef .tc main_arg1)) (V (Proc.devRef .tc main_arg2)) := by
  after_results_simp <;> rfl

set_option maxHeartbeats 4000000 in
theorem a1 (V : Valuation τ sig (Elt F)) :
    after opsA V (Proc.devRef .tc main_v1) = val_main_v1 (F := F) (V (Proc.devRef .tc main_arg1)) := by
  after_results_simp <;> rfl

set_option maxHeartbeats 4000000 in
theorem keptA_main_arg0 (V : Valuation τ sig (Elt F)) : after opsA V (Proc.devRef .tc main_arg0) = V (Proc.devRef .tc main_arg0) := by
  after_results_simp <;> rfl

set_option maxHeartbeats 4000000 in
theorem keptA_main_arg2 (V : Valuation τ sig (Elt F)) : after opsA V (Proc.devRef .tc main_arg2) = V (Proc.devRef .tc main_arg2) := by
  after_results_simp <;> rfl

set_option maxHeartbeats 4000000 in
theorem keptA_main_arg3 (V : Valuation τ sig (Elt F)) : after opsA V (Proc.devRef .tc main_arg3) = V (Proc.devRef .tc main_arg3) := by
  after_results_simp <;> rfl

set_option maxHeartbeats 4000000 in
theorem keptA_main_arg4 (V : Valuation τ sig (Elt F)) : after opsA V (Proc.devRef .tc main_arg4) = V (Proc.devRef .tc main_arg4) := by
  after_results_simp <;> rfl

set_option maxHeartbeats 4000000 in
theorem keptA_main_arg5 (V : Valuation τ sig (Elt F)) : after opsA V (Proc.devRef .tc main_arg5) = V (Proc.devRef .tc main_arg5) := by
  after_results_simp <;> rfl

set_option maxHeartbeats 4000000 in
theorem keptA_main_arg6 (V : Valuation τ sig (Elt F)) : after opsA V (Proc.devRef .tc main_arg6) = V (Proc.devRef .tc main_arg6) := by
  after_results_simp <;> rfl

set_option maxHeartbeats 4000000 in
theorem keptA_main_arg7 (V : Valuation τ sig (Elt F)) : after opsA V (Proc.devRef .tc main_arg7) = V (Proc.devRef .tc main_arg7) := by
  after_results_simp <;> rfl

set_option maxHeartbeats 4000000 in
theorem keptA_main_arg8 (V : Valuation τ sig (Elt F)) : after opsA V (Proc.devRef .tc main_arg8) = V (Proc.devRef .tc main_arg8) := by
  after_results_simp <;> rfl

set_option maxHeartbeats 4000000 in
theorem keptA_main_arg9 (V : Valuation τ sig (Elt F)) : after opsA V (Proc.devRef .tc main_arg9) = V (Proc.devRef .tc main_arg9) := by
  after_results_simp <;> rfl

set_option maxHeartbeats 4000000 in
theorem keptA_main_arg10 (V : Valuation τ sig (Elt F)) : after opsA V (Proc.devRef .tc main_arg10) = V (Proc.devRef .tc main_arg10) := by
  after_results_simp <;> rfl

set_option maxHeartbeats 4000000 in
theorem keptA_main_arg11 (V : Valuation τ sig (Elt F)) : after opsA V (Proc.devRef .tc main_arg11) = V (Proc.devRef .tc main_arg11) := by
  after_results_simp <;> rfl

set_option maxHeartbeats 4000000 in
theorem keptA_main_arg12 (V : Valuation τ sig (Elt F)) : after opsA V (Proc.devRef .tc main_arg12) = V (Proc.devRef .tc main_arg12) := by
  after_results_simp <;> rfl

set_option maxHeartbeats 4000000 in
theorem keptA_main_arg13 (V : Valuation τ sig (Elt F)) : after opsA V (Proc.devRef .tc main_arg13) = V (Proc.devRef .tc main_arg13) := by
  after_results_simp <;> rfl

set_option maxHeartbeats 4000000 in
theorem keptA_main_arg14 (V : Valuation τ sig (Elt F)) : after opsA V (Proc.devRef .tc main_arg14) = V (Proc.devRef .tc main_arg14) := by
  after_results_simp <;> rfl

set_option maxHeartbeats 4000000 in
theorem keptA_main_arg15 (V : Valuation τ sig (Elt F)) : after opsA V (Proc.devRef .tc main_arg15) = V (Proc.devRef .tc main_arg15) := by
  after_results_simp <;> rfl

/-! ## The three-piece concatenation -/

theorem k36 (S : Valuation τ sig (Elt F)) (a0 : (⟨S50000x128, .f32⟩ : BufTy).Contents (Elt F)) (a1 : (⟨S2x500000, .i32⟩ : BufTy).Contents (Elt F)) (a2 : (⟨S50000x3, .f32⟩ : BufTy).Contents (Elt F))
    (h28 : S (Proc.devRef .tc main_v28) = val_main_v28 (F := F) a0 a1) (h35 : S (Proc.devRef .tc main_v35) = val_main_v35 (F := F) a0 a1)
    (h21 : S (Proc.devRef .tc main_v21) = val_main_v21 (F := F) a1 a2) :
    after opsK S (Proc.devRef .tc main_v36) = val_main_v36 (F := F) a0 a1 a2 := by
  simp only [after_cons, after_nil]
  rw [nary_result]
  show concatenate S500000x257 1 [⟨S500000x128, S (Proc.devRef .tc main_v28)⟩, ⟨S500000x128, S (Proc.devRef .tc main_v35)⟩, ⟨S500000x1, S (Proc.devRef .tc main_v21)⟩] concatenates_S500000x128_S500000x128_S500000x1_S500000x257_d1 = _
  rw [h28, h35, h21]
  rfl

set_option maxHeartbeats 4000000 in
theorem keptK_main_v18 (V : Valuation τ sig (Elt F)) : after opsK V (Proc.devRef .tc main_v18) = V (Proc.devRef .tc main_v18) := by
  after_results_simp <;> rfl

set_option maxHeartbeats 4000000 in
theorem keptK_main_v1 (V : Valuation τ sig (Elt F)) : after opsK V (Proc.devRef .tc main_v1) = V (Proc.devRef .tc main_v1) := by
  after_results_simp <;> rfl

set_option maxHeartbeats 4000000 in
theorem keptK_main_arg0 (V : Valuation τ sig (Elt F)) : after opsK V (Proc.devRef .tc main_arg0) = V (Proc.devRef .tc main_arg0) := by
  after_results_simp <;> rfl

set_option maxHeartbeats 4000000 in
theorem keptK_main_arg2 (V : Valuation τ sig (Elt F)) : after opsK V (Proc.devRef .tc main_arg2) = V (Proc.devRef .tc main_arg2) := by
  after_results_simp <;> rfl

set_option maxHeartbeats 4000000 in
theorem keptK_main_arg3 (V : Valuation τ sig (Elt F)) : after opsK V (Proc.devRef .tc main_arg3) = V (Proc.devRef .tc main_arg3) := by
  after_results_simp <;> rfl

set_option maxHeartbeats 4000000 in
theorem keptK_main_arg4 (V : Valuation τ sig (Elt F)) : after opsK V (Proc.devRef .tc main_arg4) = V (Proc.devRef .tc main_arg4) := by
  after_results_simp <;> rfl

set_option maxHeartbeats 4000000 in
theorem keptK_main_arg5 (V : Valuation τ sig (Elt F)) : after opsK V (Proc.devRef .tc main_arg5) = V (Proc.devRef .tc main_arg5) := by
  after_results_simp <;> rfl

set_option maxHeartbeats 4000000 in
theorem keptK_main_arg6 (V : Valuation τ sig (Elt F)) : after opsK V (Proc.devRef .tc main_arg6) = V (Proc.devRef .tc main_arg6) := by
  after_results_simp <;> rfl

set_option maxHeartbeats 4000000 in
theorem keptK_main_arg7 (V : Valuation τ sig (Elt F)) : after opsK V (Proc.devRef .tc main_arg7) = V (Proc.devRef .tc main_arg7) := by
  after_results_simp <;> rfl

set_option maxHeartbeats 4000000 in
theorem keptK_main_arg8 (V : Valuation τ sig (Elt F)) : after opsK V (Proc.devRef .tc main_arg8) = V (Proc.devRef .tc main_arg8) := by
  after_results_simp <;> rfl

set_option maxHeartbeats 4000000 in
theorem keptK_main_arg9 (V : Valuation τ sig (Elt F)) : after opsK V (Proc.devRef .tc main_arg9) = V (Proc.devRef .tc main_arg9) := by
  after_results_simp <;> rfl

set_option maxHeartbeats 4000000 in
theorem keptK_main_arg10 (V : Valuation τ sig (Elt F)) : after opsK V (Proc.devRef .tc main_arg10) = V (Proc.devRef .tc main_arg10) := by
  after_results_simp <;> rfl

set_option maxHeartbeats 4000000 in
theorem keptK_main_arg11 (V : Valuation τ sig (Elt F)) : after opsK V (Proc.devRef .tc main_arg11) = V (Proc.devRef .tc main_arg11) := by
  after_results_simp <;> rfl

set_option maxHeartbeats 4000000 in
theorem keptK_main_arg12 (V : Valuation τ sig (Elt F)) : after opsK V (Proc.devRef .tc main_arg12) = V (Proc.devRef .tc main_arg12) := by
  after_results_simp <;> rfl

set_option maxHeartbeats 4000000 in
theorem keptK_main_arg13 (V : Valuation τ sig (Elt F)) : after opsK V (Proc.devRef .tc main_arg13) = V (Proc.devRef .tc main_arg13) := by
  after_results_simp <;> rfl

set_option maxHeartbeats 4000000 in
theorem keptK_main_arg14 (V : Valuation τ sig (Elt F)) : after opsK V (Proc.devRef .tc main_arg14) = V (Proc.devRef .tc main_arg14) := by
  after_results_simp <;> rfl

set_option maxHeartbeats 4000000 in
theorem keptK_main_arg15 (V : Valuation τ sig (Elt F)) : after opsK V (Proc.devRef .tc main_arg15) = V (Proc.devRef .tc main_arg15) := by
  after_results_simp <;> rfl

/-! ## The edge stretch: perceptrons, scatter sums, coordinate update -/

set_option maxHeartbeats 8000000 in
theorem b58 (S : Valuation τ sig (Elt F)) (a0 : (⟨S50000x128, .f32⟩ : BufTy).Contents (Elt F)) (a1 : (⟨S2x500000, .i32⟩ : BufTy).Contents (Elt F)) (a2 : (⟨S50000x3, .f32⟩ : BufTy).Contents (Elt F)) (a3 : (⟨S257x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128x1, .f32⟩ : BufTy).Contents (Elt F)) (a8 : (⟨S1, .f32⟩ : BufTy).Contents (Elt F))
    (h36 : S (Proc.devRef .tc main_v36) = val_main_v36 (F := F) a0 a1 a2) (h3 : S (Proc.devRef .tc main_arg3) = a3) (h4 : S (Proc.devRef .tc main_arg4) = a4) (h5 : S (Proc.devRef .tc main_arg5) = a5) (h6 : S (Proc.devRef .tc main_arg6) = a6) (h7 : S (Proc.devRef .tc main_arg7) = a7) (h8 : S (Proc.devRef .tc main_arg8) = a8) :
    after opsB S (Proc.devRef .tc main_v58) = val_main_v58 (F := F) a0 a1 a2 a3 a4 a5 a6 a7 a8 := by
  after_results_simp
  rw [h36, h3, h4, h5, h6, h7, h8]
  rfl

set_option maxHeartbeats 8000000 in
theorem b81 (S : Valuation τ sig (Elt F)) (a0 : (⟨S50000x128, .f32⟩ : BufTy).Contents (Elt F)) (a1 : (⟨S2x500000, .i32⟩ : BufTy).Contents (Elt F)) (a2 : (⟨S50000x3, .f32⟩ : BufTy).Contents (Elt F)) (a3 : (⟨S257x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128x1, .f32⟩ : BufTy).Contents (Elt F)) (a8 : (⟨S1, .f32⟩ : BufTy).Contents (Elt F))
    (h36 : S (Proc.devRef .tc main_v36) = val_main_v36 (F := F) a0 a1 a2) (h1 : S (Proc.devRef .tc main_v1) = val_main_v1 (F := F) a1) (h3 : S (Proc.devRef .tc main_arg3) = a3) (h4 : S (Proc.devRef .tc main_arg4) = a4) (h5 : S (Proc.devRef .tc main_arg5) = a5) (h6 : S (Proc.devRef .tc main_arg6) = a6) (h7 : S (Proc.devRef .tc main_arg7) = a7) (h8 : S (Proc.devRef .tc main_arg8) = a8) :
    after opsB S (Proc.devRef .tc main_v81) = val_main_v81 (F := F) a0 a1 a2 a3 a4 a5 a6 a7 a8 := by
  after_results_simp
  rw [h36, h1, h3, h4, h5, h6, h7, h8]
  rfl

set_option maxHeartbeats 8000000 in
theorem b78 (S : Valuation τ sig (Elt F)) (a0 : (⟨S50000x128, .f32⟩ : BufTy).Contents (Elt F)) (a1 : (⟨S2x500000, .i32⟩ : BufTy).Contents (Elt F)) (a2 : (⟨S50000x3, .f32⟩ : BufTy).Contents (Elt F)) (a3 : (⟨S257x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128x1, .f32⟩ : BufTy).Contents (Elt F)) (a8 : (⟨S1, .f32⟩ : BufTy).Contents (Elt F)) (a9 : (⟨S128x128, .f32⟩ : BufTy).Contents (Elt F)) (a10 : (⟨S128, .f32⟩ : BufTy).Contents (Elt F)) (a11 : (⟨S128x1, .f32⟩ : BufTy).Contents (Elt F))
    (h36 : S (Proc.devRef .tc main_v36) = val_main_v36 (F := F) a0 a1 a2) (h18 : S (Proc.devRef .tc main_v18) = val_main_v18 (F := F) a1 a2)
    (h1 : S (Proc.devRef .tc main_v1) = val_main_v1 (F := F) a1) (h2 : S (Proc.devRef .tc main_arg2) = a2) (h3 : S (Proc.devRef .tc main_arg3) = a3) (h4 : S (Proc.devRef .tc main_arg4) = a4) (h5 : S (Proc.devRef .tc main_arg5) = a5) (h6 : S (Proc.devRef .tc main_arg6) = a6) (h7 : S (Proc.devRef .tc main_arg7) = a7) (h8 : S (Proc.devRef .tc main_arg8) = a8) (h9 : S (Proc.devRef .tc main_arg9) = a9) (h10 : S (Proc.devRef .tc main_arg10) = a10) (h11 : S (Proc.devRef .tc main_arg11) = a11) :
    after opsB S (Proc.devRef .tc main_v78) = val_main_v78 (F := F) a0 a1 a2 a3 a4 a5 a6 a7 a8 a9 a10 a11 := by
  after_results_simp
  rw [h36, h18, h1, h2, h3, h4, h5, h6, h7, h8, h9, h10, h11]
  rfl

set_option maxHeartbeats 8000000 in
theorem keptB_main_arg0 (V : Valuation τ sig (Elt F)) : after opsB V (Proc.devRef .tc main_arg0) = V (Proc.devRef .tc main_arg0) := by
  after_results_simp <;> rfl

set_option maxHeartbeats 8000000 in
theorem keptB_main_arg12 (V : Valuation τ sig (Elt F)) : after opsB V (Proc.devRef .tc main_arg12) = V (Proc.devRef .tc main_arg12) := by
  after_results_simp <;> rfl

set_option maxHeartbeats 8000000 in
theorem keptB_main_arg13 (V : Valuation τ sig (Elt F)) : after opsB V (Proc.devRef .tc main_arg13) = V (Proc.devRef .tc main_arg13) := by
  after_results_simp <;> rfl

set_option maxHeartbeats 8000000 in
theorem keptB_main_arg14 (V : Valuation τ sig (Elt F)) : after opsB V (Proc.devRef .tc main_arg14) = V (Proc.devRef .tc main_arg14) := by
  after_results_simp <;> rfl

set_option maxHeartbeats 8000000 in
theorem keptB_main_arg15 (V : Valuation τ sig (Elt F)) : after opsB V (Proc.devRef .tc main_arg15) = V (Proc.devRef .tc main_arg15) := by
  after_results_simp <;> rfl

/-! ## The node stretch -/

set_option maxHeartbeats 4000000 in
theorem c92 (S : Valuation τ sig (Elt F)) (a0 : (⟨S50000x128, .f32⟩ : BufTy).Contents (Elt F)) (a1 : (⟨S2x500000, .i32⟩ : BufTy).Contents (Elt F)) (a2 : (⟨S50000x3, .f32⟩ : BufTy).Contents (Elt F)) (a3 : (⟨S257x128, .f32⟩ : BufTy).Contents (Elt F)) (a4 : (⟨S128, .f32⟩ : BufTy).Contents (Elt F)) (a5 : (⟨S128x128, .f32⟩ : BufTy).Contents (Elt F)) (a6 : (⟨S128, .f32⟩ : BufTy).Contents (Elt F)) (a7 : (⟨S128x1, .f32⟩ : BufTy).Contents (Elt F)) (a8 : (⟨S1, .f32⟩ : BufTy).Contents (Elt F)) (a12 : (⟨S256x128, .f32⟩ : BufTy).Contents (Elt F)) (a13 : (⟨S128, .f32⟩ : BufTy).Contents (Elt F)) (a14 : (⟨S128x128, .f32⟩ : BufTy).Contents (Elt F)) (a15 : (⟨S128, .f32⟩ : BufTy).Contents (Elt F))
    (h0 : S (Proc.devRef .tc main_arg0) = a0) (h81 : S (Proc.devRef .tc main_v81) = val_main_v81 (F := F) a0 a1 a2 a3 a4 a5 a6 a7 a8) (h12 : S (Proc.devRef .tc main_arg12) = a12) (h13 : S (Proc.devRef .tc main_arg13) = a13) (h14 : S (Proc.devRef .tc main_arg14) = a14) (h15 : S (Proc.devRef .tc main_arg15) = a15) :
    after opsC S (Proc.devRef .tc main_v92) = val_main_v92 (F := F) a0 a1 a2 a3 a4 a5 a6 a7 a8 a12 a13 a14 a15 := by
  after_results_simp
  rw [h0, h81, h12, h13, h14, h15]
  rfl

set_option maxHeartbeats 4000000 in
theorem keptC_main_v78 (V : Valuation τ sig (Elt F)) : after opsC V (Proc.devRef .tc main_v78) = V (Proc.devRef .tc main_v78) := by
  after_results_simp <;> rfl

set_option maxHeartbeats 4000000 in
theorem keptC_main_v58 (V : Valuation τ sig (Elt F)) : after opsC V (Proc.devRef .tc main_v58) = V (Proc.devRef .tc main_v58) := by
  after_results_simp <;> rfl

/-! ## The whole run -/

theorem res58 (V : Valuation τ sig (Elt F)) :
    after ops V (Proc.devRef .tc main_v58) = val_main_v58 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [after_cut, keptC_main_v58]
  exact b58 (after opsK (after opsA V)) _ _ _ _ _ _ _ _ _ (k36 (after opsA V) _ _ _ (a28 V) (a35 V) (a21 V)) ((keptK_main_arg3 (after opsA V)).trans (keptA_main_arg3 V)) ((keptK_main_arg4 (after opsA V)).trans (keptA_main_arg4 V)) ((keptK_main_arg5 (after opsA V)).trans (keptA_main_arg5 V)) ((keptK_main_arg6 (after opsA V)).trans (keptA_main_arg6 V)) ((keptK_main_arg7 (after opsA V)).trans (keptA_main_arg7 V)) ((keptK_main_arg8 (after opsA V)).trans (keptA_main_arg8 V))

theorem res78 (V : Valuation τ sig (Elt F)) :
    after ops V (Proc.devRef .tc main_v78) = val_main_v78 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [after_cut, keptC_main_v78]
  exact b78 (after opsK (after opsA V)) _ _ _ _ _ _ _ _ _ _ _ _ (k36 (after opsA V) _ _ _ (a28 V) (a35 V) (a21 V)) ((keptK_main_v18 (after opsA V)).trans (a18 V)) ((keptK_main_v1 (after opsA V)).trans (a1 V)) ((keptK_main_arg2 (after opsA V)).trans (keptA_main_arg2 V)) ((keptK_main_arg3 (after opsA V)).trans (keptA_main_arg3 V)) ((keptK_main_arg4 (after opsA V)).trans (keptA_main_arg4 V)) ((keptK_main_arg5 (after opsA V)).trans (keptA_main_arg5 V)) ((keptK_main_arg6 (after opsA V)).trans (keptA_main_arg6 V)) ((keptK_main_arg7 (after opsA V)).trans (keptA_main_arg7 V)) ((keptK_main_arg8 (after opsA V)).trans (keptA_main_arg8 V)) ((keptK_main_arg9 (after opsA V)).trans (keptA_main_arg9 V)) ((keptK_main_arg10 (after opsA V)).trans (keptA_main_arg10 V)) ((keptK_main_arg11 (after opsA V)).trans (keptA_main_arg11 V))

theorem res92 (V : Valuation τ sig (Elt F)) :
    after ops V (Proc.devRef .tc main_v92) = val_main_v92 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg12)) (V (Proc.devRef .tc main_arg13)) (V (Proc.devRef .tc main_arg14)) (V (Proc.devRef .tc main_arg15)) := by
  rw [after_cut]
  exact c92 (after opsB (after opsK (after opsA V))) _ _ _ _ _ _ _ _ _ _ _ _ _ ((keptB_main_arg0 (after opsK (after opsA V))).trans ((keptK_main_arg0 (after opsA V)).trans (keptA_main_arg0 V)))
    (b81 (after opsK (after opsA V)) _ _ _ _ _ _ _ _ _ (k36 (after opsA V) _ _ _ (a28 V) (a35 V) (a21 V)) ((keptK_main_v1 (after opsA V)).trans (a1 V)) ((keptK_main_arg3 (after opsA V)).trans (keptA_main_arg3 V)) ((keptK_main_arg4 (after opsA V)).trans (keptA_main_arg4 V)) ((keptK_main_arg5 (after opsA V)).trans (keptA_main_arg5 V)) ((keptK_main_arg6 (after opsA V)).trans (keptA_main_arg6 V)) ((keptK_main_arg7 (after opsA V)).trans (keptA_main_arg7 V)) ((keptK_main_arg8 (after opsA V)).trans (keptA_main_arg8 V)))
    ((keptB_main_arg12 (after opsK (after opsA V))).trans ((keptK_main_arg12 (after opsA V)).trans (keptA_main_arg12 V))) ((keptB_main_arg13 (after opsK (after opsA V))).trans ((keptK_main_arg13 (after opsA V)).trans (keptA_main_arg13 V))) ((keptB_main_arg14 (after opsK (after opsA V))).trans ((keptK_main_arg14 (after opsA V)).trans (keptA_main_arg14 V))) ((keptB_main_arg15 (after opsK (after opsA V))).trans ((keptK_main_arg15 (after opsA V)).trans (keptA_main_arg15 V)))

set_option maxHeartbeats 62800000 in
theorem kept_arg0 (V : Valuation τ sig (Elt F)) : after ops V (Proc.devRef .tc main_arg0) = V (Proc.devRef .tc main_arg0) := by
  after_results_simp <;> rfl

set_option maxHeartbeats 62800000 in
theorem kept_arg1 (V : Valuation τ sig (Elt F)) : after ops V (Proc.devRef .tc main_arg1) = V (Proc.devRef .tc main_arg1) := by
  after_results_simp <;> rfl

set_option maxHeartbeats 62800000 in
theorem kept_arg2 (V : Valuation τ sig (Elt F)) : after ops V (Proc.devRef .tc main_arg2) = V (Proc.devRef .tc main_arg2) := by
  after_results_simp <;> rfl

set_option maxHeartbeats 62800000 in
theorem kept_arg3 (V : Valuation τ sig (Elt F)) : after ops V (Proc.devRef .tc main_arg3) = V (Proc.devRef .tc main_arg3) := by
  after_results_simp <;> rfl

set_option maxHeartbeats 62800000 in
theorem kept_arg4 (V : Valuation τ sig (Elt F)) : after ops V (Proc.devRef .tc main_arg4) = V (Proc.devRef .tc main_arg4) := by
  after_results_simp <;> rfl

set_option maxHeartbeats 62800000 in
theorem kept_arg5 (V : Valuation τ sig (Elt F)) : after ops V (Proc.devRef .tc main_arg5) = V (Proc.devRef .tc main_arg5) := by
  after_results_simp <;> rfl

set_option maxHeartbeats 62800000 in
theorem kept_arg6 (V : Valuation τ sig (Elt F)) : after ops V (Proc.devRef .tc main_arg6) = V (Proc.devRef .tc main_arg6) := by
  after_results_simp <;> rfl

set_option maxHeartbeats 62800000 in
theorem kept_arg7 (V : Valuation τ sig (Elt F)) : after ops V (Proc.devRef .tc main_arg7) = V (Proc.devRef .tc main_arg7) := by
  after_results_simp <;> rfl

set_option maxHeartbeats 62800000 in
theorem kept_arg8 (V : Valuation τ sig (Elt F)) : after ops V (Proc.devRef .tc main_arg8) = V (Proc.devRef .tc main_arg8) := by
  after_results_simp <;> rfl

set_option maxHeartbeats 62800000 in
theorem kept_arg9 (V : Valuation τ sig (Elt F)) : after ops V (Proc.devRef .tc main_arg9) = V (Proc.devRef .tc main_arg9) := by
  after_results_simp <;> rfl

set_option maxHeartbeats 62800000 in
theorem kept_arg10 (V : Valuation τ sig (Elt F)) : after ops V (Proc.devRef .tc main_arg10) = V (Proc.devRef .tc main_arg10) := by
  after_results_simp <;> rfl

set_option maxHeartbeats 62800000 in
theorem kept_arg11 (V : Valuation τ sig (Elt F)) : after ops V (Proc.devRef .tc main_arg11) = V (Proc.devRef .tc main_arg11) := by
  after_results_simp <;> rfl

set_option maxHeartbeats 62800000 in
theorem kept_arg12 (V : Valuation τ sig (Elt F)) : after ops V (Proc.devRef .tc main_arg12) = V (Proc.devRef .tc main_arg12) := by
  after_results_simp <;> rfl

set_option maxHeartbeats 62800000 in
theorem kept_arg13 (V : Valuation τ sig (Elt F)) : after ops V (Proc.devRef .tc main_arg13) = V (Proc.devRef .tc main_arg13) := by
  after_results_simp <;> rfl

set_option maxHeartbeats 62800000 in
theorem kept_arg14 (V : Valuation τ sig (Elt F)) : after ops V (Proc.devRef .tc main_arg14) = V (Proc.devRef .tc main_arg14) := by
  after_results_simp <;> rfl

set_option maxHeartbeats 62800000 in
theorem kept_arg15 (V : Valuation τ sig (Elt F)) : after ops V (Proc.devRef .tc main_arg15) = V (Proc.devRef .tc main_arg15) := by
  after_results_simp <;> rfl

set_option maxRecDepth 8192 in
set_option maxHeartbeats 62800000 in
/-- On every device, from any memory with zero counters: every weakly fair execution of @main terminates with each
    result buffer at its stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v92) = val_main_v92 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v78) = val_main_v78 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v58) = val_main_v58 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v92).trans (res92 (launchContents m c)),
      (h c main_v78).trans (res78 (launchContents m c)),
      (h c main_v58).trans (res58 (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c)),
      (h c main_arg8).trans (kept_arg8 (launchContents m c)),
      (h c main_arg9).trans (kept_arg9 (launchContents m c)),
      (h c main_arg10).trans (kept_arg10 (launchContents m c)),
      (h c main_arg11).trans (kept_arg11 (launchContents m c)),
      (h c main_arg12).trans (kept_arg12 (launchContents m c)),
      (h c main_arg13).trans (kept_arg13 (launchContents m c)),
      (h c main_arg14).trans (kept_arg14 (launchContents m c)),
      (h c main_arg15).trans (kept_arg15 (launchContents m c))⟩)
    (run_seq scopedRefs_eq scopedSems_eq defs main (fun _ => ops) main_eq (fun _ => ops_sub) m ρ)

end Cert.ReferenceIdeal.RefRun

end
-- ==== Proof.Spec.lean ====
/-
  The mathematics of one equivariant graph-convolution layer, row by row, on the extended reals.

  An edge e carries the feature rows of its two end nodes (hr, hc : 128 numbers each), the squared length
  rad of the coordinate difference d (3 numbers) of those nodes, and produces
    pre1 j = ((hr · We1a[:, j] + hc · We1b[:, j]) + rad * We1c[j]) + be1[j]        (the first linear layer, its
                                                                                  257 input columns in three parts)
    e1     = silu pre1
    f  j   = silu (e1 · We2[:, j] + be2[j])
    att    = logistic (f · Watt + batt)
    ef j   = f j * att                                                            (the edge feature)
    c1 j   = silu (ef · Wc1[:, j] + bc1[j]),   cw = c1 · Wc2
    tr i   = min hi (max lo (d i * cw))                                           (the clipped translation)
  and a node n with feature row h and aggregated edge features a produces
    out j  = h j + (silu ((h · Wn1a[:, k] + a · Wn1b[:, k]) + bn1[k]) · Wn2[:, j] + bn2[j]).
  silu x = x * logistic x, and x · w is the finite sum of the products. Sums of extended reals are commutative and
  associative, so a sum over 257 (or 256) columns is the sum of its parts, whatever the inputs.
-/
import Idealize.ShloMosaic.PureOps.Ideal
import Idealize.ShloMosaic.Lib.ValueIdx
import Mathlib.Algebra.BigOperators.Fin

noncomputable section

open scoped BigOperators

namespace Cert.Egcl

open Idealize.ShloMosaic Idealize.ShloMosaic.ValueIdx

/-- A two-axis array given by its entry at each row and column. -/
def atRC {n m : Nat} (f : Fin n → Fin m → EReal) : (⟨2, ![n, m]⟩ : Shape).Idx → EReal :=
  fun i => f ⟨(i 0).val, idx2_lt0 i⟩ ⟨(i 1).val, idx2_lt1 i⟩

/-- Its entry at row e, column j. -/
theorem atRC_ix2 {n m : Nat} (f : Fin n → Fin m → EReal) (e : Fin n) (j : Fin m) : atRC f (ix2 e j) = f e j := rfl

/-- Two such arrays are equal when their entries are. -/
theorem eq_atRC {n m : Nat} (X : (⟨2, ![n, m]⟩ : Shape).Idx → EReal) (f : Fin n → Fin m → EReal)
    (h : ∀ e j, X (ix2 e j) = f e j) : X = atRC f := by
  funext i
  rw [eq_ix2 i]
  exact h _ _

/-- Every edge's two end points name a node: each entry of the [2, E] edge index, read signed, is in [0, N). -/
def InRange (ei : (⟨2, ![2, 500000]⟩ : Shape).Idx → BitVec 32) : Prop :=
  ∀ i, 0 ≤ (ei i).toInt ∧ (ei i).toInt < 50000

/-- silu x = x · logistic x. -/
def silu (x : EReal) : EReal := x * Ideal.logistic x

/-- The finite sum of the products of two rows. -/
def dot {K : Nat} (x w : Fin K → EReal) : EReal := ∑ k, x k * w k

/-- The weights an edge meets: the first layer's matrix in its three row bands (the rows that meet the source node's
    features, the target node's features, and the squared distance), then the other layers'. -/
structure EdgeP where
  We1a : Fin 128 → Fin 128 → EReal
  We1b : Fin 128 → Fin 128 → EReal
  We1c : Fin 128 → EReal
  be1 : Fin 128 → EReal
  We2 : Fin 128 → Fin 128 → EReal
  be2 : Fin 128 → EReal
  Watt : Fin 128 → EReal
  batt : EReal
  Wc1 : Fin 128 → Fin 128 → EReal
  bc1 : Fin 128 → EReal
  Wc2 : Fin 128 → EReal

/-- The weights a node meets: the first layer's matrix in its two row bands, then the second layer's. -/
structure NodeP where
  Wn1a : Fin 128 → Fin 128 → EReal
  Wn1b : Fin 128 → Fin 128 → EReal
  bn1 : Fin 128 → EReal
  Wn2 : Fin 128 → Fin 128 → EReal
  bn2 : Fin 128 → EReal

/-- The first edge layer before its activation. -/
def edgePre1 (P : EdgeP) (hr hc : Fin 128 → EReal) (rad : EReal) (j : Fin 128) : EReal :=
  ((dot hr (fun k => P.We1a k j) + dot hc (fun k => P.We1b k j)) + rad * P.We1c j) + P.be1 j

/-- The second edge layer, activated: the edge feature before its gate. -/
def edgeHidden (P : EdgeP) (hr hc : Fin 128 → EReal) (rad : EReal) (j : Fin 128) : EReal :=
  silu (dot (fun k => silu (edgePre1 P hr hc rad k)) (fun k => P.We2 k j) + P.be2 j)

/-- The attention gate of an edge. -/
def edgeGate (P : EdgeP) (hr hc : Fin 128 → EReal) (rad : EReal) : EReal :=
  Ideal.logistic (dot (edgeHidden P hr hc rad) P.Watt + P.batt)

/-- The edge feature: the hidden row times the gate. -/
def edgeFeat (P : EdgeP) (hr hc : Fin 128 → EReal) (rad : EReal) (j : Fin 128) : EReal :=
  edgeHidden P hr hc rad j * edgeGate P hr hc rad

/-- The coordinate weight of an edge. -/
def coordWeight (P : EdgeP) (hr hc : Fin 128 → EReal) (rad : EReal) : EReal :=
  dot (fun j => silu (dot (edgeFeat P hr hc rad) (fun k => P.Wc1 k j) + P.bc1 j)) P.Wc2

/-- The clipped translation of an edge along coordinate i: lo ≤ d i · cw ≤ hi, enforced. -/
def edgeTrans (P : EdgeP) (lo hi : EReal) (hr hc : Fin 128 → EReal) (rad : EReal) (d : Fin 3 → EReal) (i : Fin 3) : EReal :=
  min hi (max lo (d i * coordWeight P hr hc rad))

/-- The node update: the residual plus the two-layer perceptron of the node's features and its aggregated edge
    features. -/
def nodeOut (Q : NodeP) (h a : Fin 128 → EReal) (j : Fin 128) : EReal :=
  h j + (dot (fun k => silu ((dot h (fun l => Q.Wn1a l k) + dot a (fun l => Q.Wn1b l k)) + Q.bn1 k)) (fun k => Q.Wn2 k j) + Q.bn2 j)

/-- A sum over 256 columns is the sum over the first 128 plus the sum over the last 128. -/
theorem sum_256 (f : Fin 256 → EReal) :
    ∑ k, f k = ∑ k : Fin 128, f ⟨k.val, by omega⟩ + ∑ k : Fin 128, f ⟨128 + k.val, by omega⟩ :=
  Fin.sum_univ_add (a := 128) (b := 128) f

/-- A sum over 257 columns is the sum over the first 128, plus the next 128, plus the last one. -/
theorem sum_257 (f : Fin 257 → EReal) :
    ∑ k, f k = (∑ k : Fin 128, f ⟨k.val, by omega⟩ + ∑ k : Fin 128, f ⟨128 + k.val, by omega⟩) + f ⟨256, by omega⟩ := by
  rw [Fin.sum_univ_castSucc (n := 256) f, sum_256 (fun k => f k.castSucc)]
  rfl

end Cert.Egcl

end
-- ==== Proof.KEdge.lean ====
/-
  The edge kernel's two stored values, read at one entry of a block of 5000 edges: row p of the edge-feature block
  is the edge feature of the p-th edge's two feature rows and squared distance, and row p of the translation block
  its clipped translation. The body's matrix products are finite sums over the 128 contracted columns; a change
  of float format is the identity on the extended reals; a broadcast row or column reads its one row or column.
-/
import proofs.«409691_j59871844106306_3_alg».proof.Proof.Gen.KernelIdeal.Skeleton
import proofs.«409691_j59871844106306_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EdgeBody

open Cert.KernelIdeal Cert.KernelIdeal.Gen Cert.Egcl
open Idealize.ShloMosaic Idealize.ShloMosaic.ValueIdx

/-- The weights as the edge kernel's weight blocks hold them. -/
def edgeP (x4 x5 : Vec Ideal S128x128 .f32) (x6 x7 : Vec Ideal S1x128 .f32) (x8 : Vec Ideal S128x128 .f32)
    (x9 : Vec Ideal S1x128 .f32) (x10 : Vec Ideal S128x1 .f32) (x11 : Vec Ideal S1x1 .f32) (x12 : Vec Ideal S128x128 .f32)
    (x13 : Vec Ideal S1x128 .f32) (x14 : Vec Ideal S128x1 .f32) : EdgeP where
  We1a := fun k j => x4 (ix2 k j)
  We1b := fun k j => x5 (ix2 k j)
  We1c := fun j => x6 (ix2 0 j)
  be1 := fun j => x7 (ix2 0 j)
  We2 := fun k j => x8 (ix2 k j)
  be2 := fun j => x9 (ix2 0 j)
  Watt := fun k => x10 (ix2 k 0)
  batt := x11 (ix2 0 0)
  Wc1 := fun k j => x12 (ix2 k j)
  bc1 := fun j => x13 (ix2 0 j)
  Wc2 := fun k => x14 (ix2 k 0)

/-- The clip's two bounds, −10 and 10, as the extended reals their words encode. -/
abbrev lo : EReal := Ideal.ofBits .f32 0xC1200000#32
abbrev hi : EReal := Ideal.ofBits .f32 0x41200000#32

/-! ### A matrix product into the zero block, at an entry: the sum over the contracted column -/

/-- Square product: the left operand's row coordinate is the entry's row. -/
theorem lhsA_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Square product: the left operand's column coordinate is the contraction position. -/
theorem lhsA_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Square product: the right operand's row coordinate is the contraction position. -/
theorem rhsA_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Square product: the right operand's column coordinate is the entry's column. -/
theorem rhsA_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] by [128,128] product accumulated into zero reads, at (p, j), the dot product of the left operand's
    row p with the right operand's column j. -/
theorem matmulA_apply {φ₁ φ₂ : FTy} (a : FVec Ideal S5000x128 φ₁) (b : FVec Ideal S128x128 φ₂) (p : Fin 5000) (j : Fin 128) :
    matmul dot_S5000x128_S128x128_S5000x128_1_0_0_1_n_n none a b (constant S5000x128 .f32 0x00000000#32) (ix2 p j)
      = dot (fun k => a (ix2 p k)) (fun k => b (ix2 k j)) := by
  refine (Ideal.matmul_constant_zero_apply dot_S5000x128_S128x128_S5000x128_1_0_0_1_n_n none a b (ix2 p j)).trans ?_
  rw [← Equiv.sum_comp (contrEquiv1 dot_S5000x128_S128x128_S5000x128_1_0_0_1_n_n 128 rfl rfl).symm]
  unfold dot
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p j) ((contrEquiv1 dot_S5000x128_S128x128_S5000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S5000x128_S128x128_S5000x128_1_0_0_1_n_n.rhsIdx (ix2 p j) ((contrEquiv1 dot_S5000x128_S128x128_S5000x128_1_0_0_1_n_n 128 rfl rfl).symm k) = ix2 k j := funext fun a => Fin.ext (by
    match a with
    | ⟨0, _⟩ => exact (rhsA_0 _ _).trans hk
    | ⟨1, _⟩ => exact rhsA_1 _ _)
  rw [el, er]

/-- Column product: the left operand's row coordinate is the entry's row. -/
theorem lhsB_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
/-- Column product: the left operand's column coordinate is the contraction position. -/
theorem lhsB_1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
/-- Column product: the right operand's row coordinate is the contraction position. -/
theorem rhsB_0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
/-- Column product: the right operand's column coordinate is the entry's column. -/
theorem rhsB_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- A [5000,128] by [128,1] product accumulated into zero reads, at (p, 0), the dot product of the left operand's
    row p with the right operand's one column. -/
theorem matmulB_apply {φ₁ φ₂ : FTy} (a : FVec Ideal S5000x128 φ₁) (b : FVec Ideal S128x1 φ₂) (p : Fin 5000) (j : Fin 1) :
    matmul dot_S5000x128_S128x1_S5000x1_1_0_0_1_n_n none a b (constant S5000x1 .f32 0x00000000#32) (ix2 p j)
      = dot (fun k => a (ix2 p k)) (fun k => b (ix2 k j)) := by
  refine (Ideal.matmul_constant_zero_apply dot_S5000x128_S128x1_S5000x1_1_0_0_1_n_n none a b (ix2 p j)).trans ?_
  rw [← Equiv.sum_comp (contrEquiv1 dot_S5000x128_S128x1_S5000x1_1_0_0_1_n_n 128 rfl rfl).symm]
  unfold dot
  refine Finset.sum_congr rfl fun k _ => ?_
  have hk := contrEquiv1_symm_val dot_S5000x128_S128x1_S5000x1_1_0_0_1_n_n 128 rfl rfl k
  have el : dot_S5000x128_S128x1_S5000x1_1_0_0_1_n_n.lhsIdx (ix2 p j) ((contrEquiv1 dot_S5000x128_S128x1_S5000x1_1_0_0_1_n_n 128 rfl rfl).symm k) = ix2 p k := funext fun a => Fin.ext (by
    match a with
    | ⟨0, _⟩ => exact lhsB_0 _ _
    | ⟨1, _⟩ => exact (lhsB_1 _ _).trans hk)
  have er : dot_S5000x128_S128x1_S5000x1_1_0_0_1_n_n.rhsIdx (ix2 p j) ((contrEquiv1 dot_S5000x128_S128x1_S5000x1_1_0_0_1_n_n 128 rfl rfl).symm k) = ix2 k j := funext fun a => Fin.ext (by
    match a with
    | ⟨0, _⟩ => exact (rhsB_0 _ _).trans hk
    | ⟨1, _⟩ => exact rhsB_1 _ _)
  rw [el, er]

/-! ### A one-column block spread over many columns -/

/-- An [a, 1] block broadcast to [a, b] reads, at (p, c), the block's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The logistic of a block at an entry is the logistic of the entry. -/
theorem logistic_apply {s : Shape} {φ : FTy} (a : FVec Ideal s φ) (i : s.Idx) : logistic a i = Ideal.logistic (a i) := rfl

/-! ### The body's stages at an entry -/

/-- The first layer, activated, at row p, column k: silu of the two feature rows' products with the first two row
    bands of the first matrix, plus the squared distance times the third band, plus the bias. -/
theorem pay6_apply (x0 x1 : Vec Ideal S5000x128 .f32) (x2 : Vec Ideal S5000x1 .f32)
    (x4 x5 : Vec Ideal S128x128 .f32) (x6 x7 : Vec Ideal S1x128 .f32) (p : Fin 5000) (k : Fin 128) :
    k0_pay6 (F := Ideal) x0 x1 x2 x4 x5 x6 x7 (ix2 p k)
      = silu (((dot (fun l => x0 (ix2 p l)) (fun l => x4 (ix2 l k)) + dot (fun l => x1 (ix2 p l)) (fun l => x5 (ix2 l k)))
          + x2 (ix2 p 0) * x6 (ix2 0 k)) + x7 (ix2 0 k)) := by
  unfold k0_pay6
  simp only [shapeCast_self]
  simp only [truncf_apply, mulf_apply, addf_apply, logistic_apply]
  rw [matmulA_apply, matmulA_apply, broadcastTo_a1_ab_apply, broadcastTo_1b_ab_apply, broadcastTo_1b_ab_apply]
  rfl

/-- The edge-feature block over any first-layer block: the hidden row times the gate. -/
theorem pay1_apply (v32 : FVec Ideal S128x128 .bf16) (v34 : FVec Ideal S1x128 .f32) (v35 : FVec Ideal S5000x128 .bf16)
    (v41 : Vec Ideal S128x1 .f32) (v42 : Vec Ideal S1x1 .f32) (p : Fin 5000) (j : Fin 128) :
    k0_pay1 (F := Ideal) v32 v34 v35 (constant S5000x128 .f32 0x00000000#32) v41 v42 (ix2 p j)
      = silu (dot (fun l => v35 (ix2 p l)) (fun l => v32 (ix2 l j)) + v34 (ix2 0 j))
        * Ideal.logistic (dot (fun k => silu (dot (fun l => v35 (ix2 p l)) (fun l => v32 (ix2 l k)) + v34 (ix2 0 k)))
            (fun k => v41 (ix2 k 0)) + v42 (ix2 0 0)) := by
  unfold k0_pay1
  simp only [shapeCast_self]
  simp only [mulf_apply, addf_apply, logistic_apply]
  rw [broadcastTo_a1_ab_apply]
  simp only [mulf_apply, addf_apply, logistic_apply]
  rw [matmulB_apply, broadcastTo_1b_ab_apply, matmulA_apply, broadcastTo_1b_ab_apply]
  simp only [mulf_apply, addf_apply, logistic_apply, matmulA_apply, broadcastTo_1b_ab_apply]
  rfl

/-- The translation block over any edge-feature inputs: the clipped product of the coordinate difference with the
    coordinate weight computed from the edge-feature block's row. -/
theorem pay2_apply (v7 : FVec Ideal S5000x3 .f32) (v32 : FVec Ideal S128x128 .bf16) (v34 : FVec Ideal S1x128 .f32)
    (v35 : FVec Ideal S5000x128 .bf16) (v41 : Vec Ideal S128x1 .f32) (v42 : Vec Ideal S1x1 .f32)
    (v50 : Vec Ideal S128x128 .f32) (v52 : Vec Ideal S1x128 .f32) (v60 : Vec Ideal S128x1 .f32) (p : Fin 5000) (i : Fin 3) :
    k0_pay2 (F := Ideal) v7 v32 v34 v35 (constant S5000x128 .f32 0x00000000#32) v41 v42 v50 v52 v60 (ix2 p i)
      = min hi (max lo (v7 (ix2 p i) * dot
          (fun j => silu (dot (fun k => k0_pay1 (F := Ideal) v32 v34 v35 (constant S5000x128 .f32 0x00000000#32) v41 v42 (ix2 p k)) (fun k => v50 (ix2 k j)) + v52 (ix2 0 j)))
          (fun j => v60 (ix2 j 0)))) := by
  unfold k0_pay2
  generalize k0_pay1 (F := Ideal) v32 v34 v35 (constant S5000x128 .f32 0x00000000#32) v41 v42 = ef
  simp only [shapeCast_self]
  simp only [minimumf_apply, maximumf_apply, mulf_apply, broadcast_apply]
  rw [broadcastTo_a1_ab_apply, matmulB_apply]
  simp only [mulf_apply, addf_apply, logistic_apply, matmulA_apply, broadcastTo_1b_ab_apply]
  rfl

/-- The stored edge-feature block at row p, column j. -/
theorem feat_apply (x0 x1 : Vec Ideal S5000x128 .f32) (x2 : Vec Ideal S5000x1 .f32)
    (x4 x5 : Vec Ideal S128x128 .f32) (x6 x7 : Vec Ideal S1x128 .f32) (x8 : Vec Ideal S128x128 .f32)
    (x9 : Vec Ideal S1x128 .f32) (x10 : Vec Ideal S128x1 .f32) (x11 : Vec Ideal S1x1 .f32) (x12 : Vec Ideal S128x128 .f32)
    (x13 : Vec Ideal S1x128 .f32) (x14 : Vec Ideal S128x1 .f32) (p : Fin 5000) (j : Fin 128) :
    k0_pay1 (F := Ideal) (k0_pay4 x8) (k0_pay5 x9) (k0_pay6 x0 x1 x2 x4 x5 x6 x7) (constant S5000x128 .f32 0x00000000#32) x10 x11 (ix2 p j)
      = edgeFeat (edgeP x4 x5 x6 x7 x8 x9 x10 x11 x12 x13 x14) (fun k => x0 (ix2 p k)) (fun k => x1 (ix2 p k)) (x2 (ix2 p 0)) j := by
  refine (pay1_apply _ _ _ _ _ p j).trans ?_
  have e5 : k0_pay5 (F := Ideal) x9 = x9 := shapeCast_self _ _
  simp only [pay6_apply, e5]
  rfl

/-- The stored translation block at row p, coordinate i. -/
theorem trans_apply (x0 x1 : Vec Ideal S5000x128 .f32) (x2 : Vec Ideal S5000x1 .f32) (x3 : Vec Ideal S5000x3 .f32)
    (x4 x5 : Vec Ideal S128x128 .f32) (x6 x7 : Vec Ideal S1x128 .f32) (x8 : Vec Ideal S128x128 .f32)
    (x9 : Vec Ideal S1x128 .f32) (x10 : Vec Ideal S128x1 .f32) (x11 : Vec Ideal S1x1 .f32) (x12 : Vec Ideal S128x128 .f32)
    (x13 : Vec Ideal S1x128 .f32) (x14 : Vec Ideal S128x1 .f32) (p : Fin 5000) (i : Fin 3) :
    k0_pay2 (F := Ideal) (k0_pay3 x3) (k0_pay4 x8) (k0_pay5 x9) (k0_pay6 x0 x1 x2 x4 x5 x6 x7) (constant S5000x128 .f32 0x00000000#32) x10 x11 x12 x13 x14 (ix2 p i)
      = edgeTrans (edgeP x4 x5 x6 x7 x8 x9 x10 x11 x12 x13 x14) lo hi (fun k => x0 (ix2 p k)) (fun k => x1 (ix2 p k)) (x2 (ix2 p 0)) (fun a => x3 (ix2 p a)) i := by
  refine (pay2_apply _ _ _ _ _ _ _ _ _ p i).trans ?_
  have e3 : k0_pay3 (F := Ideal) x3 = x3 := shapeCast_self _ _
  simp only [feat_apply x0 x1 x2 x4 x5 x6 x7 x8 x9 x10 x11 x12 x13 x14 p, e3]
  rfl

end Cert.KernelIdeal.EdgeBody

end
-- ==== Proof.KNode.lean ====
/-
  The node kernel's stored value, read at one entry of a block of 5000 nodes: row p is the node update of the p-th
  node's feature row and aggregated edge-feature row. The matrix products are finite sums over the 128 contracted
  columns; a change of float format is the identity on the extended reals.
-/
import proofs.«409691_j59871844106306_3_alg».proof.Proof.Gen.KernelIdeal.Skeleton
import proofs.«409691_j59871844106306_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.NodeBody

open Cert.KernelIdeal Cert.KernelIdeal.Gen Cert.Egcl
open Idealize.ShloMosaic Idealize.ShloMosaic.ValueIdx

/-- The weights as the node kernel's weight blocks hold them. -/
def nodeP (x2 x3 : Vec Ideal S128x128 .f32) (x4 : Vec Ideal S1x128 .f32) (x5 : Vec Ideal S128x128 .f32)
    (x6 : Vec Ideal S1x128 .f32) : NodeP where
  Wn1a := fun k j => x2 (ix2 k j)
  Wn1b := fun k j => x3 (ix2 k j)
  bn1 := fun j => x4 (ix2 0 j)
  Wn2 := fun k j => x5 (ix2 k j)
  bn2 := fun j => x6 (ix2 0 j)

/-! ## The product of a [5000, 128] block with a [128, 128] block, at an entry

Output entry (p, j) with contraction index q reads the left operand at (p, q) and the right operand at (q, j): the four
coordinates, one at a time. -/

theorem lhs_node_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_node_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_node_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_node_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product accumulated from zero, at entry (p, j): the sum over the 128 contracted columns of row p of the
    left block times column j of the right block. -/
theorem matmul_zero_apply {φ₁ φ₂ : FTy} (a : FVec Ideal S5000x128 φ₁) (b : FVec Ideal S128x128 φ₂) (p : Fin 5000) (j : Fin 128) :
    matmul dot_S5000x128_S128x128_S5000x128_1_0_0_1_n_n none a b (constant S5000x128 .f32 0x00000000#32) (ix2 p j)
      = dot (fun k => a (ix2 p k)) (fun k => b (ix2 k j)) := by
  refine (Ideal.matmul_constant_zero_apply dot_S5000x128_S128x128_S5000x128_1_0_0_1_n_n none a b (ix2 p j)).trans ?_
  rw [← Equiv.sum_comp (contrEquiv1 dot_S5000x128_S128x128_S5000x128_1_0_0_1_n_n 128 rfl rfl).symm]
  unfold dot
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p j) ((contrEquiv1 dot_S5000x128_S128x128_S5000x128_1_0_0_1_n_n 128 rfl rfl).symm k) = ix2 p k := funext fun a => Fin.ext (by
    match a with
    | ⟨0, _⟩ => exact lhs_node_0 _ _
    | ⟨1, _⟩ => exact (lhs_node_1 _ _).trans hk)
  have er : dot_S5000x128_S128x128_S5000x128_1_0_0_1_n_n.rhsIdx (ix2 p j) ((contrEquiv1 dot_S5000x128_S128x128_S5000x128_1_0_0_1_n_n 128 rfl rfl).symm k) = ix2 k j := funext fun a => Fin.ext (by
    match a with
    | ⟨0, _⟩ => exact (rhs_node_0 _ _).trans hk
    | ⟨1, _⟩ => exact rhs_node_1 _ _)
  rw [el, er]

/-! ## The first layer -/

/-- The first layer before its activation, as the kernel forms it: the two products, added, plus the bias row. -/
def hidPre (x0 x1 : Vec Ideal S5000x128 .f32) (x2 x3 : Vec Ideal S128x128 .f32) (x4 : Vec Ideal S1x128 .f32) :
    FVec Ideal S5000x128 .f32 :=
  addf
    (addf
      (matmul dot_S5000x128_S128x128_S5000x128_1_0_0_1_n_n none (truncf .bf16 x0 bitsLt_bf16_f32)
        (truncf .bf16 (shapeCast S128x128 x2 shapeCasts_S128x128_S128x128) bitsLt_bf16_f32) (constant S5000x128 .f32 0x00000000#32))
      (matmul dot_S5000x128_S128x128_S5000x128_1_0_0_1_n_n none (truncf .bf16 (shapeCast S5000x128 x1 shapeCasts_S5000x128_S5000x128) bitsLt_bf16_f32)
        (truncf .bf16 (shapeCast S128x128 x3 shapeCasts_S128x128_S128x128) bitsLt_bf16_f32) (constant S5000x128 .f32 0x00000000#32)))
    (broadcastTo S5000x128 (shapeCast S1x128 x4 shapeCasts_S1x128_S1x128) broadcasts_S1x128_S5000x128)

/-- At row p, column k it is the two sums over the contracted columns plus the bias at k. -/
theorem hidPre_apply (x0 x1 : Vec Ideal S5000x128 .f32) (x2 x3 : Vec Ideal S128x128 .f32) (x4 : Vec Ideal S1x128 .f32)
    (p : Fin 5000) (k : Fin 128) :
    hidPre x0 x1 x2 x3 x4 (ix2 p k)
      = (dot (fun l => x0 (ix2 p l)) (fun l => x2 (ix2 l k)) + dot (fun l => x1 (ix2 p l)) (fun l => x3 (ix2 l k)))
          + x4 (ix2 0 k) := by
  unfold hidPre
  simp only [shapeCast_self]
  refine (addf_apply _ _ _).trans ?_
  refine congrArg₂ (· + ·) ((addf_apply _ _ _).trans (congrArg₂ (· + ·) ?_ ?_)) ?_
  · exact matmul_zero_apply _ _ p k
  · exact matmul_zero_apply _ _ p k
  · exact broadcastTo_1b_ab_apply _ _ p k

/-- The stored block in terms of the first layer: the residual plus the second product and its bias row. -/
theorem k1_pay1_eq (x0 x1 : Vec Ideal S5000x128 .f32) (x2 x3 : Vec Ideal S128x128 .f32) (x4 : Vec Ideal S1x128 .f32)
    (x5 : Vec Ideal S128x128 .f32) (x6 : Vec Ideal S1x128 .f32) :
    k1_pay1 (F := Ideal) x0 x1 x2 x3 x4 x5 x6
      = addf x0 (addf
          (matmul dot_S5000x128_S128x128_S5000x128_1_0_0_1_n_n none
            (truncf .bf16 (mulf (hidPre x0 x1 x2 x3 x4) (logistic (hidPre x0 x1 x2 x3 x4))) bitsLt_bf16_f32)
            (truncf .bf16 x5 bitsLt_bf16_f32) (constant S5000x128 .f32 0x00000000#32))
          (broadcastTo S5000x128 (shapeCast S1x128 x6 shapeCasts_S1x128_S1x128) broadcasts_S1x128_S5000x128)) := rfl

/-- The stored node block at row p, column j. -/
theorem node_apply (x0 x1 : Vec Ideal S5000x128 .f32) (x2 x3 : Vec Ideal S128x128 .f32) (x4 : Vec Ideal S1x128 .f32)
    (x5 : Vec Ideal S128x128 .f32) (x6 : Vec Ideal S1x128 .f32) (p : Fin 5000) (j : Fin 128) :
    k1_pay1 (F := Ideal) x0 x1 x2 x3 x4 x5 x6 (ix2 p j)
      = nodeOut (nodeP x2 x3 x4 x5 x6) (fun k => x0 (ix2 p k)) (fun k => x1 (ix2 p k)) j := by
  rw [k1_pay1_eq]
  simp only [shapeCast_self]
  refine (addf_apply _ _ _).trans ?_
  unfold nodeOut
  refine congrArg (x0 (ix2 p j) + ·) ?_
  refine (addf_apply _ _ _).trans (congrArg₂ (· + ·) ?_ ?_)
  · refine (matmul_zero_apply _ _ p j).trans ?_
    refine congrArg (fun f => dot f (fun k => x5 (ix2 k j))) (funext fun k => ?_)
    show hidPre x0 x1 x2 x3 x4 (ix2 p k) * Ideal.logistic (hidPre x0 x1 x2 x3 x4 (ix2 p k)) = _
    rw [hidPre_apply]
    rfl
  · exact broadcastTo_1b_ab_apply _ _ p j

end Cert.KernelIdeal.NodeBody

end
-- ==== Proof.KArr.lean ====
/-
  From blocks to arrays. Each kernel runs over blocks of 5000 rows; point t of its grid reads rows 5000 t … 5000 t + 4999
  of every row-blocked input and writes those rows of its outputs, the weights being read whole at every point. So
  after the run each output array holds, at row e, the row function of row e of the input arrays: the blocks tile the
  array, and row p of block t is row 5000 t + p.
-/
import proofs.«409691_j59871844106306_3_alg».proof.Proof.Gen.KernelIdeal.Frame
import proofs.«409691_j59871844106306_3_alg».proof.Proof.KEdge
import proofs.«409691_j59871844106306_3_alg».proof.Proof.KNode
import proofs.«409691_j59871844106306_3_alg».proof.Proof.Spec
import Idealize.ShloMosaic.Lib.Pipeline.Value
import Idealize.ShloMosaic.Lib.ValueIdx

set_option maxRecDepth 16384

noncomputable section

namespace Cert.KernelIdeal.RegionValue

open Cert.KernelIdeal Cert.KernelIdeal.Gen Cert.Egcl Cert.KernelIdeal.EdgeBody Cert.KernelIdeal.NodeBody
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The edge kernel's weights as the region finds them. -/
def edgeW (c : Dev nD) : EdgeP :=
  edgeP (V c main_v14) (V c main_v15) (V c main_v16) (V c main_v17) (V c main_arg5) (V c main_v18) (V c main_arg7)
    (V c main_v19) (V c main_arg9) (V c main_v20) (V c main_arg11)

/-- The node kernel's weights as the region finds them. -/
def nodeW (c : Dev nD) : NodeP :=
  nodeP (V c main_v37) (V c main_v38) (V c main_v39) (V c main_arg14) (V c main_v40)

/-- The zero offsets of a load or store of a whole block, as the constant function. -/
theorem hz : (![0, 0] : Fin 2 → Nat) = fun _ => 0 := funext fun a => by fin_cases a <;> rfl

/-! ## The edge kernel: a hundred blocks of 5000 edges -/

/-- The edge kernel's index maps over its hundred points: the four row-blocked inputs and the two outputs sit at block
    row t, column block 0; -/
theorem edge_maps_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_15.index t (0 : Fin 2) = t.val ∧ win0_15.index t (1 : Fin 2) = 0)
    ∧ (win0_16.index t (0 : Fin 2) = t.val ∧ win0_16.index t (1 : Fin 2) = 0) :=
  (by decide +kernel : ∀ t : Fin grid0.N, _)

/-- every weight at block (0, 0). -/
theorem edge_maps_weights : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0) :=
  (by decide +kernel : ∀ t : Fin grid0.N, _)

/-- Row p of block t of a row-blocked edge array is row 5000 t + p of the array: the source nodes' features, -/
theorem edge_rows0 (t : Fin cfg0.N) (G : Vec Ideal S500000x128 .f32) (p : Fin 5000) (k : Fin 128) (e : Fin 500000)
    (he : e.val = 5000 * t.val + p.val) :
    (((cfg0.win 0).blk t).view.read (Elt Ideal) G : Vec Ideal S5000x128 .f32) (ix2 p k) = G (ix2 e k) := by
  obtain ⟨⟨h0, h1⟩, -, -, -, -, -⟩ := edge_maps_rows t
  rw [View.read_apply]
  show G _ = G _
  congr 1
  funext a; apply Fin.ext
  match a with
  | ⟨0, _⟩ => show win0_0.index t 0 * 5000 + 1 * p.val = e.val; rw [h0, he]; omega
  | ⟨1, _⟩ => show win0_0.index t 1 * 128 + 1 * k.val = k.val; rw [h1]; omega

/-- the target nodes' features, -/
theorem edge_rows1 (t : Fin cfg0.N) (G : Vec Ideal S500000x128 .f32) (p : Fin 5000) (k : Fin 128) (e : Fin 500000)
    (he : e.val = 5000 * t.val + p.val) :
    (((cfg0.win 1).blk t).view.read (Elt Ideal) G : Vec Ideal S5000x128 .f32) (ix2 p k) = G (ix2 e k) := by
  obtain ⟨-, ⟨h0, h1⟩, -, -, -, -⟩ := edge_maps_rows t
  rw [View.read_apply]
  show G _ = G _
  congr 1
  funext a; apply Fin.ext
  match a with
  | ⟨0, _⟩ => show win0_1.index t 0 * 5000 + 1 * p.val = e.val; rw [h0, he]; omega
  | ⟨1, _⟩ => show win0_1.index t 1 * 128 + 1 * k.val = k.val; rw [h1]; omega

/-- the squared distances, -/
theorem edge_rows2 (t : Fin cfg0.N) (G : Vec Ideal S500000x1 .f32) (p : Fin 5000) (k : Fin 1) (e : Fin 500000)
    (he : e.val = 5000 * t.val + p.val) :
    (((cfg0.win 2).blk t).view.read (Elt Ideal) G : Vec Ideal S5000x1 .f32) (ix2 p k) = G (ix2 e k) := by
  obtain ⟨-, -, ⟨h0, h1⟩, -, -, -⟩ := edge_maps_rows t
  rw [View.read_apply]
  show G _ = G _
  congr 1
  funext a; apply Fin.ext
  match a with
  | ⟨0, _⟩ => show win0_2.index t 0 * 5000 + 1 * p.val = e.val; rw [h0, he]; omega
  | ⟨1, _⟩ => show win0_2.index t 1 * 1 + 1 * k.val = k.val; rw [h1]; omega

/-- the coordinate differences, -/
theorem edge_rows3 (t : Fin cfg0.N) (G : Vec Ideal S500000x3 .f32) (p : Fin 5000) (k : Fin 3) (e : Fin 500000)
    (he : e.val = 5000 * t.val + p.val) :
    (((cfg0.win 3).blk t).view.read (Elt Ideal) G : Vec Ideal S5000x3 .f32) (ix2 p k) = G (ix2 e k) := by
  obtain ⟨-, -, -, ⟨h0, h1⟩, -, -⟩ := edge_maps_rows t
  rw [View.read_apply]
  show G _ = G _
  congr 1
  funext a; apply Fin.ext
  match a with
  | ⟨0, _⟩ => show win0_3.index t 0 * 5000 + 1 * p.val = e.val; rw [h0, he]; omega
  | ⟨1, _⟩ => show win0_3.index t 1 * 3 + 1 * k.val = k.val; rw [h1]; omega

/-- the edge features written back, -/
theorem edge_rows15 (t : Fin cfg0.N) (G : Vec Ideal S500000x128 .f32) (p : Fin 5000) (k : Fin 128) (e : Fin 500000)
    (he : e.val = 5000 * t.val + p.val) :
    (((cfg0.win 15).blk t).view.read (Elt Ideal) G : Vec Ideal S5000x128 .f32) (ix2 p k) = G (ix2 e k) := by
  obtain ⟨-, -, -, -, ⟨h0, h1⟩, -⟩ := edge_maps_rows t
  rw [View.read_apply]
  show G _ = G _
  congr 1
  funext a; apply Fin.ext
  match a with
  | ⟨0, _⟩ => show win0_15.index t 0 * 5000 + 1 * p.val = e.val; rw [h0, he]; omega
  | ⟨1, _⟩ => show win0_15.index t 1 * 128 + 1 * k.val = k.val; rw [h1]; omega

/-- and the translations written back. -/
theorem edge_rows16 (t : Fin cfg0.N) (G : Vec Ideal S500000x3 .f32) (p : Fin 5000) (k : Fin 3) (e : Fin 500000)
    (he : e.val = 5000 * t.val + p.val) :
    (((cfg0.win 16).blk t).view.read (Elt Ideal) G : Vec Ideal S5000x3 .f32) (ix2 p k) = G (ix2 e k) := by
  obtain ⟨-, -, -, -, -, ⟨h0, h1⟩⟩ := edge_maps_rows t
  rw [View.read_apply]
  show G _ = G _
  congr 1
  funext a; apply Fin.ext
  match a with
  | ⟨0, _⟩ => show win0_16.index t 0 * 5000 + 1 * p.val = e.val; rw [h0, he]; omega
  | ⟨1, _⟩ => show win0_16.index t 1 * 3 + 1 * k.val = k.val; rw [h1]; omega

/-- A weight's block is the whole weight, at every point. -/
theorem edge_whole4 (t : Fin cfg0.N) (G : Vec Ideal S128x128 .f32) :
    (((cfg0.win 4).blk t).view.read (Elt Ideal) G : Vec Ideal S128x128 .f32) = G := by
  obtain ⟨⟨h0, h1⟩, -, -, -, -, -, -, -, -, -, -⟩ := edge_maps_weights t
  funext y
  rw [View.read_apply]
  show G _ = G _
  congr 1
  funext a; apply Fin.ext
  match a with
  | ⟨0, _⟩ => show win0_4.index t 0 * 128 + 1 * (y 0).val = (y 0).val; rw [h0]; omega
  | ⟨1, _⟩ => show win0_4.index t 1 * 128 + 1 * (y 1).val = (y 1).val; rw [h1]; omega

theorem edge_whole5 (t : Fin cfg0.N) (G : Vec Ideal S128x128 .f32) :
    (((cfg0.win 5).blk t).view.read (Elt Ideal) G : Vec Ideal S128x128 .f32) = G := by
  obtain ⟨-, ⟨h0, h1⟩, -, -, -, -, -, -, -, -, -⟩ := edge_maps_weights t
  funext y
  rw [View.read_apply]
  show G _ = G _
  congr 1
  funext a; apply Fin.ext
  match a with
  | ⟨0, _⟩ => show win0_5.index t 0 * 128 + 1 * (y 0).val = (y 0).val; rw [h0]; omega
  | ⟨1, _⟩ => show win0_5.index t 1 * 128 + 1 * (y 1).val = (y 1).val; rw [h1]; omega

theorem edge_whole6 (t : Fin cfg0.N) (G : Vec Ideal S1x128 .f32) :
    (((cfg0.win 6).blk t).view.read (Elt Ideal) G : Vec Ideal S1x128 .f32) = G := by
  obtain ⟨-, -, ⟨h0, h1⟩, -, -, -, -, -, -, -, -⟩ := edge_maps_weights t
  funext y
  rw [View.read_apply]
  show G _ = G _
  congr 1
  funext a; apply Fin.ext
  match a with
  | ⟨0, _⟩ => show win0_6.index t 0 * 1 + 1 * (y 0).val = (y 0).val; rw [h0]; omega
  | ⟨1, _⟩ => show win0_6.index t 1 * 128 + 1 * (y 1).val = (y 1).val; rw [h1]; omega

theorem edge_whole7 (t : Fin cfg0.N) (G : Vec Ideal S1x128 .f32) :
    (((cfg0.win 7).blk t).view.read (Elt Ideal) G : Vec Ideal S1x128 .f32) = G := by
  obtain ⟨-, -, -, ⟨h0, h1⟩, -, -, -, -, -, -, -⟩ := edge_maps_weights t
  funext y
  rw [View.read_apply]
  show G _ = G _
  congr 1
  funext a; apply Fin.ext
  match a with
  | ⟨0, _⟩ => show win0_7.index t 0 * 1 + 1 * (y 0).val = (y 0).val; rw [h0]; omega
  | ⟨1, _⟩ => show win0_7.index t 1 * 128 + 1 * (y 1).val = (y 1).val; rw [h1]; omega

theorem edge_whole8 (t : Fin cfg0.N) (G : Vec Ideal S128x128 .f32) :
    (((cfg0.win 8).blk t).view.read (Elt Ideal) G : Vec Ideal S128x128 .f32) = G := by
  obtain ⟨-, -, -, -, ⟨h0, h1⟩, -, -, -, -, -, -⟩ := edge_maps_weights t
  funext y
  rw [View.read_apply]
  show G _ = G _
  congr 1
  funext a; apply Fin.ext
  match a with
  | ⟨0, _⟩ => show win0_8.index t 0 * 128 + 1 * (y 0).val = (y 0).val; rw [h0]; omega
  | ⟨1, _⟩ => show win0_8.index t 1 * 128 + 1 * (y 1).val = (y 1).val; rw [h1]; omega

theorem edge_whole9 (t : Fin cfg0.N) (G : Vec Ideal S1x128 .f32) :
    (((cfg0.win 9).blk t).view.read (Elt Ideal) G : Vec Ideal S1x128 .f32) = G := by
  obtain ⟨-, -, -, -, -, ⟨h0, h1⟩, -, -, -, -, -⟩ := edge_maps_weights t
  funext y
  rw [View.read_apply]
  show G _ = G _
  congr 1
  funext a; apply Fin.ext
  match a with
  | ⟨0, _⟩ => show win0_9.index t 0 * 1 + 1 * (y 0).val = (y 0).val; rw [h0]; omega
  | ⟨1, _⟩ => show win0_9.index t 1 * 128 + 1 * (y 1).val = (y 1).val; rw [h1]; omega

theorem edge_whole10 (t : Fin cfg0.N) (G : Vec Ideal S128x1 .f32) :
    (((cfg0.win 10).blk t).view.read (Elt Ideal) G : Vec Ideal S128x1 .f32) = G := by
  obtain ⟨-, -, -, -, -, -, ⟨h0, h1⟩, -, -, -, -⟩ := edge_maps_weights t
  funext y
  rw [View.read_apply]
  show G _ = G _
  congr 1
  funext a; apply Fin.ext
  match a with
  | ⟨0, _⟩ => show win0_10.index t 0 * 128 + 1 * (y 0).val = (y 0).val; rw [h0]; omega
  | ⟨1, _⟩ => show win0_10.index t 1 * 1 + 1 * (y 1).val = (y 1).val; rw [h1]; omega

theorem edge_whole11 (t : Fin cfg0.N) (G : Vec Ideal S1x1 .f32) :
    (((cfg0.win 11).blk t).view.read (Elt Ideal) G : Vec Ideal S1x1 .f32) = G := by
  obtain ⟨-, -, -, -, -, -, -, ⟨h0, h1⟩, -, -, -⟩ := edge_maps_weights t
  funext y
  rw [View.read_apply]
  show G _ = G _
  congr 1
  funext a; apply Fin.ext
  match a with
  | ⟨0, _⟩ => show win0_11.index t 0 * 1 + 1 * (y 0).val = (y 0).val; rw [h0]; omega
  | ⟨1, _⟩ => show win0_11.index t 1 * 1 + 1 * (y 1).val = (y 1).val; rw [h1]; omega

theorem edge_whole12 (t : Fin cfg0.N) (G : Vec Ideal S128x128 .f32) :
    (((cfg0.win 12).blk t).view.read (Elt Ideal) G : Vec Ideal S128x128 .f32) = G := by
  obtain ⟨-, -, -, -, -, -, -, -, ⟨h0, h1⟩, -, -⟩ := edge_maps_weights t
  funext y
  rw [View.read_apply]
  show G _ = G _
  congr 1
  funext a; apply Fin.ext
  match a with
  | ⟨0, _⟩ => show win0_12.index t 0 * 128 + 1 * (y 0).val = (y 0).val; rw [h0]; omega
  | ⟨1, _⟩ => show win0_12.index t 1 * 128 + 1 * (y 1).val = (y 1).val; rw [h1]; omega

theorem edge_whole13 (t : Fin cfg0.N) (G : Vec Ideal S1x128 .f32) :
    (((cfg0.win 13).blk t).view.read (Elt Ideal) G : Vec Ideal S1x128 .f32) = G := by
  obtain ⟨-, -, -, -, -, -, -, -, -, ⟨h0, h1⟩, -⟩ := edge_maps_weights t
  funext y
  rw [View.read_apply]
  show G _ = G _
  congr 1
  funext a; apply Fin.ext
  match a with
  | ⟨0, _⟩ => show win0_13.index t 0 * 1 + 1 * (y 0).val = (y 0).val; rw [h0]; omega
  | ⟨1, _⟩ => show win0_13.index t 1 * 128 + 1 * (y 1).val = (y 1).val; rw [h1]; omega

theorem edge_whole14 (t : Fin cfg0.N) (G : Vec Ideal S128x1 .f32) :
    (((cfg0.win 14).blk t).view.read (Elt Ideal) G : Vec Ideal S128x1 .f32) = G := by
  obtain ⟨-, -, -, -, -, -, -, -, -, -, ⟨h0, h1⟩⟩ := edge_maps_weights t
  funext y
  rw [View.read_apply]
  show G _ = G _
  congr 1
  funext a; apply Fin.ext
  match a with
  | ⟨0, _⟩ => show win0_14.index t 0 * 128 + 1 * (y 0).val = (y 0).val; rw [h0]; omega
  | ⟨1, _⟩ => show win0_14.index t 1 * 1 + 1 * (y 1).val = (y 1).val; rw [h1]; omega

/-- The edge-feature array the run ends at: row e is the edge feature of row e of the two gathered feature arrays and of
    the squared distances. -/
def featArr (c : Dev nD) : Vec Ideal S500000x128 .f32 :=
  atRC fun e j => edgeFeat (edgeW V c)
    (fun k => (V c main_v6 : Vec Ideal S500000x128 .f32) (ix2 e k)) (fun k => (V c main_v7 : Vec Ideal S500000x128 .f32) (ix2 e k))
    ((V c main_v13 : Vec Ideal S500000x1 .f32) (ix2 e 0)) j

/-- The translation array the run ends at: row e is the clipped translation of row e of the same arrays and of the
    coordinate differences. -/
def transArr (c : Dev nD) : Vec Ideal S500000x3 .f32 :=
  atRC fun e a => edgeTrans (edgeW V c) lo hi
    (fun k => (V c main_v6 : Vec Ideal S500000x128 .f32) (ix2 e k)) (fun k => (V c main_v7 : Vec Ideal S500000x128 .f32) (ix2 e k))
    ((V c main_v13 : Vec Ideal S500000x1 .f32) (ix2 e 0)) (fun b => (V c main_v10 : Vec Ideal S500000x3 .f32) (ix2 e b)) a

/-- The weights the edge kernel meets at point t are the region's. -/
theorem edge_weights (c : Dev nD) (t : Fin cfg0.N) :
    edgeP (iblk0 V c 4 t) (iblk0 V c 5 t) (iblk0 V c 6 t) (iblk0 V c 7 t) (iblk0 V c 8 t) (iblk0 V c 9 t) (iblk0 V c 10 t)
      (iblk0 V c 11 t) (iblk0 V c 12 t) (iblk0 V c 13 t) (iblk0 V c 14 t) = edgeW V c := by
  have e4 : (iblk0 V c 4 t : Vec Ideal S128x128 .f32) = V c main_v14 := edge_whole4 t (V c main_v14)
  have e5 : (iblk0 V c 5 t : Vec Ideal S128x128 .f32) = V c main_v15 := edge_whole5 t (V c main_v15)
  have e6 : (iblk0 V c 6 t : Vec Ideal S1x128 .f32) = V c main_v16 := edge_whole6 t (V c main_v16)
  have e7 : (iblk0 V c 7 t : Vec Ideal S1x128 .f32) = V c main_v17 := edge_whole7 t (V c main_v17)
  have e8 : (iblk0 V c 8 t : Vec Ideal S128x128 .f32) = V c main_arg5 := edge_whole8 t (V c main_arg5)
  have e9 : (iblk0 V c 9 t : Vec Ideal S1x128 .f32) = V c main_v18 := edge_whole9 t (V c main_v18)
  have e10 : (iblk0 V c 10 t : Vec Ideal S128x1 .f32) = V c main_arg7 := edge_whole10 t (V c main_arg7)
  have e11 : (iblk0 V c 11 t : Vec Ideal S1x1 .f32) = V c main_v19 := edge_whole11 t (V c main_v19)
  have e12 : (iblk0 V c 12 t : Vec Ideal S128x128 .f32) = V c main_arg9 := edge_whole12 t (V c main_arg9)
  have e13 : (iblk0 V c 13 t : Vec Ideal S1x128 .f32) = V c main_v20 := edge_whole13 t (V c main_v20)
  have e14 : (iblk0 V c 14 t : Vec Ideal S128x1 .f32) = V c main_arg11 := edge_whole14 t (V c main_arg11)
  unfold edgeW
  rw [e4, e5, e6, e7, e8, e9, e10, e11, e12, e13, e14]

/-- The rows the edge kernel meets at row p of point t are rows 5000 t + p of the region's arrays. -/
theorem edge_rows (c : Dev nD) (t : Fin cfg0.N) (p : Fin 5000) (e : Fin 500000) (he : e.val = 5000 * t.val + p.val) :
    (fun k : Fin 128 => (iblk0 V c 0 t : Vec Ideal S5000x128 .f32) (ix2 p k)) = (fun k => (V c main_v6 : Vec Ideal S500000x128 .f32) (ix2 e k))
    ∧ (fun k : Fin 128 => (iblk0 V c 1 t : Vec Ideal S5000x128 .f32) (ix2 p k)) = (fun k => (V c main_v7 : Vec Ideal S500000x128 .f32) (ix2 e k))
    ∧ (iblk0 V c 2 t : Vec Ideal S5000x1 .f32) (ix2 p 0) = (V c main_v13 : Vec Ideal S500000x1 .f32) (ix2 e 0)
    ∧ (fun b : Fin 3 => (iblk0 V c 3 t : Vec Ideal S5000x3 .f32) (ix2 p b)) = (fun b => (V c main_v10 : Vec Ideal S500000x3 .f32) (ix2 e b)) :=
  ⟨funext fun k => edge_rows0 t (V c main_v6) p k e he, funext fun k => edge_rows1 t (V c main_v7) p k e he,
    edge_rows2 t (V c main_v13) p 0 e he, funext fun b => edge_rows3 t (V c main_v10) p b e he⟩

/-- What point t writes back to the edge features is block t of that array. -/
theorem feat_flushed (c : Dev nD) (t : Fin cfg0.N) :
    (dat0 V c).flushed 15 t = ((cfg0.win 15).blk t).view.read (Elt Ideal) (featArr V c) := by
  show (cfg0.win 15).cut (grid0.coords t) ((dat0 V c).after 15 t) = _
  rw [after0_15]
  unfold out0_15
  rw [View.canon_unit_zero hz]
  simp only [View.ld_unit_zero (S := S5000x128) hz, View.ld_unit_zero (S := S5000x1) hz, View.ld_unit_zero (S := S128x128) hz,
    View.ld_unit_zero (S := S1x128) hz, View.ld_unit_zero (S := S128x1) hz, View.ld_unit_zero (S := S1x1) hz]
  funext y
  obtain ⟨p, q, rfl⟩ : ∃ (p : Fin 5000) (q : Fin 128), y = ix2 p q := ⟨y 0, y 1, eq_ix2 y⟩
  have hN : cfg0.N = 100 := N_0
  have ht : t.val < 100 := hN ▸ t.isLt
  have hp : 5000 * t.val + p.val < 500000 := by have := p.isLt; omega
  refine (feat_apply (iblk0 V c 0 t) (iblk0 V c 1 t) (iblk0 V c 2 t) (iblk0 V c 4 t) (iblk0 V c 5 t) (iblk0 V c 6 t) (iblk0 V c 7 t)
    (iblk0 V c 8 t) (iblk0 V c 9 t) (iblk0 V c 10 t) (iblk0 V c 11 t) (iblk0 V c 12 t) (iblk0 V c 13 t) (iblk0 V c 14 t) p q).trans ?_
  refine Eq.trans ?_ (edge_rows15 t (featArr V c) p q ⟨5000 * t.val + p.val, hp⟩ rfl).symm
  unfold featArr
  rw [atRC_ix2]
  obtain ⟨r0, r1, r2, -⟩ := edge_rows V c t p ⟨5000 * t.val + p.val, hp⟩ rfl
  rw [edge_weights V c t, r0, r1, r2]

/-- What point t writes back to the translations is block t of that array. -/
theorem trans_flushed (c : Dev nD) (t : Fin cfg0.N) :
    (dat0 V c).flushed 16 t = ((cfg0.win 16).blk t).view.read (Elt Ideal) (transArr V c) := by
  show (cfg0.win 16).cut (grid0.coords t) ((dat0 V c).after 16 t) = _
  rw [after0_16]
  unfold out0_16
  rw [View.canon_unit_zero hz]
  simp only [View.ld_unit_zero (S := S5000x128) hz, View.ld_unit_zero (S := S5000x1) hz, View.ld_unit_zero (S := S5000x3) hz,
    View.ld_unit_zero (S := S128x128) hz, View.ld_unit_zero (S := S1x128) hz, View.ld_unit_zero (S := S128x1) hz, View.ld_unit_zero (S := S1x1) hz]
  funext y
  obtain ⟨p, q, rfl⟩ : ∃ (p : Fin 5000) (q : Fin 3), y = ix2 p q := ⟨y 0, y 1, eq_ix2 y⟩
  have hN : cfg0.N = 100 := N_0
  have ht : t.val < 100 := hN ▸ t.isLt
  have hp : 5000 * t.val + p.val < 500000 := by have := p.isLt; omega
  refine (trans_apply (iblk0 V c 0 t) (iblk0 V c 1 t) (iblk0 V c 2 t) (iblk0 V c 3 t) (iblk0 V c 4 t) (iblk0 V c 5 t) (iblk0 V c 6 t) (iblk0 V c 7 t)
    (iblk0 V c 8 t) (iblk0 V c 9 t) (iblk0 V c 10 t) (iblk0 V c 11 t) (iblk0 V c 12 t) (iblk0 V c 13 t) (iblk0 V c 14 t) p q).trans ?_
  refine Eq.trans ?_ (edge_rows16 t (transArr V c) p q ⟨5000 * t.val + p.val, hp⟩ rfl).symm
  unfold transArr
  rw [atRC_ix2]
  obtain ⟨r0, r1, r2, r3⟩ := edge_rows V c t p ⟨5000 * t.val + p.val, hp⟩ rfl
  rw [edge_weights V c t, r0, r1, r2, r3]

/-- An index of an edge array is in point t's block iff each coordinate is in the block's range on its axis. -/
theorem feat_mem (t : Fin cfg0.N) (i : S500000x128.Idx) :
    i ∈ ((cfg0.win 15).blk t).view.set ↔ ∀ a : Fin 2, win0_15.index t a * S5000x128.size a ≤ (i a).val ∧ (i a).val < win0_15.index t a * S5000x128.size a + S5000x128.size a := by
  show i ∈ ((View.whole main_v21_0).slice (win0_15.rect t)).set ↔ _
  rw [View.set_slice_whole, Rect.mem_set_unit]
  exact Iff.rfl

theorem trans_mem (t : Fin cfg0.N) (i : S500000x3.Idx) :
    i ∈ ((cfg0.win 16).blk t).view.set ↔ ∀ a : Fin 2, win0_16.index t a * S5000x3.size a ≤ (i a).val ∧ (i a).val < win0_16.index t a * S5000x3.size a + S5000x3.size a := by
  show i ∈ ((View.whole main_v21_1).slice (win0_16.rect t)).set ↔ _
  rw [View.set_slice_whole, Rect.mem_set_unit]
  exact Iff.rfl

/-- Row r of an edge array is in block r / 5000: the hundred blocks tile the array. -/
theorem feat_cover (i : S500000x128.Idx) : ∃ t : Fin cfg0.N, (cfg0.win 15).flush t = true ∧ i ∈ ((cfg0.win 15).blk t).view.set := by
  have hN : cfg0.N = 100 := N_0
  have hi0 : (i 0).val < 500000 := (i 0).isLt
  have hi1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, ⟨h0, h1⟩, -⟩ := edge_maps_rows t
  refine ⟨t, flush0_15 t, ?_⟩
  rw [feat_mem]
  intro a
  match a with
  | ⟨0, _⟩ => show win0_15.index t 0 * 5000 ≤ (i 0).val ∧ (i 0).val < win0_15.index t 0 * 5000 + 5000; rw [h0, ht]; omega
  | ⟨1, _⟩ => show win0_15.index t 1 * 128 ≤ (i 1).val ∧ (i 1).val < win0_15.index t 1 * 128 + 128; rw [h1]; omega

theorem trans_cover (i : S500000x3.Idx) : ∃ t : Fin cfg0.N, (cfg0.win 16).flush t = true ∧ i ∈ ((cfg0.win 16).blk t).view.set := by
  have hN : cfg0.N = 100 := N_0
  have hi0 : (i 0).val < 500000 := (i 0).isLt
  have hi1 : (i 1).val < 3 := (i 1).isLt
  obtain ⟨t, ht⟩ : ∃ t : Fin cfg0.N, t.val = (i 0).val / 5000 := ⟨⟨(i 0).val / 5000, by rw [hN]; omega⟩, rfl⟩
  obtain ⟨-, -, -, -, -, ⟨h0, h1⟩⟩ := edge_maps_rows t
  refine ⟨t, flush0_16 t, ?_⟩
  rw [trans_mem]
  intro a
  match a with
  | ⟨0, _⟩ => show win0_16.index t 0 * 5000 ≤ (i 0).val ∧ (i 0).val < win0_16.index t 0 * 5000 + 5000; rw [h0, ht]; omega
  | ⟨1, _⟩ => show win0_16.index t 1 * 3 ≤ (i 1).val ∧ (i 1).val < win0_16.index t 1 * 3 + 3; rw [h1]; omega

/-- The edge-feature array after the edge kernel's run. -/
theorem edgeFeat_arr (c : Dev nD) :
    (dat0 V c).arrAt 15 cfg0.N = atRC fun e j => edgeFeat (edgeW V c)
      (fun k => (V c main_v6 : Vec Ideal S500000x128 .f32) (ix2 e k)) (fun k => (V c main_v7 : Vec Ideal S500000x128 .f32) (ix2 e k))
      ((V c main_v13 : Vec Ideal S500000x1 .f32) (ix2 e 0)) j :=
  (dat0 V c).arrAt_eq_of_cover 15 (featArr V c) (fun t _ => feat_flushed V c t) feat_cover

/-- The translation array after the edge kernel's run. -/
theorem edgeTrans_arr (c : Dev nD) :
    (dat0 V c).arrAt 16 cfg0.N = atRC fun e a => edgeTrans (edgeW V c) lo hi
      (fun k => (V c main_v6 : Vec Ideal S500000x128 .f32) (ix2 e k)) (fun k => (V c main_v7 : Vec Ideal S500000x128 .f32) (ix2 e k))
      ((V c main_v13 : Vec Ideal S500000x1 .f32) (ix2 e 0)) (fun b => (V c main_v10 : Vec Ideal S500000x3 .f32) (ix2 e b)) a :=
  (dat0 V c).arrAt_eq_of_cover 16 (transArr V c) (fun t _ => trans_flushed V c t) trans_cover

/-! ## The node kernel: ten blocks of 5000 nodes -/

/-- The node kernel's index maps over its ten points: the two row-blocked inputs and the output sit at block row t,
    column block 0; every weight at block (0, 0). -/
theorem node_maps : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-- Row p of block t of a row-blocked array is row 5000 t + p of the array: the node features, -/
theorem node_rows0 (t : Fin cfg1.N) (G : Vec Ideal S50000x128 .f32) (p : Fin 5000) (k : Fin 128) (e : Fin 50000)
    (he : e.val = 5000 * t.val + p.val) :
    (((cfg1.win 0).blk t).view.read (Elt Ideal) G : Vec Ideal S5000x128 .f32) (ix2 p k) = G (ix2 e k) := by
  obtain ⟨⟨h0, h1⟩, -⟩ := node_maps t
  rw [View.read_apply]
  show G _ = G _
  congr 1
  funext a; apply Fin.ext
  match a with
  | ⟨0, _⟩ => show win1_0.index t 0 * 5000 + 1 * p.val = e.val; rw [h0, he]; omega
  | ⟨1, _⟩ => show win1_0.index t 1 * 128 + 1 * k.val = k.val; rw [h1]; omega

/-- the aggregated edge features, -/
theorem node_rows1 (t : Fin cfg1.N) (G : Vec Ideal S50000x128 .f32) (p : Fin 5000) (k : Fin 128) (e : Fin 50000)
    (he : e.val = 5000 * t.val + p.val) :
    (((cfg1.win 1).blk t).view.read (Elt Ideal) G : Vec Ideal S5000x128 .f32) (ix2 p k) = G (ix2 e k) := by
  obtain ⟨-, ⟨h0, h1⟩, -⟩ := node_maps t
  rw [View.read_apply]
  show G _ = G _
  congr 1
  funext a; apply Fin.ext
  match a with
  | ⟨0, _⟩ => show win1_1.index t 0 * 5000 + 1 * p.val = e.val; rw [h0, he]; omega
  | ⟨1, _⟩ => show win1_1.index t 1 * 128 + 1 * k.val = k.val; rw [h1]; omega

/-- and the output. -/
theorem node_rows7 (t : Fin cfg1.N) (G : Vec Ideal S50000x128 .f32) (p : Fin 5000) (k : Fin 128) (e : Fin 50000)
    (he : e.val = 5000 * t.val + p.val) :
    (((cfg1.win 7).blk t).view.read (Elt Ideal) G : Vec Ideal S5000x128 .f32) (ix2 p k) = G (ix2 e k) := by
  obtain ⟨-, -, -, -, -, -, -, ⟨h0, h1⟩⟩ := node_maps t
  rw [View.read_apply]
  show G _ = G _
  congr 1
  funext a; apply Fin.ext
  match a with
  | ⟨0, _⟩ => show win1_7.index t 0 * 5000 + 1 * p.val = e.val; rw [h0, he]; omega
  | ⟨1, _⟩ => show win1_7.index t 1 * 128 + 1 * k.val = k.val; rw [h1]; omega

/-- A weight's block is the whole weight, at every point. -/
theorem node_whole2 (t : Fin cfg1.N) (G : Vec Ideal S128x128 .f32) :
    (((cfg1.win 2).blk t).view.read (Elt Ideal) G : Vec Ideal S128x128 .f32) = G := by
  obtain ⟨-, -, ⟨h0, h1⟩, -⟩ := node_maps t
  funext y
  rw [View.read_apply]
  show G _ = G _
  congr 1
  funext a; apply Fin.ext
  match a with
  | ⟨0, _⟩ => show win1_2.index t 0 * 128 + 1 * (y 0).val = (y 0).val; rw [h0]; omega
  | ⟨1, _⟩ => show win1_2.index t 1 * 128 + 1 * (y 1).val = (y 1).val; rw [h1]; omega

theorem node_whole3 (t : Fin cfg1.N) (G : Vec Ideal S128x128 .f32) :
    (((cfg1.win 3).blk t).view.read (Elt Ideal) G : Vec Ideal S128x128 .f32) = G := by
  obtain ⟨-, -, -, ⟨h0, h1⟩, -⟩ := node_maps t
  funext y
  rw [View.read_apply]
  show G _ = G _
  congr 1
  funext a; apply Fin.ext
  match a with
  | ⟨0, _⟩ => show win1_3.index t 0 * 128 + 1 * (y 0).val = (y 0).val; rw [h0]; omega
  | ⟨1, _⟩ => show win1_3.index t 1 * 128 + 1 * (y 1).val = (y 1).val; rw [h1]; omega

theorem node_whole4 (t : Fin cfg1.N) (G : Vec Ideal S1x128 .f32) :
    (((cfg1.win 4).blk t).view.read (Elt Ideal) G : Vec Ideal S1x128 .f32) = G := by
  obtain ⟨-, -, -, -, ⟨h0, h1⟩, -⟩ := node_maps t
  funext y
  rw [View.read_apply]
  show G _ = G _
  congr 1
  funext a; apply Fin.ext
  match a with
  | ⟨0, _⟩ => show win1_4.index t 0 * 1 + 1 * (y 0).val = (y 0).val; rw [h0]; omega
  | ⟨1, _⟩ => show win1_4.index t 1 * 128 + 1 * (y 1).val = (y 1).val; rw [h1]; omega

theorem node_whole5 (t : Fin cfg1.N) (G : Vec Ideal S128x128 .f32) :
    (((cfg1.win 5).blk t).view.read (Elt Ideal) G : Vec Ideal S128x128 .f32) = G := by
  obtain ⟨-, -, -, -, -, ⟨h0, h1⟩, -⟩ := node_maps t
  funext y
  rw [View.read_apply]
  show G _ = G _
  congr 1
  funext a; apply Fin.ext
  match a with
  | ⟨0, _⟩ => show win1_5.index t 0 * 128 + 1 * (y 0).val = (y 0).val; rw [h0]; omega
  | ⟨1, _⟩ => show win1_5.index t 1 * 128 + 1 * (y 1).val = (y 1).val; rw [h1]; omega

theorem node_whole6 (t : Fin cfg1.N) (G : Vec Ideal S1x128 .f32) :
    (((cfg1.win 6).blk t).view.read (Elt Ideal) G : Vec Ideal S1x128 .f32) = G := by
  obtain ⟨-, -, -, -, -, -, ⟨h0, h1⟩, -⟩ := node_maps t
  funext y
  rw [View.read_apply]
  show G _ = G _
  congr 1
  funext a; apply Fin.ext
  match a with
  | ⟨0, _⟩ => show win1_6.index t 0 * 1 + 1 * (y 0).val = (y 0).val; rw [h0]; omega
  | ⟨1, _⟩ => show win1_6.index t 1 * 128 + 1 * (y 1).val = (y 1).val; rw [h1]; omega

/-- The node array the run ends at: row n is the node update of row n of the features and of the aggregated edge features. -/
def nodeArr (c : Dev nD) : Vec Ideal S50000x128 .f32 :=
  atRC fun n j => nodeOut (nodeW V c)
    (fun k => (V c main_arg0 : Vec Ideal S50000x128 .f32) (ix2 n k)) (fun k => (V c main_v24 : Vec Ideal S50000x128 .f32) (ix2 n k)) j

/-- What point t writes back is block t of that array. -/
theorem node_flushed (c : Dev nD) (t : Fin cfg1.N) :
    (dat1 V c).flushed 7 t = ((cfg1.win 7).blk t).view.read (Elt Ideal) (nodeArr V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  have hN : cfg1.N = 10 := N_1
  have ht : t.val < 10 := hN ▸ t.isLt
  have hp : 5000 * t.val + p.val < 50000 := by have := p.isLt; omega
  refine (node_apply (iblk1 V c 0 t) (iblk1 V c 1 t) (iblk1 V c 2 t) (iblk1 V c 3 t) (iblk1 V c 4 t) (iblk1 V c 5 t) (iblk1 V c 6 t) p q).trans ?_
  refine Eq.trans ?_ (node_rows7 t (nodeArr V c) p q ⟨5000 * t.val + p.val, hp⟩ rfl).symm
  unfold nodeArr
  rw [atRC_ix2]

  have e2 : (iblk1 V c 2 t : Vec Ideal S128x128 .f32) = V c main_v37 := node_whole2 t (V c main_v37)
  have e3 : (iblk1 V c 3 t : Vec Ideal S128x128 .f32) = V c main_v38 := node_whole3 t (V c main_v38)
  have e4 : (iblk1 V c 4 t : Vec Ideal S1x128 .f32) = V c main_v39 := node_whole4 t (V c main_v39)
  have e5 : (iblk1 V c 5 t : Vec Ideal S128x128 .f32) = V c main_arg14 := node_whole5 t (V c main_arg14)
  have e6 : (iblk1 V c 6 t : Vec Ideal S1x128 .f32) = V c main_v40 := node_whole6 t (V c main_v40)
  have r0 : (fun k : Fin 128 => (iblk1 V c 0 t : Vec Ideal S5000x128 .f32) (ix2 p k))
      = fun k => (V c main_arg0 : Vec Ideal S50000x128 .f32) (ix2 ⟨5000 * t.val + p.val, hp⟩ k) :=
    funext fun k => node_rows0 t (V c main_arg0) p k _ rfl
  have r1 : (fun k : Fin 128 => (iblk1 V c 1 t : Vec Ideal S5000x128 .f32) (ix2 p k))
      = fun k => (V c main_v24 : Vec Ideal S50000x128 .f32) (ix2 ⟨5000 * t.val + p.val, hp⟩ k) :=
    funext fun k => node_rows1 t (V c main_v24) p k _ rfl
  unfold nodeW
  rw [e2, e3, e4, e5, e6, r0, r1]

/-- An index of the node array is in point t's block iff each coordinate is in the block's range on its axis. -/
theorem node_mem (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v41).slice (win1_7.rect t)).set ↔ _
  rw [View.set_slice_whole, Rect.mem_set_unit]
  exact Iff.rfl

/-- Row r of the node array is in block r / 5000: the ten blocks tile the array. -/
theorem node_cover (i : S50000x128.Idx) : ∃ t : Fin cfg1.N, (cfg1.win 7).flush t = true ∧ i ∈ ((cfg1.win 7).blk t).view.set := by
  have hN : cfg1.N = 10 := N_1
  have hi0 : (i 0).val < 50000 := (i 0).isLt
  have hi1 : (i 1).val < 128 := (i 1).isLt
  obtain ⟨t, ht⟩ : ∃ t : Fin cfg1.N, t.val = (i 0).val / 5000 := ⟨⟨(i 0).val / 5000, by rw [hN]; omega⟩, rfl⟩
  obtain ⟨-, -, -, -, -, -, -, ⟨h0, h1⟩⟩ := node_maps t
  refine ⟨t, flush1_7 t, ?_⟩
  rw [node_mem]
  intro a
  match a with
  | ⟨0, _⟩ => show win1_7.index t 0 * 5000 ≤ (i 0).val ∧ (i 0).val < win1_7.index t 0 * 5000 + 5000; rw [h0, ht]; omega
  | ⟨1, _⟩ => show win1_7.index t 1 * 128 ≤ (i 1).val ∧ (i 1).val < win1_7.index t 1 * 128 + 128; rw [h1]; omega

/-- The node array after the node kernel's run. -/
theorem nodeOut_arr (c : Dev nD) :
    (dat1 V c).arrAt 7 cfg1.N = atRC fun n j => nodeOut (nodeW V c)
      (fun k => (V c main_arg0 : Vec Ideal S50000x128 .f32) (ix2 n k)) (fun k => (V c main_v24 : Vec Ideal S50000x128 .f32) (ix2 n k)) j :=
  (dat1 V c).arrAt_eq_of_cover 7 (nodeArr V c) (fun t _ => node_flushed V c t) node_cover

end Cert.KernelIdeal.RegionValue

end
-- ==== Proof.SpecHost.lean ====
/-
  The layer's arrays outside the two kernels, as both programs compute them once every edge end point names a node:
  the gathered node rows of each edge's two end points, the coordinate differences and their squared lengths, the sums
  of edge values into their source nodes, and the coordinate update (the clipped mean translation added to the
  coordinates). Gathers and scatter-sums are kept as the one operation they are; everything else is read entry by entry.
-/
import proofs.«409691_j59871844106306_3_alg».proof.Proof.Spec
import Idealize.ShloMosaic.PureOps.Ideal
import Idealize.ShloMosaic.Lib.ValueIdx

noncomputable section

open scoped BigOperators

namespace Cert.Egcl

open Idealize.ShloMosaic Idealize.ShloMosaic.ValueIdx

/-- [N, K]: one row of K numbers per node; [E, K]: one per edge. -/
abbrev SN (K : Nat) : Shape := ⟨2, ![50000, K]⟩
abbrev SE (K : Nat) : Shape := ⟨2, ![500000, K]⟩

/-- Row gather: result row e is the operand's row named by start index e. -/
def gatherRows (K : Nat) (wf : GatherDims.WF (SN K) (SE 1) (SE K) [1] [0] [] [0] [] 1 ![1, K]) : GatherDims (SN K) (SE 1) (SE K) where
  offsetDims := [1]
  collapsedSliceDims := [0]
  operandBatchingDims := []
  startIndicesBatchingDims := []
  startIndexMap := [0]
  indexVectorDim := 1
  sliceSizes := ![1, K]
  wf := wf

/-- Row scatter: update row e goes to the operand's row named by index e. -/
def scatterRows (K : Nat) (wf : ScatterDims.WF (SN K) (SE 1) (SE K) [1] [0] [0] 1) : ScatterDims (SN K) (SE 1) (SE K) where
  updateWindowDims := [1]
  insertedWindowDims := [0]
  scatterDimsToOperandDims := [0]
  indexVectorDim := 1
  wf := wf

theorem gwf128 : GatherDims.WF (SN 128) (SE 1) (SE 128) [1] [0] [] [0] [] 1 ![1, 128] := by decide
theorem gwf3 : GatherDims.WF (SN 3) (SE 1) (SE 3) [1] [0] [] [0] [] 1 ![1, 3] := by decide
theorem swf128 : ScatterDims.WF (SN 128) (SE 1) (SE 128) [1] [0] [0] 1 := by decide
theorem swf3 : ScatterDims.WF (SN 3) (SE 1) (SE 3) [1] [0] [0] 1 := by decide
theorem swf1 : ScatterDims.WF (SN 1) (SE 1) (SE 1) [1] [0] [0] 1 := by decide

/-- End point r of every edge (r = 0 the source, r = 1 the target), as a column of start indices. -/
def endCol (r : Fin 2) (ei : (⟨2, ![2, 500000]⟩ : Shape).Idx → BitVec 32) : IVec (SE 1) 32 :=
  fun i => ei (ix2 r ⟨(i 0).val, idx2_lt0 i⟩)

/-- The node features at end point r of every edge. -/
def featAt (h : FVec Ideal (SN 128) .f32) (r : Fin 2) (ei : (⟨2, ![2, 500000]⟩ : Shape).Idx → BitVec 32) : FVec Ideal (SE 128) .f32 :=
  Host.gather (gatherRows 128 gwf128) h (endCol r ei)

/-- The node coordinates at end point r of every edge. -/
def coordAt (x : FVec Ideal (SN 3) .f32) (r : Fin 2) (ei : (⟨2, ![2, 500000]⟩ : Shape).Idx → BitVec 32) : FVec Ideal (SE 3) .f32 :=
  Host.gather (gatherRows 3 gwf3) x (endCol r ei)

/-- Source minus target coordinates, per edge. -/
def coordDiff (x : FVec Ideal (SN 3) .f32) (ei : (⟨2, ![2, 500000]⟩ : Shape).Idx → BitVec 32) : FVec Ideal (SE 3) .f32 :=
  fun i => coordAt x 0 ei i - coordAt x 1 ei i

/-- The squared length of an edge's coordinate difference: zero plus the sum of the three squares. -/
def sqDist (x : FVec Ideal (SN 3) .f32) (ei : (⟨2, ![2, 500000]⟩ : Shape).Idx → BitVec 32) (e : Fin 500000) : EReal :=
  Ideal.ofBits .f32 0x00000000#32 + ∑ a : Fin 3, coordDiff x ei (ix2 e a) * coordDiff x ei (ix2 e a)

/-- The sum, into each node, of the rows of the edges whose source it is. -/
def sumInto128 (ei : (⟨2, ![2, 500000]⟩ : Shape).Idx → BitVec 32) (u : FVec Ideal (SE 128) .f32) : FVec Ideal (SN 128) .f32 :=
  Host.scatterAdd (scatterRows 128 swf128) (fun _ => Ideal.ofBits .f32 0x00000000#32) (endCol 0 ei) u
def sumInto3 (ei : (⟨2, ![2, 500000]⟩ : Shape).Idx → BitVec 32) (u : FVec Ideal (SE 3) .f32) : FVec Ideal (SN 3) .f32 :=
  Host.scatterAdd (scatterRows 3 swf3) (fun _ => Ideal.ofBits .f32 0x00000000#32) (endCol 0 ei) u
def sumInto1 (ei : (⟨2, ![2, 500000]⟩ : Shape).Idx → BitVec 32) (u : FVec Ideal (SE 1) .f32) : FVec Ideal (SN 1) .f32 :=
  Host.scatterAdd (scatterRows 1 swf1) (fun _ => Ideal.ofBits .f32 0x00000000#32) (endCol 0 ei) u

/-- The coordinate update at one entry: the coordinate plus the clipped mean translation, the mean taken over at least
    one edge. -/
def coordOut (x tsum cnt : FVec Ideal (SN 3) .f32) : FVec Ideal (SN 3) .f32 :=
  fun i => x i + min (Ideal.ofBits .f32 0x41200000#32) (max (Ideal.ofBits .f32 0xC1200000#32)
    (Ideal.div (tsum i) (max (Ideal.ofBits .f32 0x3F800000#32) (cnt i))))

/-- The weights an edge meets, from the layer's argument arrays. -/
def argEdgeP (We1 : FVec Ideal ⟨2, ![257, 128]⟩ .f32) (be1 : FVec Ideal ⟨1, ![128]⟩ .f32) (We2 : FVec Ideal ⟨2, ![128, 128]⟩ .f32)
    (be2 : FVec Ideal ⟨1, ![128]⟩ .f32) (Watt : FVec Ideal ⟨2, ![128, 1]⟩ .f32) (batt : FVec Ideal ⟨1, ![1]⟩ .f32)
    (Wc1 : FVec Ideal ⟨2, ![128, 128]⟩ .f32) (bc1 : FVec Ideal ⟨1, ![128]⟩ .f32) (Wc2 : FVec Ideal ⟨2, ![128, 1]⟩ .f32) : EdgeP where
  We1a := fun k j => We1 (ix2 ⟨k.val, by omega⟩ j)
  We1b := fun k j => We1 (ix2 ⟨128 + k.val, by omega⟩ j)
  We1c := fun j => We1 (ix2 ⟨256, by omega⟩ j)
  be1 := fun j => be1 (ix1 j)
  We2 := fun k j => We2 (ix2 k j)
  be2 := fun j => be2 (ix1 j)
  Watt := fun k => Watt (ix2 k 0)
  batt := batt (ix1 0)
  Wc1 := fun k j => Wc1 (ix2 k j)
  bc1 := fun j => bc1 (ix1 j)
  Wc2 := fun k => Wc2 (ix2 k 0)

/-- The weights a node meets, from the layer's argument arrays. -/
def argNodeP (Wn1 : FVec Ideal ⟨2, ![256, 128]⟩ .f32) (bn1 : FVec Ideal ⟨1, ![128]⟩ .f32) (Wn2 : FVec Ideal ⟨2, ![128, 128]⟩ .f32)
    (bn2 : FVec Ideal ⟨1, ![128]⟩ .f32) : NodeP where
  Wn1a := fun k j => Wn1 (ix2 ⟨k.val, by omega⟩ j)
  Wn1b := fun k j => Wn1 (ix2 ⟨128 + k.val, by omega⟩ j)
  bn1 := fun j => bn1 (ix1 j)
  Wn2 := fun k j => Wn2 (ix2 k j)
  bn2 := fun j => bn2 (ix1 j)

/-- THE LAYER'S THREE RESULTS as functions of its arguments (every edge end point a node). -/
def edgeFeatArr (h : FVec Ideal (SN 128) .f32) (ei : (⟨2, ![2, 500000]⟩ : Shape).Idx → BitVec 32) (x : FVec Ideal (SN 3) .f32) (P : EdgeP) :
    FVec Ideal (SE 128) .f32 :=
  atRC fun e j => edgeFeat P (fun k => featAt h 0 ei (ix2 e k)) (fun k => featAt h 1 ei (ix2 e k)) (sqDist x ei e) j

def edgeTransArr (h : FVec Ideal (SN 128) .f32) (ei : (⟨2, ![2, 500000]⟩ : Shape).Idx → BitVec 32) (x : FVec Ideal (SN 3) .f32) (P : EdgeP) :
    FVec Ideal (SE 3) .f32 :=
  atRC fun e a => edgeTrans P (Ideal.ofBits .f32 0xC1200000#32) (Ideal.ofBits .f32 0x41200000#32)
    (fun k => featAt h 0 ei (ix2 e k)) (fun k => featAt h 1 ei (ix2 e k)) (sqDist x ei e) (fun b => coordDiff x ei (ix2 e b)) a

def coordOutArr (h : FVec Ideal (SN 128) .f32) (ei : (⟨2, ![2, 500000]⟩ : Shape).Idx → BitVec 32) (x : FVec Ideal (SN 3) .f32) (P : EdgeP) :
    FVec Ideal (SN 3) .f32 :=
  coordOut x (sumInto3 ei (edgeTransArr h ei x P)) (sumInto3 ei (fun _ => Ideal.ofBits .f32 0x3F800000#32))

def nodeOutArr (h : FVec Ideal (SN 128) .f32) (ei : (⟨2, ![2, 500000]⟩ : Shape).Idx → BitVec 32) (x : FVec Ideal (SN 3) .f32) (P : EdgeP) (Q : NodeP) :
    FVec Ideal (SN 128) .f32 :=
  atRC fun n j => nodeOut Q (fun k => h (ix2 n k)) (fun k => sumInto128 ei (edgeFeatArr h ei x P) (ix2 n k)) j

end Cert.Egcl

end
-- ==== Proof.IdxWords.lean ====
/-
  Words that name a node. A 32-bit word whose signed value lies in [0, 50000) is unchanged by the three index
  treatments the two programs apply before they gather or scatter with it: clamping into [0, 49999], wrapping a negative
  value by adding 50000, and the in-bounds test 0 ≤ w ≤ 49999, which it passes.
-/
import Idealize.ShloMosaic.PureOps.Float

namespace Cert.Egcl.Words

open Idealize.ShloMosaic

theorem toInt_zero32 : (0#32 : BitVec 32).toInt = 0 := by decide
theorem toInt_49999 : (49999#32 : BitVec 32).toInt = 49999 := by decide

/-- Clamping into [0, 49999] leaves the word. -/
theorem clip_word (w : BitVec 32) (h0 : 0 ≤ w.toInt) (h1 : w.toInt < 50000) :
    IntOp.minsi 49999#32 (IntOp.maxsi 0#32 w) = w := by
  have hmax : IntOp.maxsi 0#32 w = w := by
    unfold IntOp.maxsi
    rw [if_neg]
    rw [BitVec.slt_iff_toInt_lt, toInt_zero32]
    omega
  rw [hmax]
  unfold IntOp.minsi
  rw [if_neg]
  rw [BitVec.slt_iff_toInt_lt, toInt_49999]
  omega

/-- Wrapping a negative index does nothing to it. -/
theorem wrap_word (w : BitVec 32) (h0 : 0 ≤ w.toInt) :
    Scalar.select (IntOp.cmpi .slt w 0#32) (IntOp.addi w 50000#32) w = w := by
  have hc : IntOp.cmpi .slt w 0#32 = 0#1 := by
    unfold IntOp.cmpi
    have : w.slt 0#32 = false := by
      rw [Bool.eq_false_iff, Ne, BitVec.slt_iff_toInt_lt, toInt_zero32]
      omega
    simp [this]
  rw [hc]
  exact if_neg (by decide)

/-- It passes the in-bounds test. -/
theorem inb_word (w : BitVec 32) (h0 : 0 ≤ w.toInt) (h1 : w.toInt < 50000) :
    IntOp.andi (IntOp.cmpi .sge w 0#32) (IntOp.cmpi .sle w 49999#32) = 1#1 := by
  have ha : IntOp.cmpi .sge w 0#32 = 1#1 := by
    unfold IntOp.cmpi
    have : (0#32 : BitVec 32).sle w = true := by
      rw [BitVec.sle_iff_toInt_le, toInt_zero32]; exact h0
    simp [this]
  have hb : IntOp.cmpi .sle w 49999#32 = 1#1 := by
    unfold IntOp.cmpi
    have : w.sle 49999#32 = true := by
      rw [BitVec.sle_iff_toInt_le, toInt_49999]; omega
    simp [this]
  rw [ha, hb]
  decide

end Cert.Egcl.Words
-- ==== Proof.KHost0.lean ====
/-
  What the TensorCore's buffers hold when the edge kernel is entered. Before it the host clamps the two rows of the edge
  index into [0, 49999], gathers with each row the node features and the node coordinates (a gather that wraps a
  negative index, tests the index against the bounds and fills a row that fails the test), subtracts the two gathered
  coordinates and sums the squares of the difference. When every entry of the edge index names a node, the clamp and
  the wrap change nothing, every row passes the bounds test, and so the gathered arrays are the plain row gathers at
  the edges' two end points, the difference is the coordinate difference and the sum of squares its squared length.
-/
import proofs.«409691_j59871844106306_3_alg».proof.Proof.Gen.KernelIdeal.Frame
import proofs.«409691_j59871844106306_3_alg».proof.Proof.KEdge
import proofs.«409691_j59871844106306_3_alg».proof.Proof.SpecHost
import proofs.«409691_j59871844106306_3_alg».proof.Proof.IdxWords
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.Lib.ReduceAll
import Idealize.ShloMosaic.PureOps.Ideal.Laws

set_option maxRecDepth 16384

noncomputable section

namespace Cert.KernelIdeal.Entry0

open Cert.KernelIdeal Cert.KernelIdeal.Gen Cert.Egcl Cert.KernelIdeal.EdgeBody
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-! ## Words, vectors and columns of indices that name nodes -/

theorem idx1_lt {n : Nat} (j : (⟨1, ![n]⟩ : Shape).Idx) : (j 0).val < n := (j 0).isLt

/-- End point r of every edge, as a vector over the edges. -/
def endRow (r : Fin 2) (ei : (⟨2, ![2, 500000]⟩ : Shape).Idx → BitVec 32) : IVec S500000 32 :=
  fun i => ei (ix2 r ⟨(i 0).val, idx1_lt i⟩)

/-- A vector of indices every one of which names a node. -/
def Names (idx : IVec S500000 32) : Prop := ∀ i, 0 ≤ (idx i).toInt ∧ (idx i).toInt < 50000

theorem endRow_names {ei : (⟨2, ![2, 500000]⟩ : Shape).Idx → BitVec 32} (h : InRange ei) (r : Fin 2) : Names (endRow r ei) :=
  fun _ => h _

/-- The clamp into [0, 49999], the two bounds spread over the edges. -/
def clampIdx (hb : S_.BroadcastsInDim S500000 (![] : Fin 0 → Fin S500000.rank)) (lo hi : IVec S_ 32) (idx : IVec S500000 32) :
    IVec S500000 32 :=
  minsi (broadcastInDim S500000 ![] hb hi) (maxsi (broadcastInDim S500000 ![] hb lo) idx)

/-- The clamp leaves indices that name nodes. -/
theorem clampIdx_eq (hb : S_.BroadcastsInDim S500000 (![] : Fin 0 → Fin S500000.rank)) (idx : IVec S500000 32) (h : Names idx) :
    clampIdx hb (constantI S_ 32 0#32) (constantI S_ 32 49999#32) idx = idx := by
  funext i
  exact Words.clip_word (idx i) (h i).1 (h i).2

/-- The wrapped index: a negative entry moved up by the number of nodes. -/
def wrapIdx (hb : S_.BroadcastsInDim S500000 (![] : Fin 0 → Fin S500000.rank)) (idx : IVec S500000 32) : IVec S500000 32 :=
  select (cmpi CmpIPredicate.slt idx (broadcastInDim S500000 ![] hb (constantI S_ 32 0#32)))
    (addi idx (broadcastInDim S500000 ![] hb (constantI S_ 32 50000#32))) idx

/-- The wrap leaves indices that name nodes. -/
theorem wrapIdx_eq (hb : S_.BroadcastsInDim S500000 (![] : Fin 0 → Fin S500000.rank)) (idx : IVec S500000 32) (h : Names idx) :
    wrapIdx hb idx = idx := by
  funext i
  exact Words.wrap_word (idx i) (h i).1

/-- The in-bounds test of a column of start indices, folded over its one column. -/
def inbMask (h0 : S_.BroadcastsInDim S500000x1 (![] : Fin 0 → Fin S500000x1.rank))
    (h1 : S1.BroadcastsInDim S1x1 (![1] : Fin 1 → Fin S1x1.rank))
    (h2 : S1x1.BroadcastsInDim S500000x1 (![0, 1] : Fin 2 → Fin S500000x1.rank))
    (hr : S500000x1.ReducesTo [1] S500000) (hs : 0 < S_.numel) (col : IVec S500000x1 32) : IVec S500000 1 :=
  Host.reduce IntOp.andi
    (andi (cmpi CmpIPredicate.sge col (broadcastInDim S500000x1 ![] h0 (constantI S_ 32 0#32)))
      (cmpi CmpIPredicate.sle col (broadcastInDim S500000x1 ![0, 1] h2 (broadcastInDim S1x1 ![1] h1 (constantI S1 32 49999#32)))))
    (constantI S_ 1 1#1) hr hs

/-- A fold by "and" from 1 over words that are all 1 is 1. -/
theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- Every row of a column of indices that name nodes passes the test. -/
theorem inbMask_eq (h0 : S_.BroadcastsInDim S500000x1 (![] : Fin 0 → Fin S500000x1.rank))
    (h1 : S1.BroadcastsInDim S1x1 (![1] : Fin 1 → Fin S1x1.rank))
    (h2 : S1x1.BroadcastsInDim S500000x1 (![0, 1] : Fin 2 → Fin S500000x1.rank))
    (hr : S500000x1.ReducesTo [1] S500000) (hs : 0 < S_.numel) (col : IVec S500000x1 32)
    (h : ∀ i, 0 ≤ (col i).toInt ∧ (col i).toInt < 50000) :
    inbMask h0 h1 h2 hr hs col = fun _ => 1#1 := by
  funext j
  unfold inbMask
  rw [Host.reduce_eq_foldl]
  exact foldl_andi_ones _ (fun i => Words.inb_word (col i) (h i).1 (h i).2) _

/-- A selection by a mask that is 1 on every row keeps its first operand. -/
theorem select_ones {K : Nat} {α : Type} (hb : S500000.BroadcastsInDim (SE K) (![0] : Fin 1 → Fin (SE K).rank)) (a b : (SE K).Idx → α) :
    select (broadcastInDim (s := S500000) (SE K) ![0] hb (fun _ => (1#1 : BitVec 1))) a b = a := by
  funext i
  exact select_one _ _

/-- A vector of start indices as a one-column array: the column of end points. -/
theorem col_eq (hc : S500000.BroadcastsInDim S500000x1 (![0] : Fin 1 → Fin S500000x1.rank)) (r : Fin 2)
    (ei : (⟨2, ![2, 500000]⟩ : Shape).Idx → BitVec 32) :
    broadcastInDim S500000x1 ![0] hc (endRow r ei) = endCol r ei := by
  funext i
  refine (broadcastInDim_apply ![0] hc (endRow r ei) i (ix1 ⟨(i 0).val, idx2_lt0 i⟩) fun a => ?_).trans rfl
  match a with
  | ⟨0, _⟩ => exact (if_neg (show ¬ (S500000.size 0 = 1) by decide)).symm

/-- The gather that wraps, tests and fills, at indices that name nodes, is the plain row gather at them. -/
theorem take_eq {K : Nat} (gd : GatherDims (SN K) (SE 1) (SE K))
    (hb : S_.BroadcastsInDim S500000 (![] : Fin 0 → Fin S500000.rank))
    (hc : S500000.BroadcastsInDim S500000x1 (![0] : Fin 1 → Fin S500000x1.rank))
    (h0 : S_.BroadcastsInDim S500000x1 (![] : Fin 0 → Fin S500000x1.rank))
    (h1 : S1.BroadcastsInDim S1x1 (![1] : Fin 1 → Fin S1x1.rank))
    (h2 : S1x1.BroadcastsInDim S500000x1 (![0, 1] : Fin 2 → Fin S500000x1.rank))
    (hr : S500000x1.ReducesTo [1] S500000) (hs : 0 < S_.numel)
    (hk : S500000.BroadcastsInDim (SE K) (![0] : Fin 1 → Fin (SE K).rank))
    (x : FVec Ideal (SN K) .f32) (fill : FVec Ideal (SE K) .f32) (idx : IVec S500000 32) (h : Names idx) :
    select (broadcastInDim (SE K) ![0] hk (inbMask h0 h1 h2 hr hs (broadcastInDim S500000x1 ![0] hc (wrapIdx hb idx))))
        (Host.gather gd x (broadcastInDim S500000x1 ![0] hc (wrapIdx hb idx))) fill
      = Host.gather gd x (broadcastInDim S500000x1 ![0] hc idx) := by
  rw [wrapIdx_eq hb idx h, inbMask_eq h0 h1 h2 hr hs (broadcastInDim S500000x1 ![0] hc idx) (fun i => h _)]
  exact select_ones hk _ _

/-! ## Reading one stretch of host operations

A stretch's operations write a value at its own type and read it back at its own type; between the two the contents are
unchanged. Each result below is the composite of the stretch's operations over the contents the stretch starts from. -/

/-- A buffer that no operation of a stretch writes is as the stretch found it. -/
macro "stretch_keeps" : tactic => `(tactic| (
  refine StableHlo.after_of_forall_not_mem _ _ (List.forall_iff_forall_mem.mp ?_)
  simp only [hostOps0, hostOps0_1, hostOps0_2, hostOps0_3, hostOps0_4, hostOps0_5, hostOps0_6, hostOps0_7, hostOps0_8,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

section Casts
variable {Val : EltTy → Type} {T : BufTy}

/-- Contents moved to a buffer's own type and back are unchanged. -/
theorem ofBuf_toBuf (x : StableHlo.TRef sig T) (v : T.Contents Val) : x.ofBuf (x.toBuf v) = v := by
  obtain ⟨r, rfl, _, _⟩ := x
  rfl

end Casts

/-- At a literal buffer the move between the buffer's type and the value's type is the identity. -/
macro "read_at " n:ident r:ident T:term : command =>
  `(theorem $n {F : FTy → Type} [FloatOps F] (p1 p2 p3) (w : ($r : Ref sig .tc).ty.Contents (Elt F)) :
      (StableHlo.TRef.of (T := $T) $r p1 p2 p3).ofBuf w = w := rfl)
macro "written_at " n:ident r:ident T:term : command =>
  `(theorem $n {F : FTy → Type} [FloatOps F] (p1 p2 p3) (X : BufTy.Contents (Elt F) $T) :
      (StableHlo.TRef.of (T := $T) $r p1 p2 p3).toBuf X = X := rfl)

read_at ofBuf_c main_c ⟨S_, .i32⟩
read_at ofBuf_c_0 main_c_0 ⟨S_, .i32⟩
read_at ofBuf_c_1 main_c_1 ⟨S_, .i32⟩
read_at ofBuf_c_2 main_c_2 ⟨S_, .i32⟩
read_at ofBuf_v1 main_v1 ⟨S500000, .i32⟩
read_at ofBuf_v4 main_v4 ⟨S500000, .i32⟩
read_at ofBuf_v2 main_v2 ⟨S500000, .i32⟩
read_at ofBuf_v5 main_v5 ⟨S500000, .i32⟩
read_at ofBuf_arg0 main_arg0 ⟨S50000x128, .f32⟩
read_at ofBuf_arg2 main_arg2 ⟨S50000x3, .f32⟩
written_at toBuf_v2 main_v2 ⟨S500000, .i32⟩
written_at toBuf_v5 main_v5 ⟨S500000, .i32⟩
written_at toBuf_v6 main_v6 ⟨S500000x128, .f32⟩
written_at toBuf_v7 main_v7 ⟨S500000x128, .f32⟩
written_at toBuf_v8 main_v8 ⟨S500000x3, .f32⟩
written_at toBuf_v9 main_v9 ⟨S500000x3, .f32⟩

section Reads
variable {F : FTy → Type} [FloatOps F]

/-- Row r of a two-row index array, as the slice and reshape produce it. -/
theorem row_read (X : IVec S2x500000 32) (r : Fin 2) (hs : S2x500000.Slices ![r.val, 0] S1x500000) (hc : S1x500000.ShapeCasts S500000) :
    shapeCast S500000 (extractStridedSlice S1x500000 ![r.val, 0] X hs) hc = endRow r X := by
  funext i
  obtain ⟨e, rfl⟩ : ∃ e : Fin 500000, i = ix1 e := ⟨_, eq_ix1 i⟩
  refine (shapeCast_1a_a_apply _ hc e).trans ?_
  refine (slice2_axis0_apply r.val X hs (0 : Fin 1) e r (by simp)).trans ?_
  rfl

set_option maxHeartbeats 400000 in
/-- The first stretch: row 0 of the edge index and the two clamp bounds. -/
theorem read_v1 (V : Valuation τ sig (Elt F)) :
    (StableHlo.after hostOps0 V (Proc.devRef .tc main_v1) : IVec S500000 32) = endRow 0 (V (Proc.devRef .tc main_arg1) : IVec S2x500000 32) := by
  after_results_simp
  exact row_read _ 0 _ _

set_option maxHeartbeats 400000 in
theorem read_c (V : Valuation τ sig (Elt F)) :
    (StableHlo.after hostOps0 V (Proc.devRef .tc main_c) : IVec S_ 32) = constantI S_ 32 0#32 := by
  after_results_simp

set_option maxHeartbeats 400000 in
theorem read_c_0 (V : Valuation τ sig (Elt F)) :
    (StableHlo.after hostOps0 V (Proc.devRef .tc main_c_0) : IVec S_ 32) = constantI S_ 32 49999#32 := by
  after_results_simp

set_option maxHeartbeats 400000 in
/-- The second stretch: the clamp of row 0. -/
theorem read_v2 (V : Valuation τ sig (Elt F)) :
    (StableHlo.after hostOps0_1 V (Proc.devRef .tc main_v2) : IVec S500000 32)
      = clampIdx bcast_S_S500000 (V (Proc.devRef .tc main_c) : IVec S_ 32) (V (Proc.devRef .tc main_c_0) : IVec S_ 32)
          (V (Proc.devRef .tc main_v1) : IVec S500000 32) := by
  after_results_simp
  simp only [ofBuf_toBuf, ofBuf_c, ofBuf_c_0, ofBuf_v1, toBuf_v2]
  rfl

set_option maxHeartbeats 400000 in
/-- The third stretch: row 1 of the edge index and the two clamp bounds. -/
theorem read_v4 (V : Valuation τ sig (Elt F)) :
    (StableHlo.after hostOps0_2 V (Proc.devRef .tc main_v4) : IVec S500000 32) = endRow 1 (V (Proc.devRef .tc main_arg1) : IVec S2x500000 32) := by
  after_results_simp
  exact row_read _ 1 _ _

set_option maxHeartbeats 400000 in
theorem read_c_1 (V : Valuation τ sig (Elt F)) :
    (StableHlo.after hostOps0_2 V (Proc.devRef .tc main_c_1) : IVec S_ 32) = constantI S_ 32 0#32 := by
  after_results_simp

set_option maxHeartbeats 400000 in
theorem read_c_2 (V : Valuation τ sig (Elt F)) :
    (StableHlo.after hostOps0_2 V (Proc.devRef .tc main_c_2) : IVec S_ 32) = constantI S_ 32 49999#32 := by
  after_results_simp

set_option maxHeartbeats 400000 in
/-- The fourth stretch: the clamp of row 1. -/
theorem read_v5 (V : Valuation τ sig (Elt F)) :
    (StableHlo.after hostOps0_3 V (Proc.devRef .tc main_v5) : IVec S500000 32)
      = clampIdx bcast_S_S500000 (V (Proc.devRef .tc main_c_1) : IVec S_ 32) (V (Proc.devRef .tc main_c_2) : IVec S_ 32)
          (V (Proc.devRef .tc main_v4) : IVec S500000 32) := by
  after_results_simp
  simp only [ofBuf_toBuf, ofBuf_c_1, ofBuf_c_2, ofBuf_v4, toBuf_v5]
  rfl

/-- The gather that wraps its indices, tests them against the bounds and fills the rows that fail, as its stretch computes it. -/
def takeRows {K : Nat} (gd : GatherDims (SN K) (SE 1) (SE K)) (hk : S500000.BroadcastsInDim (SE K) (![0] : Fin 1 → Fin (SE K).rank))
    (hf : S_.BroadcastsInDim (SE K) (![] : Fin 0 → Fin (SE K).rank)) (x : FVec F (SN K) .f32) (idx : IVec S500000 32) : FVec F (SE K) .f32 :=
  select (broadcastInDim (SE K) ![0] hk
        (inbMask bcast_S_S500000x1 bcast_S1_S1x1_1 bcast_S1x1_S500000x1_0_1 reducesTo_S500000x1_S500000_d1 h_S_
          (broadcastInDim S500000x1 ![0] bcast_S500000_S500000x1_0 (wrapIdx bcast_S_S500000 idx))))
    (Host.gather gd x (broadcastInDim S500000x1 ![0] bcast_S500000_S500000x1_0 (wrapIdx bcast_S_S500000 idx)))
    (broadcastInDim (SE K) ![] hf (constant (F := F) S_ .f32 0x7FC00000#32))

set_option maxHeartbeats 400000 in
/-- The four gather stretches. -/
theorem read_v6 (V : Valuation τ sig (Elt F)) :
    (StableHlo.after hostOps0_4 V (Proc.devRef .tc main_v6) : Vec F S500000x128 .f32)
      = takeRows gather_S50000x128_S500000x1_S500000x128_1_0_n_n_0_1_1128 bcast_S500000_S500000x128_0 bcast_S_S500000x128
          (V (Proc.devRef .tc main_arg0) : Vec F S50000x128 .f32) (V (Proc.devRef .tc main_v2) : IVec S500000 32) := by
  after_results_simp
  simp only [ofBuf_toBuf, ofBuf_v2, ofBuf_arg0, toBuf_v6]
  rfl

set_option maxHeartbeats 400000 in
theorem read_v7 (V : Valuation τ sig (Elt F)) :
    (StableHlo.after hostOps0_5 V (Proc.devRef .tc main_v7) : Vec F S500000x128 .f32)
      = takeRows gather_S50000x128_S500000x1_S500000x128_1_0_n_n_0_1_1128 bcast_S500000_S500000x128_0 bcast_S_S500000x128
          (V (Proc.devRef .tc main_arg0) : Vec F S50000x128 .f32) (V (Proc.devRef .tc main_v5) : IVec S500000 32) := by
  after_results_simp
  simp only [ofBuf_toBuf, ofBuf_v5, ofBuf_arg0, toBuf_v7]
  rfl

set_option maxHeartbeats 400000 in
theorem read_v8 (V : Valuation τ sig (Elt F)) :
    (StableHlo.after hostOps0_6 V (Proc.devRef .tc main_v8) : Vec F S500000x3 .f32)
      = takeRows gather_S50000x3_S500000x1_S500000x3_1_0_n_n_0_1_13 bcast_S500000_S500000x3_0 bcast_S_S500000x3
          (V (Proc.devRef .tc main_arg2) : Vec F S50000x3 .f32) (V (Proc.devRef .tc main_v2) : IVec S500000 32) := by
  after_results_simp
  simp only [ofBuf_toBuf, ofBuf_v2, ofBuf_arg2, toBuf_v8]
  rfl

set_option maxHeartbeats 400000 in
theorem read_v9 (V : Valuation τ sig (Elt F)) :
    (StableHlo.after hostOps0_7 V (Proc.devRef .tc main_v9) : Vec F S500000x3 .f32)
      = takeRows gather_S50000x3_S500000x1_S500000x3_1_0_n_n_0_1_13 bcast_S500000_S500000x3_0 bcast_S_S500000x3
          (V (Proc.devRef .tc main_arg2) : Vec F S50000x3 .f32) (V (Proc.devRef .tc main_v5) : IVec S500000 32) := by
  after_results_simp
  simp only [ofBuf_toBuf, ofBuf_v5, ofBuf_arg2, toBuf_v9]
  rfl

set_option maxHeartbeats 400000 in
/-- The last stretch: the difference of the two gathered coordinates, and the sum of its squares as a one-column array. -/
theorem read_v10 (V : Valuation τ sig (Elt F)) :
    (StableHlo.after hostOps0_8 V (Proc.devRef .tc main_v10) : Vec F S500000x3 .f32)
      = subf (V (Proc.devRef .tc main_v8) : Vec F S500000x3 .f32) (V (Proc.devRef .tc main_v9) : Vec F S500000x3 .f32) := by
  after_results_simp

set_option maxHeartbeats 400000 in
theorem read_v13 (V : Valuation τ sig (Elt F)) :
    (StableHlo.after hostOps0_8 V (Proc.devRef .tc main_v13) : Vec F S500000x1 .f32)
      = broadcastInDim S500000x1 ![0] bcast_S500000_S500000x1_0
          (Host.reduceAdd
            (mulf (subf (V (Proc.devRef .tc main_v8) : Vec F S500000x3 .f32) (V (Proc.devRef .tc main_v9) : Vec F S500000x3 .f32))
              (subf (V (Proc.devRef .tc main_v8) : Vec F S500000x3 .f32) (V (Proc.devRef .tc main_v9) : Vec F S500000x3 .f32)))
            (constant (F := F) S_ .f32 0x00000000#32) reducesTo_S500000x3_S500000_d1 h_S_) := by
  after_results_simp

end Reads

/-! ## The buffers at the edge kernel's entry -/

variable (m : (ℓ : Loc nD τ sig) → Buf (Elt Ideal) ℓ) (ρ : Dev nD → PrngReg) (c : Dev nD)

/-! The arguments and the clamped rows are carried unchanged through the stretches that do not write them. -/

theorem arg1_W2 : W2 m ρ c (Proc.devRef .tc main_arg1) = m ((c : Thread nD τ).loc main_arg1) :=
  calc W2 m ρ c (Proc.devRef .tc main_arg1)
    _ = W1 m ρ c (Proc.devRef .tc main_arg1) := by stretch_keeps
    _ = W0 m ρ c (Proc.devRef .tc main_arg1) := by stretch_keeps
    _ = m ((c : Thread nD τ).loc main_arg1) := rfl

theorem arg0_W4 : W4 m ρ c (Proc.devRef .tc main_arg0) = m ((c : Thread nD τ).loc main_arg0) :=
  calc W4 m ρ c (Proc.devRef .tc main_arg0)
    _ = W3 m ρ c (Proc.devRef .tc main_arg0) := by stretch_keeps
    _ = W2 m ρ c (Proc.devRef .tc main_arg0) := by stretch_keeps
    _ = W1 m ρ c (Proc.devRef .tc main_arg0) := by stretch_keeps
    _ = W0 m ρ c (Proc.devRef .tc main_arg0) := by stretch_keeps
    _ = m ((c : Thread nD τ).loc main_arg0) := rfl

theorem arg0_W5 : W5 m ρ c (Proc.devRef .tc main_arg0) = m ((c : Thread nD τ).loc main_arg0) :=
  calc W5 m ρ c (Proc.devRef .tc main_arg0)
    _ = W4 m ρ c (Proc.devRef .tc main_arg0) := by stretch_keeps
    _ = m ((c : Thread nD τ).loc main_arg0) := arg0_W4 m ρ c

theorem arg2_W6 : W6 m ρ c (Proc.devRef .tc main_arg2) = m ((c : Thread nD τ).loc main_arg2) :=
  calc W6 m ρ c (Proc.devRef .tc main_arg2)
    _ = W5 m ρ c (Proc.devRef .tc main_arg2) := by stretch_keeps
    _ = W4 m ρ c (Proc.devRef .tc main_arg2) := by stretch_keeps
    _ = W3 m ρ c (Proc.devRef .tc main_arg2) := by stretch_keeps
    _ = W2 m ρ c (Proc.devRef .tc main_arg2) := by stretch_keeps
    _ = W1 m ρ c (Proc.devRef .tc main_arg2) := by stretch_keeps
    _ = W0 m ρ c (Proc.devRef .tc main_arg2) := by stretch_keeps
    _ = m ((c : Thread nD τ).loc main_arg2) := rfl

theorem arg2_W7 : W7 m ρ c (Proc.devRef .tc main_arg2) = m ((c : Thread nD τ).loc main_arg2) :=
  calc W7 m ρ c (Proc.devRef .tc main_arg2)
    _ = W6 m ρ c (Proc.devRef .tc main_arg2) := by stretch_keeps
    _ = m ((c : Thread nD τ).loc main_arg2) := arg2_W6 m ρ c

theorem v2_W4 : W4 m ρ c (Proc.devRef .tc main_v2) = W2 m ρ c (Proc.devRef .tc main_v2) :=
  calc W4 m ρ c (Proc.devRef .tc main_v2)
    _ = W3 m ρ c (Proc.devRef .tc main_v2) := by stretch_keeps
    _ = W2 m ρ c (Proc.devRef .tc main_v2) := by stretch_keeps

theorem v2_W6 : W6 m ρ c (Proc.devRef .tc main_v2) = W2 m ρ c (Proc.devRef .tc main_v2) :=
  calc W6 m ρ c (Proc.devRef .tc main_v2)
    _ = W5 m ρ c (Proc.devRef .tc main_v2) := by stretch_keeps
    _ = W4 m ρ c (Proc.devRef .tc main_v2) := by stretch_keeps
    _ = W2 m ρ c (Proc.devRef .tc main_v2) := v2_W4 m ρ c

theorem v5_W5 : W5 m ρ c (Proc.devRef .tc main_v5) = W4 m ρ c (Proc.devRef .tc main_v5) := by stretch_keeps

theorem v5_W7 : W7 m ρ c (Proc.devRef .tc main_v5) = W4 m ρ c (Proc.devRef .tc main_v5) :=
  calc W7 m ρ c (Proc.devRef .tc main_v5)
    _ = W6 m ρ c (Proc.devRef .tc main_v5) := by stretch_keeps
    _ = W5 m ρ c (Proc.devRef .tc main_v5) := by stretch_keeps
    _ = W4 m ρ c (Proc.devRef .tc main_v5) := v5_W5 m ρ c

theorem v6_W9 : W9 m ρ c (Proc.devRef .tc main_v6) = W5 m ρ c (Proc.devRef .tc main_v6) :=
  calc W9 m ρ c (Proc.devRef .tc main_v6)
    _ = W8 m ρ c (Proc.devRef .tc main_v6) := by stretch_keeps
    _ = W7 m ρ c (Proc.devRef .tc main_v6) := by stretch_keeps
    _ = W6 m ρ c (Proc.devRef .tc main_v6) := by stretch_keeps
    _ = W5 m ρ c (Proc.devRef .tc main_v6) := by stretch_keeps

theorem v7_W9 : W9 m ρ c (Proc.devRef .tc main_v7) = W6 m ρ c (Proc.devRef .tc main_v7) :=
  calc W9 m ρ c (Proc.devRef .tc main_v7)
    _ = W8 m ρ c (Proc.devRef .tc main_v7) := by stretch_keeps
    _ = W7 m ρ c (Proc.devRef .tc main_v7) := by stretch_keeps
    _ = W6 m ρ c (Proc.devRef .tc main_v7) := by stretch_keeps

theorem v8_W8 : W8 m ρ c (Proc.devRef .tc main_v8) = W7 m ρ c (Proc.devRef .tc main_v8) := by stretch_keeps

/-! The two rows of the edge index, clamped: unchanged when every entry names a node. -/

theorem v1_val : (W1 m ρ c (Proc.devRef .tc main_v1) : IVec S500000 32) = endRow 0 (m ((c : Thread nD τ).loc main_arg1)) :=
  read_v1 (F := Ideal) (W0 m ρ c)

theorem c_val : (W1 m ρ c (Proc.devRef .tc main_c) : IVec S_ 32) = constantI S_ 32 0#32 := read_c (F := Ideal) (W0 m ρ c)

theorem c_0_val : (W1 m ρ c (Proc.devRef .tc main_c_0) : IVec S_ 32) = constantI S_ 32 49999#32 := read_c_0 (F := Ideal) (W0 m ρ c)

theorem v2_val (hidx : InRange (m ((c : Thread nD τ).loc main_arg1))) :
    (W2 m ρ c (Proc.devRef .tc main_v2) : IVec S500000 32) = endRow 0 (m ((c : Thread nD τ).loc main_arg1)) := by
  refine (read_v2 (F := Ideal) (W1 m ρ c)).trans ?_
  rw [c_val m ρ c, c_0_val m ρ c, v1_val m ρ c]
  exact clampIdx_eq _ _ (endRow_names hidx 0)

theorem v4_val : (W3 m ρ c (Proc.devRef .tc main_v4) : IVec S500000 32) = endRow 1 (m ((c : Thread nD τ).loc main_arg1)) := by
  refine (read_v4 (F := Ideal) (W2 m ρ c)).trans ?_
  rw [arg1_W2 m ρ c]

theorem c_1_val : (W3 m ρ c (Proc.devRef .tc main_c_1) : IVec S_ 32) = constantI S_ 32 0#32 := read_c_1 (F := Ideal) (W2 m ρ c)

theorem c_2_val : (W3 m ρ c (Proc.devRef .tc main_c_2) : IVec S_ 32) = constantI S_ 32 49999#32 := read_c_2 (F := Ideal) (W2 m ρ c)

theorem v5_val (hidx : InRange (m ((c : Thread nD τ).loc main_arg1))) :
    (W4 m ρ c (Proc.devRef .tc main_v5) : IVec S500000 32) = endRow 1 (m ((c : Thread nD τ).loc main_arg1)) := by
  refine (read_v5 (F := Ideal) (W3 m ρ c)).trans ?_
  rw [c_1_val m ρ c, c_2_val m ρ c, v4_val m ρ c]
  exact clampIdx_eq _ _ (endRow_names hidx 1)

/-! The four gathers. -/

/-- The wrapping, testing, filling gather at one end point of every edge is the row gather there. -/
theorem takeRows_eq {K : Nat} (gd : GatherDims (SN K) (SE 1) (SE K)) (hk : S500000.BroadcastsInDim (SE K) (![0] : Fin 1 → Fin (SE K).rank))
    (hf : S_.BroadcastsInDim (SE K) (![] : Fin 0 → Fin (SE K).rank)) (x : FVec Ideal (SN K) .f32)
    (ei : (⟨2, ![2, 500000]⟩ : Shape).Idx → BitVec 32) (hidx : InRange ei) (r : Fin 2) :
    takeRows gd hk hf x (endRow r ei) = Host.gather gd x (endCol r ei) := by
  unfold takeRows
  refine (take_eq gd _ _ _ _ _ _ _ hk x _ (endRow r ei) (endRow_names hidx r)).trans ?_
  rw [col_eq]

theorem v6_val (hidx : InRange (m ((c : Thread nD τ).loc main_arg1))) :
    (W5 m ρ c (Proc.devRef .tc main_v6) : Vec Ideal S500000x128 .f32)
      = featAt (m ((c : Thread nD τ).loc main_arg0)) 0 (m ((c : Thread nD τ).loc main_arg1)) := by
  refine (read_v6 (F := Ideal) (W4 m ρ c)).trans ?_
  rw [v2_W4 m ρ c, v2_val m ρ c hidx, arg0_W4 m ρ c]
  exact takeRows_eq _ _ _ _ _ hidx 0

theorem v7_val (hidx : InRange (m ((c : Thread nD τ).loc main_arg1))) :
    (W6 m ρ c (Proc.devRef .tc main_v7) : Vec Ideal S500000x128 .f32)
      = featAt (m ((c : Thread nD τ).loc main_arg0)) 1 (m ((c : Thread nD τ).loc main_arg1)) := by
  refine (read_v7 (F := Ideal) (W5 m ρ c)).trans ?_
  rw [v5_W5 m ρ c, v5_val m ρ c hidx, arg0_W5 m ρ c]
  exact takeRows_eq _ _ _ _ _ hidx 1

theorem v8_val (hidx : InRange (m ((c : Thread nD τ).loc main_arg1))) :
    (W7 m ρ c (Proc.devRef .tc main_v8) : Vec Ideal S500000x3 .f32)
      = coordAt (m ((c : Thread nD τ).loc main_arg2)) 0 (m ((c : Thread nD τ).loc main_arg1)) := by
  refine (read_v8 (F := Ideal) (W6 m ρ c)).trans ?_
  rw [v2_W6 m ρ c, v2_val m ρ c hidx, arg2_W6 m ρ c]
  exact takeRows_eq _ _ _ _ _ hidx 0

theorem v9_val (hidx : InRange (m ((c : Thread nD τ).loc main_arg1))) :
    (W8 m ρ c (Proc.devRef .tc main_v9) : Vec Ideal S500000x3 .f32)
      = coordAt (m ((c : Thread nD τ).loc main_arg2)) 1 (m ((c : Thread nD τ).loc main_arg1)) := by
  refine (read_v9 (F := Ideal) (W7 m ρ c)).trans ?_
  rw [v5_W7 m ρ c, v5_val m ρ c hidx, arg2_W7 m ρ c]
  exact takeRows_eq _ _ _ _ _ hidx 1

/-! The squared length: the one-column array of the sums, over the three coordinates, of the squares. -/

theorem rad_calc (d : FVec Ideal S500000x3 .f32) (hc : S500000.BroadcastsInDim S500000x1 (![0] : Fin 1 → Fin S500000x1.rank))
    (hr : S500000x3.ReducesTo [1] S500000) (hs : 0 < S_.numel) (e : Fin 500000) :
    broadcastInDim S500000x1 ![0] hc (Host.reduceAdd (mulf d d) (constant (F := Ideal) S_ .f32 0x00000000#32) hr hs) (ix2 e 0)
      = Ideal.ofBits .f32 0x00000000#32 + ∑ a : Fin 3, d (ix2 e a) * d (ix2 e a) := by
  have hR : S500000x3.Reduces [1] S500000 := by decide
  refine (broadcastInDim_apply (s := S500000) (t := S500000x1) ![0] hc
    (Host.reduceAdd (mulf d d) (constant (F := Ideal) S_ .f32 0x00000000#32) hr hs) (ix2 e 0) (ix1 e) fun a => ?_).trans ?_
  · match a with
    | ⟨0, _⟩ => exact (if_neg (show ¬ (S500000.size 0 = 1) by decide)).symm
  · refine (hostReduceAdd_apply (mulf d d) _ hr hs (ix1 e)).trans ?_
    refine (Ideal.hostReduceAdd_single hr hR (mulf d d) _ (ix1 e)).trans ?_
    refine congrArg (Ideal.ofBits .f32 0x00000000#32 + ·) (Finset.sum_congr rfl fun k _ => ?_)
    have hk : hR.lift (ix1 e) k = ix2 e k := funext fun a => match a with
      | ⟨0, _⟩ => Fin.ext rfl
      | ⟨1, _⟩ => Fin.ext rfl
    rw [hk]
    rfl

/-! ## The interface -/

/-- The source node's features, per edge. -/
theorem entry_hrow (c : Dev nD) (hidx : InRange (m ((c : Thread nD τ).loc main_arg1))) :
    (V9 m ρ c main_v6 : Vec Ideal S500000x128 .f32)
      = featAt (m ((c : Thread nD τ).loc main_arg0)) 0 (m ((c : Thread nD τ).loc main_arg1)) :=
  (v6_W9 m ρ c).trans (v6_val m ρ c hidx)

/-- The target node's features, per edge. -/
theorem entry_hcol (c : Dev nD) (hidx : InRange (m ((c : Thread nD τ).loc main_arg1))) :
    (V9 m ρ c main_v7 : Vec Ideal S500000x128 .f32)
      = featAt (m ((c : Thread nD τ).loc main_arg0)) 1 (m ((c : Thread nD τ).loc main_arg1)) :=
  (v7_W9 m ρ c).trans (v7_val m ρ c hidx)

/-- The coordinate difference, per edge. -/
theorem entry_diff (c : Dev nD) (hidx : InRange (m ((c : Thread nD τ).loc main_arg1))) :
    (V9 m ρ c main_v10 : Vec Ideal S500000x3 .f32)
      = coordDiff (m ((c : Thread nD τ).loc main_arg2)) (m ((c : Thread nD τ).loc main_arg1)) := by
  refine (read_v10 (F := Ideal) (W8 m ρ c)).trans ?_
  rw [v8_W8 m ρ c, v8_val m ρ c hidx, v9_val m ρ c hidx]
  rfl

/-- The squared length of the coordinate difference, per edge. -/
theorem entry_rad (c : Dev nD) (hidx : InRange (m ((c : Thread nD τ).loc main_arg1))) (e : Fin 500000) :
    (V9 m ρ c main_v13 : Vec Ideal S500000x1 .f32) (ix2 e 0)
      = sqDist (m ((c : Thread nD τ).loc main_arg2)) (m ((c : Thread nD τ).loc main_arg1)) e := by
  refine (congrFun (read_v13 (F := Ideal) (W8 m ρ c)) (ix2 e 0)).trans ?_
  rw [v8_W8 m ρ c, v8_val m ρ c hidx, v9_val m ρ c hidx]
  exact rad_calc _ _ _ _ e

end Cert.KernelIdeal.Entry0

end
-- ==== Proof.CountCols.lean ====
/-
  Counting edges by their source node, in three columns or in one.

  A row scatter sends update entry (e, b) of an [E, K] array to entry (idx e, b) of an [N, K] array, where idx e is the
  e-th scatter index read as a signed number; an update whose row falls outside [0, N) is dropped. Summing a constant c
  over the updates that land on entry (n, a) therefore gives one c for every edge e with idx e = n, whatever the column
  a and whatever the width K: of the K updates of edge e exactly one, the one in column a, lands there. With c = 1 this
  is the number of edges whose source is n, so each column of the [N, 3] count equals the single column of the [N, 1]
  count.
-/
import proofs.«409691_j59871844106306_3_alg».proof.Proof.SpecHost
import Idealize.ShloMosaic.PureOps.Ideal
import Idealize.ShloMosaic.PureOps.Dims
import Idealize.ShloMosaic.Lib.ValueIdx

noncomputable section

open scoped BigOperators

namespace Cert.Egcl

open Idealize.ShloMosaic Idealize.ShloMosaic.ValueIdx

/-! ## Where one update entry lands -/

/-- The scatter index that update entry (e, b) reads: the one entry of row e of the index column. -/
theorem siIdx_rows {K : Nat} (wf : ScatterDims.WF (SN K) (SE 1) (SE K) [1] [0] [0] 1) (e : Fin 500000) (b : Fin K)
    (c : Fin (scatterRows K wf).scatterDimsToOperandDims.length) :
    (scatterRows K wf).siIdx (ix2 e b) c = ix2 e 0 := by
  funext a
  match a with
  | ⟨0, _⟩ => rfl
  | ⟨1, _⟩ =>
    apply Fin.ext
    have := c.isLt
    simp [ScatterDims.siIdx, scatterRows] at this ⊢

/-- Along the rows the window starts at the scatter index of edge e, read signed. -/
theorem start_rows0 {K : Nat} (wf : ScatterDims.WF (SN K) (SE 1) (SE K) [1] [0] [0] 1) {w : Nat} (idx : IVec (SE 1) w) (e : Fin 500000) (b : Fin K) :
    (scatterRows K wf).start (ix2 e b) idx 0 = (idx (ix2 e 0)).toInt := by
  unfold ScatterDims.start
  have h0 : (0 : Fin (SN K).rank) ∈ (scatterRows K wf).scatterDimsToOperandDims := by
    show (0 : Fin 2) ∈ ([0] : List (Fin 2)); decide
  rw [dif_pos h0, siIdx_rows]

/-- Along the columns the window starts at 0: no scatter index names that axis. -/
theorem start_rows1 {K : Nat} (wf : ScatterDims.WF (SN K) (SE 1) (SE K) [1] [0] [0] 1) {w : Nat} (idx : IVec (SE 1) w) (e : Fin 500000) (b : Fin K) :
    (scatterRows K wf).start (ix2 e b) idx 1 = 0 := by
  unfold ScatterDims.start
  have h1 : (1 : Fin (SN K).rank) ∉ (scatterRows K wf).scatterDimsToOperandDims := by
    show (1 : Fin 2) ∉ ([0] : List (Fin 2)); decide
  rw [dif_neg h1]

/-- The row axis is an inserted one: the window has the single coordinate 0 there. -/
theorem window_rows0 {K : Nat} (wf : ScatterDims.WF (SN K) (SE 1) (SE K) [1] [0] [0] 1) (e : Fin 500000) (b : Fin K) :
    (scatterRows K wf).window (ix2 e b) 0 = 0 := by
  unfold ScatterDims.window
  have h0 : (0 : Fin (SN K).rank) ∉ (scatterRows K wf).sKept := by
    show (0 : Fin 2) ∉ ([1] : List (Fin 2)); decide
  rw [dif_neg h0]

/-- Along the columns the window coordinate is the update's own column. -/
theorem window_rows1 {K : Nat} (wf : ScatterDims.WF (SN K) (SE 1) (SE K) [1] [0] [0] 1) (e : Fin 500000) (b : Fin K) :
    (scatterRows K wf).window (ix2 e b) 1 = b.val := by
  unfold ScatterDims.window
  have h1 : (1 : Fin (SN K).rank) ∈ (scatterRows K wf).sKept := by
    show (1 : Fin 2) ∈ ([1] : List (Fin 2)); decide
  rw [dif_pos h1]
  rfl

/-- Update entry (e, b) lands on entry i exactly when the scatter index of e, read signed, is i's row and b is i's
    column. -/
theorem resultIdx_rows {K : Nat} (wf : ScatterDims.WF (SN K) (SE 1) (SE K) [1] [0] [0] 1) {w : Nat} (idx : IVec (SE 1) w)
    (e : Fin 500000) (b : Fin K) (i : (SN K).Idx) :
    (scatterRows K wf).resultIdx? (ix2 e b) idx = some i ↔
      (idx (ix2 e 0)).toInt = ((i 0).val : Int) ∧ (i 1).val = b.val := by
  have hi0 : (i 0).val < 50000 := idx2_lt0 i
  have hi1 : (i 1).val < K := idx2_lt1 i
  have hb : b.val < K := b.isLt
  unfold ScatterDims.resultIdx?
  constructor
  · intro h
    split at h
    · rename_i hall
      have hi := Option.some.inj h
      have e0 : ((scatterRows K wf).start (ix2 e b) idx 0 + ((scatterRows K wf).window (ix2 e b) 0 : Nat)).toNat = (i 0).val :=
        congrArg (fun f => (f 0).val) hi
      have e1 : ((scatterRows K wf).start (ix2 e b) idx 1 + ((scatterRows K wf).window (ix2 e b) 1 : Nat)).toNat = (i 1).val :=
        congrArg (fun f => (f 1).val) hi
      have h0 := (hall 0).1
      rw [start_rows0, window_rows0] at h0 e0
      rw [start_rows1, window_rows1] at e1
      constructor <;> omega
    · exact absurd h (by simp)
  · rintro ⟨h0, h1⟩
    have hall : ∀ a, 0 ≤ (scatterRows K wf).start (ix2 e b) idx a + ((scatterRows K wf).window (ix2 e b) a : Nat) ∧
        (scatterRows K wf).start (ix2 e b) idx a + ((scatterRows K wf).window (ix2 e b) a : Nat) < ((SN K).size a : Nat) := by
      refine Fin.forall_fin_two.2 ⟨?_, ?_⟩
      · rw [start_rows0, window_rows0]
        show 0 ≤ _ ∧ _ < ((50000 : Nat) : Int)
        omega
      · rw [start_rows1, window_rows1]
        show 0 ≤ _ ∧ _ < ((K : Nat) : Int)
        omega
    rw [dif_pos hall]
    refine congrArg some (funext fun a => ?_)
    revert a
    refine Fin.forall_fin_two.2 ⟨Fin.ext ?_, Fin.ext ?_⟩
    · show ((scatterRows K wf).start (ix2 e b) idx 0 + ((scatterRows K wf).window (ix2 e b) 0 : Nat)).toNat = (i 0).val
      rw [start_rows0, window_rows0]
      omega
    · show ((scatterRows K wf).start (ix2 e b) idx 1 + ((scatterRows K wf).window (ix2 e b) 1 : Nat)).toNat = (i 1).val
      rw [start_rows1, window_rows1]
      omega

/-! ## The sum of a constant update -/

/-- The accumulating scatter of a constant update c into a constant array z, read at entry (n, a) of the [N, K] array:
    z plus one c per edge whose scatter index, read signed, is n. Of the K updates of such an edge only the one in
    column a lands on the entry; the updates of every other edge miss it. -/
theorem scatterAdd_rows_const {K : Nat} (wf : ScatterDims.WF (SN K) (SE 1) (SE K) [1] [0] [0] 1) {w : Nat} (idx : IVec (SE 1) w)
    (n : Fin 50000) (a : Fin K) (z c : EReal) :
    Ideal.hostScatterAdd (scatterRows K wf) (fun _ => z) idx (fun _ => c) (ix2 n a) =
      z + ∑ e : Fin 500000, if (idx (ix2 e 0)).toInt = (n.val : Int) then c else 0 := by
  unfold Ideal.hostScatterAdd
  refine congrArg (fun t => z + t) ?_
  rw [Finset.sum_filter, sum_idx2]
  refine Finset.sum_congr rfl fun e _ => ?_
  have hcond : ∀ b : Fin K, ((scatterRows K wf).resultIdx? (ix2 e b) idx = some (ix2 n a)) ↔
      ((idx (ix2 e 0)).toInt = (n.val : Int) ∧ a.val = b.val) := fun b => resultIdx_rows wf idx e b (ix2 n a)
  refine (Finset.sum_congr rfl fun b _ => if_congr (hcond b) rfl rfl).trans ?_
  by_cases h : (idx (ix2 e 0)).toInt = (n.val : Int)
  · rw [if_pos h]
    refine (Finset.sum_congr rfl fun b _ => if_congr (and_iff_right h) rfl rfl).trans ?_
    refine (Finset.sum_congr rfl fun b _ => if_congr (Fin.val_inj (a := a) (b := b)) rfl rfl).trans ?_
    rw [Finset.sum_ite_eq, if_pos (Finset.mem_univ a)]
  · rw [if_neg h]
    refine (Finset.sum_congr rfl fun b _ => if_neg (fun hh => h hh.1)).trans ?_
    exact Finset.sum_const_zero

/-! ## The two count arrays

  Each sum-into-nodes array is named as the exact accumulating scatter first, as an equation between whole arrays, and
  only then read at an entry: the two sides of the final equation are never compared by computing them. -/

/-- On the extended reals the accumulating scatter is the exact sum, whatever the shapes. -/
theorem scatterAdd_ideal {s si su : Shape} (d : ScatterDims s si su) {w : Nat} (x : FVec Ideal s .f32) (idx : IVec si w)
    (upd : FVec Ideal su .f32) : Host.scatterAdd d x idx upd = Ideal.hostScatterAdd d x idx upd := rfl

/-- The three-column sum into the nodes, as the exact accumulating scatter. -/
theorem sumInto3_eq (ei : (⟨2, ![2, 500000]⟩ : Shape).Idx → BitVec 32) (u : FVec Ideal (SE 3) .f32) :
    sumInto3 ei u =
      Ideal.hostScatterAdd (scatterRows 3 swf3) (fun _ => Ideal.ofBits .f32 0x00000000#32) (endCol 0 ei) u :=
  (rfl : sumInto3 ei u =
      Host.scatterAdd (scatterRows 3 swf3) (fun _ => Ideal.ofBits .f32 0x00000000#32) (endCol 0 ei) u).trans
    (scatterAdd_ideal (scatterRows 3 swf3) (fun _ => Ideal.ofBits .f32 0x00000000#32) (endCol 0 ei) u)

/-- The one-column sum into the nodes, as the exact accumulating scatter. -/
theorem sumInto1_eq (ei : (⟨2, ![2, 500000]⟩ : Shape).Idx → BitVec 32) (u : FVec Ideal (SE 1) .f32) :
    sumInto1 ei u =
      Ideal.hostScatterAdd (scatterRows 1 swf1) (fun _ => Ideal.ofBits .f32 0x00000000#32) (endCol 0 ei) u :=
  (rfl : sumInto1 ei u =
      Host.scatterAdd (scatterRows 1 swf1) (fun _ => Ideal.ofBits .f32 0x00000000#32) (endCol 0 ei) u).trans
    (scatterAdd_ideal (scatterRows 1 swf1) (fun _ => Ideal.ofBits .f32 0x00000000#32) (endCol 0 ei) u)

/-- In row n of the [N, 3] count array every column holds what the one column of the [N, 1] count array holds: the
    number of edges whose source is n. -/
theorem count_cols (ei : (⟨2, ![2, 500000]⟩ : Shape).Idx → BitVec 32) (n : Fin 50000) (a : Fin 3) :
    sumInto3 ei (fun _ => Ideal.ofBits .f32 0x3F800000#32) (ix2 n a) =
      sumInto1 ei (fun _ => Ideal.ofBits .f32 0x3F800000#32) (ix2 n 0) :=
  ((congrFun (sumInto3_eq ei (fun _ => Ideal.ofBits .f32 0x3F800000#32)) (ix2 n a)).trans
      (scatterAdd_rows_const swf3 (endCol 0 ei) n a (Ideal.ofBits .f32 0x00000000#32) (Ideal.ofBits .f32 0x3F800000#32))).trans
    ((congrFun (sumInto1_eq ei (fun _ => Ideal.ofBits .f32 0x3F800000#32)) (ix2 n 0)).trans
      (scatterAdd_rows_const swf1 (endCol 0 ei) n 0 (Ideal.ofBits .f32 0x00000000#32) (Ideal.ofBits .f32 0x3F800000#32))).symm

end Cert.Egcl

end
-- ==== Proof.KHost1.lean ====
/-
  What the buffers hold when the node kernel is entered and when the program ends. Between the two kernels the program
  sums the edge features and the translations into each edge's source node, counts each node's edges, divides the
  translation sum by the count (at least one), clips the quotient to [-10, 10] and adds it to the coordinates. Every buffer is
  read back through the operations that wrote it to the program's arguments and the edge kernel's two output arrays.
-/
import proofs.«409691_j59871844106306_3_alg».proof.Proof.Gen.KernelIdeal.Frame
import proofs.«409691_j59871844106306_3_alg».proof.Proof.KNode
import proofs.«409691_j59871844106306_3_alg».proof.Proof.SpecHost
import proofs.«409691_j59871844106306_3_alg».proof.Proof.IdxWords
import proofs.«409691_j59871844106306_3_alg».proof.Proof.CountCols
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value

set_option maxRecDepth 16384

noncomputable section

namespace Cert.KernelIdeal.Entry1

open Cert.KernelIdeal Cert.KernelIdeal.Gen Cert.Egcl Cert.KernelIdeal.NodeBody
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- A buffer that no operation of a stretch writes holds after the stretch what it held before it. -/
macro "kept_through" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The arguments, as the second kernel's entry finds them -/

/-- The node features are still the argument. -/
private theorem W15_arg0 (c : Dev nD) : W15 m ρ c (Proc.devRef .tc main_arg0) = m ((c : Thread nD τ).loc main_arg0) :=
  ((W16_arr m ρ c 0).trans (((dat1 (V15 m ρ) c).arrAt_in 0 rfl _).trans (A_eq1 (V15 m ρ) c 0))).symm.trans (W16_main_arg0 m ρ c)

/-- The coordinates are still the argument, after the last stretch and before it (the stretch does not write them). -/
private theorem W15_arg2 (c : Dev nD) : W15 m ρ c (Proc.devRef .tc main_arg2) = m ((c : Thread nD τ).loc main_arg2) :=
  (W16_of_ne m ρ c main_arg2 (by decide)).symm.trans (W16_main_arg2 m ρ c)
private theorem W14_arg2 (c : Dev nD) : W14 m ρ c (Proc.devRef .tc main_arg2) = m ((c : Thread nD τ).loc main_arg2) :=
  (show W15 m ρ c (Proc.devRef .tc main_arg2) = W14 m ρ c (Proc.devRef .tc main_arg2) by kept_through hostOps1_4).symm.trans (W15_arg2 m ρ c)

/-! ## The edge kernel's two output arrays -/

private theorem W10_efeat (c : Dev nD) : W10 m ρ c (Proc.devRef .tc main_v21_0) = (dat0 (V9 m ρ) c).arrAt 15 cfg0.N :=
  W10_arr m ρ c 15
private theorem W10_etrans (c : Dev nD) : W10 m ρ c (Proc.devRef .tc main_v21_1) = (dat0 (V9 m ρ) c).arrAt 16 cfg0.N :=
  W10_arr m ρ c 16

/-! ## Indices: the same index spelt in two ways -/

private theorem ix2_eq_ij {n k : Nat} (p : Fin n) (q : Fin k) : ix2 p q = StableHlo.Predicate.ij p q := by
  funext a
  match a with
  | ⟨0, _⟩ => rfl
  | ⟨1, _⟩ => rfl

private theorem ixP_eq_ix2 {n : Nat} (p : Fin n) : StableHlo.Predicate.ixP p = ix2 p (0 : Fin 1) := by
  funext a
  match a with
  | ⟨0, _⟩ => rfl
  | ⟨1, _⟩ => rfl

private theorem ofFin_eq_ix1 {n : Nat} (p : Fin n) : Shape.Idx.ofFin p = ix1 p := by
  funext a
  match a with
  | ⟨0, _⟩ => exact Fin.ext rfl

/-- An index into a one-column array is its row with column 0. -/
private theorem eq_ixP {n : Nat} (i : (⟨2, ![n, 1]⟩ : Shape).Idx) : i = StableHlo.Predicate.ixP (⟨(i 0).val, idx2_lt0 i⟩ : Fin n) := by
  funext a
  match a with
  | ⟨0, _⟩ => rfl
  | ⟨1, _⟩ => exact Fin.ext (by have := idx2_lt1 i; show (i 1).val = 0; omega)

/-! ## The scatter index: the clipped source row is the source row -/

/-- Nothing between the clip and the edge kernel's exit writes the clipped source row. -/
private theorem W10_v2 (c : Dev nD) : W10 m ρ c (Proc.devRef .tc main_v2) = W2 m ρ c (Proc.devRef .tc main_v2) :=
  calc W10 m ρ c (Proc.devRef .tc main_v2)
    _ = W9 m ρ c (Proc.devRef .tc main_v2) := W10_of_ne m ρ c main_v2 (by decide)
    _ = W8 m ρ c (Proc.devRef .tc main_v2) := by kept_through hostOps0_8
    _ = W7 m ρ c (Proc.devRef .tc main_v2) := by kept_through hostOps0_7
    _ = W6 m ρ c (Proc.devRef .tc main_v2) := by kept_through hostOps0_6
    _ = W5 m ρ c (Proc.devRef .tc main_v2) := by kept_through hostOps0_5
    _ = W4 m ρ c (Proc.devRef .tc main_v2) := by kept_through hostOps0_4
    _ = W3 m ρ c (Proc.devRef .tc main_v2) := by kept_through hostOps0_3
    _ = W2 m ρ c (Proc.devRef .tc main_v2) := by kept_through hostOps0_2

/-- The clipped source row as the first two stretches compute it from the edge index. -/
private theorem W2_v2 (c : Dev nD) :
    (W2 m ρ c (Proc.devRef .tc main_v2) : IVec S500000 32)
      = minsi (broadcastInDim S500000 ![] bcast_S_S500000 (constantI S_ 32 49999#32))
          (maxsi (broadcastInDim S500000 ![] bcast_S_S500000 (constantI S_ 32 0#32))
            (shapeCast S500000 (extractStridedSlice S1x500000 ![0, 0] (m ((c : Thread nD τ).loc main_arg1) : IVec S2x500000 32) slices_S2x500000_S1x500000_0_0)
              shapeCasts_S1x500000_S500000)) := by
  show StableHlo.after hostOps0_1 (StableHlo.after hostOps0 (W0 m ρ c)) (Proc.devRef .tc main_v2) = _
  after_results
  rfl

/-- Under the domain condition the clip changes nothing: entry e of the clipped row is the source of edge e. -/
private theorem v2_apply (c : Dev nD) (hidx : InRange (m ((c : Thread nD τ).loc main_arg1))) (e : Fin 500000) :
    (W10 m ρ c (Proc.devRef .tc main_v2) : IVec S500000 32) (ix1 e) = (m ((c : Thread nD τ).loc main_arg1) : IVec S2x500000 32) (ix2 0 e) := by
  rw [W10_v2, W2_v2]
  have hrow : shapeCast S500000 (extractStridedSlice S1x500000 ![0, 0] (m ((c : Thread nD τ).loc main_arg1) : IVec S2x500000 32) slices_S2x500000_S1x500000_0_0)
      shapeCasts_S1x500000_S500000 (ix1 e) = (m ((c : Thread nD τ).loc main_arg1) : IVec S2x500000 32) (ix2 0 e) :=
    (shapeCast_1a_a_apply _ _ e).trans (slice2_axis0_apply 0 _ _ (0 : Fin 1) e (0 : Fin 2) rfl)
  show IntOp.minsi 49999#32 (IntOp.maxsi 0#32 _) = _
  rw [hrow]
  exact Words.clip_word _ (hidx _).1 (hidx _).2

/-- As a column of start indices it is the source end of every edge. -/
private theorem v2_col (c : Dev nD) (hidx : InRange (m ((c : Thread nD τ).loc main_arg1))) :
    broadcastInDim S500000x1 ![0] bcast_S500000_S500000x1_0 (W10 m ρ c (Proc.devRef .tc main_v2) : IVec S500000 32)
      = endCol 0 (m ((c : Thread nD τ).loc main_arg1)) := by
  funext i
  rw [eq_ixP i]
  refine (StableHlo.Predicate.bcast_col1 _ _ _).trans ?_
  rw [ofFin_eq_ix1]
  exact v2_apply m ρ c hidx _

/-! ## The three sums into the source nodes, each one scatter from zeros -/

private theorem scat128 (ei : (⟨2, ![2, 500000]⟩ : Shape).Idx → BitVec 32) (u : FVec Ideal (SE 128) .f32) :
    Host.scatterAdd scatter_S50000x128_S500000x1_S500000x128_1_0_0_1
      (broadcastInDim S50000x128 ![] bcast_S_S50000x128 (constant S_ .f32 0x00000000#32)) (endCol 0 ei) u = sumInto128 ei u := rfl
private theorem scat3 (ei : (⟨2, ![2, 500000]⟩ : Shape).Idx → BitVec 32) (u : FVec Ideal (SE 3) .f32) :
    Host.scatterAdd scatter_S50000x3_S500000x1_S500000x3_1_0_0_1
      (broadcastInDim S50000x3 ![] bcast_S_S50000x3 (constant S_ .f32 0x00000000#32)) (endCol 0 ei) u = sumInto3 ei u := rfl
private theorem scat1 (ei : (⟨2, ![2, 500000]⟩ : Shape).Idx → BitVec 32) :
    Host.scatterAdd scatter_S50000x1_S500000x1_S500000x1_1_0_0_1
      (broadcastInDim S50000x1 ![] bcast_S_S50000x1 (constant S_ .f32 0x00000000#32)) (endCol 0 ei)
      (broadcastInDim S500000x1 ![] bcast_S_S500000x1 (constant S_ .f32 0x3F800000#32))
      = sumInto1 ei (fun _ => Ideal.ofBits .f32 0x3F800000#32) := rfl

/-! ## The coordinate update read at one entry -/

private theorem hostDivf_apply {s : Shape} {φ : FTy} (a b : FVec Ideal s φ) (i : s.Idx) : Host.divf a b i = Ideal.div (a i) (b i) := rfl

/-- The count, clipped below at one and spread over the three coordinates, read at (n, a). -/
private theorem count_spread (C1 : FVec Ideal (SN 1) .f32) (n : Fin 50000) (a : Fin 3) :
    broadcastInDim S50000x3 ![0, 1] bcast_S50000x1_S50000x3_0_1
      (maximumf (F := Ideal) (φ := .f32) (broadcastInDim (s := S_) (α := Ideal .f32) S50000x1 ![] bcast_S_S50000x1 (constant (F := Ideal) S_ .f32 0x3F800000#32)) C1) (ix2 n a)
      = max (Ideal.ofBits .f32 0x3F800000#32) (C1 (ix2 n 0)) := by
  rw [ix2_eq_ij]
  refine (StableHlo.Predicate.bcast_of_col _ _ n a).trans ?_
  rw [ixP_eq_ix2]
  rfl

/-- The program's coordinate update at entry (n, a): the coordinate plus the clipped quotient of the translation sum by
    the clipped count, the one-column count standing for the three-column one. -/
private theorem coord_point (X T C3 : FVec Ideal (SN 3) .f32) (C1 : FVec Ideal (SN 1) .f32) (n : Fin 50000) (a : Fin 3)
    (hc : C3 (ix2 n a) = C1 (ix2 n 0)) :
    addf (F := Ideal) (s := S50000x3) (φ := .f32) X
      (minimumf (F := Ideal) (φ := .f32) (broadcastInDim (s := S_) (α := Ideal .f32) S50000x3 ![] bcast_S_S50000x3 (constant (F := Ideal) S_ .f32 0x41200000#32))
        (maximumf (F := Ideal) (φ := .f32) (broadcastInDim (s := S_) (α := Ideal .f32) S50000x3 ![] bcast_S_S50000x3 (constant (F := Ideal) S_ .f32 0xC1200000#32))
          (Host.divf (F := Ideal) (s := S50000x3) (φ := .f32) T
            (broadcastInDim (s := S50000x1) (α := Ideal .f32) S50000x3 ![0, 1] bcast_S50000x1_S50000x3_0_1
              (maximumf (F := Ideal) (φ := .f32) (broadcastInDim (s := S_) (α := Ideal .f32) S50000x1 ![] bcast_S_S50000x1 (constant (F := Ideal) S_ .f32 0x3F800000#32)) C1)))))
      (ix2 n a)
      = coordOut X T C3 (ix2 n a) := by
  unfold coordOut
  simp only [addf_apply, minimumf_apply, maximumf_apply, hostDivf_apply]
  rw [count_spread, hc]
  rfl

/-! ## The node features at the node kernel's entry -/

theorem entry_h (c : Dev nD) :
    (V15 m ρ c main_arg0 : Vec Ideal S50000x128 .f32) = m ((c : Thread nD τ).loc main_arg0) :=
  W15_arg0 m ρ c

/-! ## The aggregated edge features at the node kernel's entry -/

theorem entry_agg (c : Dev nD) (hidx : InRange (m ((c : Thread nD τ).loc main_arg1))) :
    (V15 m ρ c main_v24 : Vec Ideal S50000x128 .f32)
      = sumInto128 (m ((c : Thread nD τ).loc main_arg1)) ((dat0 (V9 m ρ) c).arrAt 15 cfg0.N) := by
  have e : (V15 m ρ c main_v24 : Vec Ideal S50000x128 .f32)
      = Host.scatterAdd scatter_S50000x128_S500000x1_S500000x128_1_0_0_1
          (broadcastInDim S50000x128 ![] bcast_S_S50000x128 (constant (F := Ideal) S_ .f32 0x00000000#32))
          (broadcastInDim S500000x1 ![0] bcast_S500000_S500000x1_0 (W10 m ρ c (Proc.devRef .tc main_v2) : IVec S500000 32))
          (W10 m ρ c (Proc.devRef .tc main_v21_0)) := by
    show StableHlo.after hostOps1_4 (StableHlo.after hostOps1_3 (StableHlo.after hostOps1_2 (StableHlo.after hostOps1_1
      (StableHlo.after hostOps1 (W10 m ρ c))))) (Proc.devRef .tc main_v24) = _
    generalize W10 m ρ c = V
    after_results
  rw [e, v2_col m ρ c hidx, W10_efeat]
  exact scat128 _ _

/-! ## The coordinate result at the end of the program, stretch by stretch -/

/-- After the first stretch that follows the edge kernel: the translation sum, -/
private theorem W11_v27 (c : Dev nD) : W11 m ρ c (Proc.devRef .tc main_v27)
    = Host.scatterAdd (F := Ideal) scatter_S50000x3_S500000x1_S500000x3_1_0_0_1
        (broadcastInDim S50000x3 ![] bcast_S_S50000x3 (constant (F := Ideal) S_ .f32 0x00000000#32))
        (broadcastInDim S500000x1 ![0] bcast_S500000_S500000x1_0 (W10 m ρ c (Proc.devRef .tc main_v2) : IVec S500000 32))
        (W10 m ρ c (Proc.devRef .tc main_v21_1)) := by
  show StableHlo.after hostOps1 (W10 m ρ c) (Proc.devRef .tc main_v27) = _
  generalize W10 m ρ c = V
  after_results
/-- the number of edges of each node, -/
private theorem W11_v31 (c : Dev nD) : W11 m ρ c (Proc.devRef .tc main_v31)
    = Host.scatterAdd (F := Ideal) scatter_S50000x1_S500000x1_S500000x1_1_0_0_1
        (broadcastInDim S50000x1 ![] bcast_S_S50000x1 (constant (F := Ideal) S_ .f32 0x00000000#32))
        (broadcastInDim S500000x1 ![0] bcast_S500000_S500000x1_0 (W10 m ρ c (Proc.devRef .tc main_v2) : IVec S500000 32))
        (broadcastInDim S500000x1 ![] bcast_S_S500000x1 (constant (F := Ideal) S_ .f32 0x3F800000#32)) := by
  show StableHlo.after hostOps1 (W10 m ρ c) (Proc.devRef .tc main_v31) = _
  generalize W10 m ρ c = V
  after_results
/-- and the constant one. -/
private theorem W11_cst7 (c : Dev nD) : W11 m ρ c (Proc.devRef .tc main_cst_7) = constant (F := Ideal) S_ .f32 0x3F800000#32 := by
  show StableHlo.after hostOps1 (W10 m ρ c) (Proc.devRef .tc main_cst_7) = _
  generalize W10 m ρ c = V
  after_results

/-- The count clipped below at one; -/
private theorem W12_v32 (c : Dev nD) : W12 m ρ c (Proc.devRef .tc main_v32)
    = maximumf (F := Ideal) (φ := .f32) (broadcastInDim (s := S_) (α := Ideal .f32) S50000x1 ![] bcast_S_S50000x1 (W11 m ρ c (Proc.devRef .tc main_cst_7)))
        (W11 m ρ c (Proc.devRef .tc main_v31)) := by
  show StableHlo.after hostOps1_1 (W11 m ρ c) (Proc.devRef .tc main_v32) = _
  generalize W11 m ρ c = V
  after_results
  rfl
/-- the clip does not touch the translation sum. -/
private theorem W12_v27 (c : Dev nD) : W12 m ρ c (Proc.devRef .tc main_v27) = W11 m ρ c (Proc.devRef .tc main_v27) := by
  kept_through hostOps1_1

/-- The quotient, the count spread over the three coordinates; -/
private theorem W13_v34 (c : Dev nD) : W13 m ρ c (Proc.devRef .tc main_v34)
    = Host.divf (F := Ideal) (s := S50000x3) (φ := .f32) (W12 m ρ c (Proc.devRef .tc main_v27))
        (broadcastInDim (s := S50000x1) (α := Ideal .f32) S50000x3 ![0, 1] bcast_S50000x1_S50000x3_0_1 (W12 m ρ c (Proc.devRef .tc main_v32))) := by
  show StableHlo.after hostOps1_2 (W12 m ρ c) (Proc.devRef .tc main_v34) = _
  generalize W12 m ρ c = V
  after_results
/-- the two clip bounds. -/
private theorem W13_cst8 (c : Dev nD) : W13 m ρ c (Proc.devRef .tc main_cst_8) = constant (F := Ideal) S_ .f32 0xC1200000#32 := by
  show StableHlo.after hostOps1_2 (W12 m ρ c) (Proc.devRef .tc main_cst_8) = _
  generalize W12 m ρ c = V
  after_results
private theorem W13_cst9 (c : Dev nD) : W13 m ρ c (Proc.devRef .tc main_cst_9) = constant (F := Ideal) S_ .f32 0x41200000#32 := by
  show StableHlo.after hostOps1_2 (W12 m ρ c) (Proc.devRef .tc main_cst_9) = _
  generalize W12 m ρ c = V
  after_results

/-- The clip stretch in its two halves: the lower clip, then the upper clip of it. -/

private theorem W14_split (c : Dev nD) :
    W14 m ρ c = StableHlo.after (List.drop 3 hostOps1_3) (StableHlo.after (List.take 3 hostOps1_3) (W13 m ρ c)) := by
  rw [← StableHlo.after_append, List.take_append_drop]

private theorem clip_lo (V : Valuation τ sig (Elt Ideal)) :
    StableHlo.after (List.take 3 hostOps1_3) V (Proc.devRef .tc main_call7_v2)
      = maximumf (F := Ideal) (φ := .f32) (broadcastInDim (s := S_) (α := Ideal .f32) S50000x3 ![] bcast_S_S50000x3 (V (Proc.devRef .tc main_cst_8)))
          (V (Proc.devRef .tc main_v34)) := by
  simp only [hostOps1_3, List.take_succ_cons, List.take_zero]
  after_results
  rfl

private theorem clip_lo_cst9 (V : Valuation τ sig (Elt Ideal)) :
    StableHlo.after (List.take 3 hostOps1_3) V (Proc.devRef .tc main_cst_9) = V (Proc.devRef .tc main_cst_9) := by
  simp only [hostOps1_3, List.take_succ_cons, List.take_zero]
  after_results

private theorem clip_hi (V : Valuation τ sig (Elt Ideal)) :
    StableHlo.after (List.drop 3 hostOps1_3) V (Proc.devRef .tc main_v35)
      = minimumf (F := Ideal) (φ := .f32) (broadcastInDim (s := S_) (α := Ideal .f32) S50000x3 ![] bcast_S_S50000x3 (V (Proc.devRef .tc main_cst_9)))
          (V (Proc.devRef .tc main_call7_v2)) := by
  simp only [hostOps1_3, List.drop_succ_cons, List.drop_zero]
  after_results
  rfl

/-- The quotient clipped to the two bounds. -/
private theorem W14_v35 (c : Dev nD) : W14 m ρ c (Proc.devRef .tc main_v35)
    = minimumf (F := Ideal) (φ := .f32) (broadcastInDim (s := S_) (α := Ideal .f32) S50000x3 ![] bcast_S_S50000x3 (W13 m ρ c (Proc.devRef .tc main_cst_9)))
        (maximumf (F := Ideal) (φ := .f32) (broadcastInDim (s := S_) (α := Ideal .f32) S50000x3 ![] bcast_S_S50000x3 (W13 m ρ c (Proc.devRef .tc main_cst_8)))
          (W13 m ρ c (Proc.devRef .tc main_v34))) := by
  rw [W14_split, clip_hi, clip_lo, clip_lo_cst9]

/-- The clipped quotient added to the coordinates. -/
private theorem W15_v36 (c : Dev nD) : W15 m ρ c (Proc.devRef .tc main_v36)
    = addf (F := Ideal) (s := S50000x3) (φ := .f32) (W14 m ρ c (Proc.devRef .tc main_arg2)) (W14 m ρ c (Proc.devRef .tc main_v35)) := by
  show StableHlo.after hostOps1_4 (W14 m ρ c) (Proc.devRef .tc main_v36) = _
  generalize W14 m ρ c = V
  after_results

theorem result_cout (c : Dev nD) (hidx : InRange (m ((c : Thread nD τ).loc main_arg1))) :
    W16 m ρ c (Proc.devRef .tc main_v36)
      = coordOut (m ((c : Thread nD τ).loc main_arg2))
          (sumInto3 (m ((c : Thread nD τ).loc main_arg1)) ((dat0 (V9 m ρ) c).arrAt 16 cfg0.N))
          (sumInto3 (m ((c : Thread nD τ).loc main_arg1)) (fun _ => Ideal.ofBits .f32 0x3F800000#32)) := by
  rw [W16_of_ne m ρ c main_v36 (by decide), W15_v36, W14_arg2, W14_v35, W13_cst9, W13_cst8, W13_v34, W12_v27, W11_v27, W12_v32,
    W11_cst7, W11_v31, v2_col m ρ c hidx, W10_etrans, scat3, scat1]
  funext i
  obtain ⟨n, a, rfl⟩ : ∃ (n : Fin 50000) (a : Fin 3), i = ix2 n a := ⟨_, _, eq_ix2 i⟩
  exact coord_point (m ((c : Thread nD τ).loc main_arg2))
    (sumInto3 (m ((c : Thread nD τ).loc main_arg1)) ((dat0 (V9 m ρ) c).arrAt 16 cfg0.N))
    (sumInto3 (m ((c : Thread nD τ).loc main_arg1)) (fun _ => Ideal.ofBits .f32 0x3F800000#32))
    (sumInto1 (m ((c : Thread nD τ).loc main_arg1)) (fun _ => Ideal.ofBits .f32 0x3F800000#32)) n a
    (count_cols (m ((c : Thread nD τ).loc main_arg1)) n a)

/-! ## The node kernel's output array and the edge features at the end of the program -/

theorem result_hout (c : Dev nD) :
    W16 m ρ c (Proc.devRef .tc main_v41) = (dat1 (V15 m ρ) c).arrAt 7 cfg1.N :=
  W16_arr m ρ c 7

/-- Nothing after the edge kernel writes its edge-feature array. -/
theorem result_efeat (c : Dev nD) :
    W16 m ρ c (Proc.devRef .tc main_v21_0) = (dat0 (V9 m ρ) c).arrAt 15 cfg0.N :=
  calc W16 m ρ c (Proc.devRef .tc main_v21_0)
    _ = W15 m ρ c (Proc.devRef .tc main_v21_0) := W16_of_ne m ρ c main_v21_0 (by decide)
    _ = W14 m ρ c (Proc.devRef .tc main_v21_0) := by kept_through hostOps1_4
    _ = W13 m ρ c (Proc.devRef .tc main_v21_0) := by kept_through hostOps1_3
    _ = W12 m ρ c (Proc.devRef .tc main_v21_0) := by kept_through hostOps1_2
    _ = W11 m ρ c (Proc.devRef .tc main_v21_0) := by kept_through hostOps1_1
    _ = W10 m ρ c (Proc.devRef .tc main_v21_0) := by kept_through hostOps1
    _ = (dat0 (V9 m ρ) c).arrAt 15 cfg0.N := W10_efeat m ρ c

end Cert.KernelIdeal.Entry1

end
-- ==== Proof.KWeights.lean ====
/-
  The weights the two kernel regions find: the weight blocks each region reads at its entry are row bands of the
  argument arrays (rows 0–127, 128–255 and row 256 of the [257, 128] first edge matrix; rows 0–127 and 128–255 of the
  [256, 128] first node matrix), bias vectors read as one-row blocks, or argument arrays as launched. No operation before
  a region's entry writes an argument array, so each argument holds its launch contents there.
-/
import proofs.«409691_j59871844106306_3_alg».proof.Proof.Gen.KernelIdeal.Frame
import proofs.«409691_j59871844106306_3_alg».proof.Proof.KEdge
import proofs.«409691_j59871844106306_3_alg».proof.Proof.KNode
import proofs.«409691_j59871844106306_3_alg».proof.Proof.SpecHost
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Weights

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.Egcl Cert.KernelIdeal.EdgeBody Cert.KernelIdeal.NodeBody

variable (m : (ℓ : Loc nD τ sig) → Buf (Elt Ideal) ℓ) (ρ : Dev nD → PrngReg)

/-- One stretch of host operations leaves a buffer none of its operations writes as it was. -/
local macro "untouched " ops:ident : term => `(StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

/-! ## The arguments as the first region's entry finds them

Before the last stretch of host operations ahead of the first region (and, for the arguments that stretch does not read,
after it as well) each argument array holds its launch contents: no operation of any stretch writes it. -/

theorem W8_arg3 (c : Dev nD) : W8 m ρ c (Proc.devRef .tc main_arg3) = m ((c : Thread nD τ).loc main_arg3) :=
  calc W8 m ρ c (Proc.devRef .tc main_arg3)
    _ = W7 m ρ c (Proc.devRef .tc main_arg3) := untouched hostOps0_7
    _ = W6 m ρ c (Proc.devRef .tc main_arg3) := untouched hostOps0_6
    _ = W5 m ρ c (Proc.devRef .tc main_arg3) := untouched hostOps0_5
    _ = W4 m ρ c (Proc.devRef .tc main_arg3) := untouched hostOps0_4
    _ = W3 m ρ c (Proc.devRef .tc main_arg3) := untouched hostOps0_3
    _ = W2 m ρ c (Proc.devRef .tc main_arg3) := untouched hostOps0_2
    _ = W1 m ρ c (Proc.devRef .tc main_arg3) := untouched hostOps0_1
    _ = W0 m ρ c (Proc.devRef .tc main_arg3) := untouched hostOps0
    _ = m ((c : Thread nD τ).loc main_arg3) := rfl

theorem W8_arg4 (c : Dev nD) : W8 m ρ c (Proc.devRef .tc main_arg4) = m ((c : Thread nD τ).loc main_arg4) :=
  calc W8 m ρ c (Proc.devRef .tc main_arg4)
    _ = W7 m ρ c (Proc.devRef .tc main_arg4) := untouched hostOps0_7
    _ = W6 m ρ c (Proc.devRef .tc main_arg4) := untouched hostOps0_6
    _ = W5 m ρ c (Proc.devRef .tc main_arg4) := untouched hostOps0_5
    _ = W4 m ρ c (Proc.devRef .tc main_arg4) := untouched hostOps0_4
    _ = W3 m ρ c (Proc.devRef .tc main_arg4) := untouched hostOps0_3
    _ = W2 m ρ c (Proc.devRef .tc main_arg4) := untouched hostOps0_2
    _ = W1 m ρ c (Proc.devRef .tc main_arg4) := untouched hostOps0_1
    _ = W0 m ρ c (Proc.devRef .tc main_arg4) := untouched hostOps0
    _ = m ((c : Thread nD τ).loc main_arg4) := rfl

theorem W8_arg5 (c : Dev nD) : W8 m ρ c (Proc.devRef .tc main_arg5) = m ((c : Thread nD τ).loc main_arg5) :=
  calc W8 m ρ c (Proc.devRef .tc main_arg5)
    _ = W7 m ρ c (Proc.devRef .tc main_arg5) := untouched hostOps0_7
    _ = W6 m ρ c (Proc.devRef .tc main_arg5) := untouched hostOps0_6
    _ = W5 m ρ c (Proc.devRef .tc main_arg5) := untouched hostOps0_5
    _ = W4 m ρ c (Proc.devRef .tc main_arg5) := untouched hostOps0_4
    _ = W3 m ρ c (Proc.devRef .tc main_arg5) := untouched hostOps0_3
    _ = W2 m ρ c (Proc.devRef .tc main_arg5) := untouched hostOps0_2
    _ = W1 m ρ c (Proc.devRef .tc main_arg5) := untouched hostOps0_1
    _ = W0 m ρ c (Proc.devRef .tc main_arg5) := untouched hostOps0
    _ = m ((c : Thread nD τ).loc main_arg5) := rfl

theorem W8_arg6 (c : Dev nD) : W8 m ρ c (Proc.devRef .tc main_arg6) = m ((c : Thread nD τ).loc main_arg6) :=
  calc W8 m ρ c (Proc.devRef .tc main_arg6)
    _ = W7 m ρ c (Proc.devRef .tc main_arg6) := untouched hostOps0_7
    _ = W6 m ρ c (Proc.devRef .tc main_arg6) := untouched hostOps0_6
    _ = W5 m ρ c (Proc.devRef .tc main_arg6) := untouched hostOps0_5
    _ = W4 m ρ c (Proc.devRef .tc main_arg6) := untouched hostOps0_4
    _ = W3 m ρ c (Proc.devRef .tc main_arg6) := untouched hostOps0_3
    _ = W2 m ρ c (Proc.devRef .tc main_arg6) := untouched hostOps0_2
    _ = W1 m ρ c (Proc.devRef .tc main_arg6) := untouched hostOps0_1
    _ = W0 m ρ c (Proc.devRef .tc main_arg6) := untouched hostOps0
    _ = m ((c : Thread nD τ).loc main_arg6) := rfl

theorem W8_arg7 (c : Dev nD) : W8 m ρ c (Proc.devRef .tc main_arg7) = m ((c : Thread nD τ).loc main_arg7) :=
  calc W8 m ρ c (Proc.devRef .tc main_arg7)
    _ = W7 m ρ c (Proc.devRef .tc main_arg7) := untouched hostOps0_7
    _ = W6 m ρ c (Proc.devRef .tc main_arg7) := untouched hostOps0_6
    _ = W5 m ρ c (Proc.devRef .tc main_arg7) := untouched hostOps0_5
    _ = W4 m ρ c (Proc.devRef .tc main_arg7) := untouched hostOps0_4
    _ = W3 m ρ c (Proc.devRef .tc main_arg7) := untouched hostOps0_3
    _ = W2 m ρ c (Proc.devRef .tc main_arg7) := untouched hostOps0_2
    _ = W1 m ρ c (Proc.devRef .tc main_arg7) := untouched hostOps0_1
    _ = W0 m ρ c (Proc.devRef .tc main_arg7) := untouched hostOps0
    _ = m ((c : Thread nD τ).loc main_arg7) := rfl

theorem W8_arg8 (c : Dev nD) : W8 m ρ c (Proc.devRef .tc main_arg8) = m ((c : Thread nD τ).loc main_arg8) :=
  calc W8 m ρ c (Proc.devRef .tc main_arg8)
    _ = W7 m ρ c (Proc.devRef .tc main_arg8) := untouched hostOps0_7
    _ = W6 m ρ c (Proc.devRef .tc main_arg8) := untouched hostOps0_6
    _ = W5 m ρ c (Proc.devRef .tc main_arg8) := untouched hostOps0_5
    _ = W4 m ρ c (Proc.devRef .tc main_arg8) := untouched hostOps0_4
    _ = W3 m ρ c (Proc.devRef .tc main_arg8) := untouched hostOps0_3
    _ = W2 m ρ c (Proc.devRef .tc main_arg8) := untouched hostOps0_2
    _ = W1 m ρ c (Proc.devRef .tc main_arg8) := untouched hostOps0_1
    _ = W0 m ρ c (Proc.devRef .tc main_arg8) := untouched hostOps0
    _ = m ((c : Thread nD τ).loc main_arg8) := rfl

theorem W8_arg9 (c : Dev nD) : W8 m ρ c (Proc.devRef .tc main_arg9) = m ((c : Thread nD τ).loc main_arg9) :=
  calc W8 m ρ c (Proc.devRef .tc main_arg9)
    _ = W7 m ρ c (Proc.devRef .tc main_arg9) := untouched hostOps0_7
    _ = W6 m ρ c (Proc.devRef .tc main_arg9) := untouched hostOps0_6
    _ = W5 m ρ c (Proc.devRef .tc main_arg9) := untouched hostOps0_5
    _ = W4 m ρ c (Proc.devRef .tc main_arg9) := untouched hostOps0_4
    _ = W3 m ρ c (Proc.devRef .tc main_arg9) := untouched hostOps0_3
    _ = W2 m ρ c (Proc.devRef .tc main_arg9) := untouched hostOps0_2
    _ = W1 m ρ c (Proc.devRef .tc main_arg9) := untouched hostOps0_1
    _ = W0 m ρ c (Proc.devRef .tc main_arg9) := untouched hostOps0
    _ = m ((c : Thread nD τ).loc main_arg9) := rfl

theorem W8_arg10 (c : Dev nD) : W8 m ρ c (Proc.devRef .tc main_arg10) = m ((c : Thread nD τ).loc main_arg10) :=
  calc W8 m ρ c (Proc.devRef .tc main_arg10)
    _ = W7 m ρ c (Proc.devRef .tc main_arg10) := untouched hostOps0_7
    _ = W6 m ρ c (Proc.devRef .tc main_arg10) := untouched hostOps0_6
    _ = W5 m ρ c (Proc.devRef .tc main_arg10) := untouched hostOps0_5
    _ = W4 m ρ c (Proc.devRef .tc main_arg10) := untouched hostOps0_4
    _ = W3 m ρ c (Proc.devRef .tc main_arg10) := untouched hostOps0_3
    _ = W2 m ρ c (Proc.devRef .tc main_arg10) := untouched hostOps0_2
    _ = W1 m ρ c (Proc.devRef .tc main_arg10) := untouched hostOps0_1
    _ = W0 m ρ c (Proc.devRef .tc main_arg10) := untouched hostOps0
    _ = m ((c : Thread nD τ).loc main_arg10) := rfl

theorem W8_arg11 (c : Dev nD) : W8 m ρ c (Proc.devRef .tc main_arg11) = m ((c : Thread nD τ).loc main_arg11) :=
  calc W8 m ρ c (Proc.devRef .tc main_arg11)
    _ = W7 m ρ c (Proc.devRef .tc main_arg11) := untouched hostOps0_7
    _ = W6 m ρ c (Proc.devRef .tc main_arg11) := untouched hostOps0_6
    _ = W5 m ρ c (Proc.devRef .tc main_arg11) := untouched hostOps0_5
    _ = W4 m ρ c (Proc.devRef .tc main_arg11) := untouched hostOps0_4
    _ = W3 m ρ c (Proc.devRef .tc main_arg11) := untouched hostOps0_3
    _ = W2 m ρ c (Proc.devRef .tc main_arg11) := untouched hostOps0_2
    _ = W1 m ρ c (Proc.devRef .tc main_arg11) := untouched hostOps0_1
    _ = W0 m ρ c (Proc.devRef .tc main_arg11) := untouched hostOps0
    _ = m ((c : Thread nD τ).loc main_arg11) := rfl

theorem W9_arg5 (c : Dev nD) : W9 m ρ c (Proc.devRef .tc main_arg5) = m ((c : Thread nD τ).loc main_arg5) :=
  (show W9 m ρ c (Proc.devRef .tc main_arg5) = W8 m ρ c (Proc.devRef .tc main_arg5) from untouched hostOps0_8).trans (W8_arg5 m ρ c)

theorem W9_arg7 (c : Dev nD) : W9 m ρ c (Proc.devRef .tc main_arg7) = m ((c : Thread nD τ).loc main_arg7) :=
  (show W9 m ρ c (Proc.devRef .tc main_arg7) = W8 m ρ c (Proc.devRef .tc main_arg7) from untouched hostOps0_8).trans (W8_arg7 m ρ c)

theorem W9_arg9 (c : Dev nD) : W9 m ρ c (Proc.devRef .tc main_arg9) = m ((c : Thread nD τ).loc main_arg9) :=
  (show W9 m ρ c (Proc.devRef .tc main_arg9) = W8 m ρ c (Proc.devRef .tc main_arg9) from untouched hostOps0_8).trans (W8_arg9 m ρ c)

theorem W9_arg11 (c : Dev nD) : W9 m ρ c (Proc.devRef .tc main_arg11) = m ((c : Thread nD τ).loc main_arg11) :=
  (show W9 m ρ c (Proc.devRef .tc main_arg11) = W8 m ρ c (Proc.devRef .tc main_arg11) from untouched hostOps0_8).trans (W8_arg11 m ρ c)

/-! ## What the last stretch before the first region writes, from any contents V

The three row bands of the first edge matrix and the four bias vectors as one-row blocks. -/

theorem v14_after (V : Valuation τ sig (Elt Ideal)) :
    StableHlo.after hostOps0_8 V (Proc.devRef .tc main_v14)
      = extractStridedSlice S128x128 ![0, 0] (V (Proc.devRef .tc main_arg3)) slices_S257x128_S128x128_0_0 := by
  after_results
theorem v15_after (V : Valuation τ sig (Elt Ideal)) :
    StableHlo.after hostOps0_8 V (Proc.devRef .tc main_v15)
      = extractStridedSlice S128x128 ![128, 0] (V (Proc.devRef .tc main_arg3)) slices_S257x128_S128x128_128_0 := by
  after_results
theorem v16_after (V : Valuation τ sig (Elt Ideal)) :
    StableHlo.after hostOps0_8 V (Proc.devRef .tc main_v16)
      = extractStridedSlice S1x128 ![256, 0] (V (Proc.devRef .tc main_arg3)) slices_S257x128_S1x128_256_0 := by
  after_results
theorem v17_after (V : Valuation τ sig (Elt Ideal)) :
    StableHlo.after hostOps0_8 V (Proc.devRef .tc main_v17)
      = shapeCast S1x128 (V (Proc.devRef .tc main_arg4)) shapeCasts_S128_S1x128 := by
  after_results
  rfl
theorem v18_after (V : Valuation τ sig (Elt Ideal)) :
    StableHlo.after hostOps0_8 V (Proc.devRef .tc main_v18)
      = shapeCast S1x128 (V (Proc.devRef .tc main_arg6)) shapeCasts_S128_S1x128 := by
  after_results
  rfl
theorem v19_after (V : Valuation τ sig (Elt Ideal)) :
    StableHlo.after hostOps0_8 V (Proc.devRef .tc main_v19)
      = shapeCast S1x1 (V (Proc.devRef .tc main_arg8)) shapeCasts_S1_S1x1 := by
  after_results
  rfl
theorem v20_after (V : Valuation τ sig (Elt Ideal)) :
    StableHlo.after hostOps0_8 V (Proc.devRef .tc main_v20)
      = shapeCast S1x128 (V (Proc.devRef .tc main_arg10)) shapeCasts_S128_S1x128 := by
  after_results
  rfl

/-! ## The edge kernel's weights -/

/-- The weight blocks the first region finds are the argument arrays' row bands and one-row readings. -/
theorem entry0_weights (c : Dev nD) :
    edgeP (V9 m ρ c main_v14) (V9 m ρ c main_v15) (V9 m ρ c main_v16) (V9 m ρ c main_v17) (V9 m ρ c main_arg5)
        (V9 m ρ c main_v18) (V9 m ρ c main_arg7) (V9 m ρ c main_v19) (V9 m ρ c main_arg9) (V9 m ρ c main_v20)
        (V9 m ρ c main_arg11)
      = argEdgeP (m ((c : Thread nD τ).loc main_arg3)) (m ((c : Thread nD τ).loc main_arg4))
          (m ((c : Thread nD τ).loc main_arg5)) (m ((c : Thread nD τ).loc main_arg6))
          (m ((c : Thread nD τ).loc main_arg7)) (m ((c : Thread nD τ).loc main_arg8))
          (m ((c : Thread nD τ).loc main_arg9)) (m ((c : Thread nD τ).loc main_arg10))
          (m ((c : Thread nD τ).loc main_arg11)) := by
  have e14 : (V9 m ρ c main_v14 : Vec Ideal S128x128 .f32)
      = extractStridedSlice S128x128 ![0, 0] (m ((c : Thread nD τ).loc main_arg3) : Vec Ideal S257x128 .f32) slices_S257x128_S128x128_0_0 := by
    rw [← W8_arg3 m ρ c]
    exact v14_after (W8 m ρ c)
  have e15 : (V9 m ρ c main_v15 : Vec Ideal S128x128 .f32)
      = extractStridedSlice S128x128 ![128, 0] (m ((c : Thread nD τ).loc main_arg3) : Vec Ideal S257x128 .f32) slices_S257x128_S128x128_128_0 := by
    rw [← W8_arg3 m ρ c]
    exact v15_after (W8 m ρ c)
  have e16 : (V9 m ρ c main_v16 : Vec Ideal S1x128 .f32)
      = extractStridedSlice S1x128 ![256, 0] (m ((c : Thread nD τ).loc main_arg3) : Vec Ideal S257x128 .f32) slices_S257x128_S1x128_256_0 := by
    rw [← W8_arg3 m ρ c]
    exact v16_after (W8 m ρ c)
  have e17 : (V9 m ρ c main_v17 : Vec Ideal S1x128 .f32)
      = shapeCast S1x128 (m ((c : Thread nD τ).loc main_arg4) : Vec Ideal S128 .f32) shapeCasts_S128_S1x128 := by
    rw [← W8_arg4 m ρ c]
    exact v17_after (W8 m ρ c)
  have e18 : (V9 m ρ c main_v18 : Vec Ideal S1x128 .f32)
      = shapeCast S1x128 (m ((c : Thread nD τ).loc main_arg6) : Vec Ideal S128 .f32) shapeCasts_S128_S1x128 := by
    rw [← W8_arg6 m ρ c]
    exact v18_after (W8 m ρ c)
  have e19 : (V9 m ρ c main_v19 : Vec Ideal S1x1 .f32)
      = shapeCast S1x1 (m ((c : Thread nD τ).loc main_arg8) : Vec Ideal S1 .f32) shapeCasts_S1_S1x1 := by
    rw [← W8_arg8 m ρ c]
    exact v19_after (W8 m ρ c)
  have e20 : (V9 m ρ c main_v20 : Vec Ideal S1x128 .f32)
      = shapeCast S1x128 (m ((c : Thread nD τ).loc main_arg10) : Vec Ideal S128 .f32) shapeCasts_S128_S1x128 := by
    rw [← W8_arg10 m ρ c]
    exact v20_after (W8 m ρ c)
  have e5 : (V9 m ρ c main_arg5 : Vec Ideal S128x128 .f32) = m ((c : Thread nD τ).loc main_arg5) := W9_arg5 m ρ c
  have e7 : (V9 m ρ c main_arg7 : Vec Ideal S128x1 .f32) = m ((c : Thread nD τ).loc main_arg7) := W9_arg7 m ρ c
  have e9 : (V9 m ρ c main_arg9 : Vec Ideal S128x128 .f32) = m ((c : Thread nD τ).loc main_arg9) := W9_arg9 m ρ c
  have e11 : (V9 m ρ c main_arg11 : Vec Ideal S128x1 .f32) = m ((c : Thread nD τ).loc main_arg11) := W9_arg11 m ρ c
  rw [e14, e15, e16, e17, e18, e19, e20, e5, e7, e9, e11]
  unfold edgeP argEdgeP
  congr 1
  · funext k j
    exact slice2_axis0_apply 0 _ _ k j ⟨k.val, by omega⟩ (Nat.zero_add _).symm
  · funext k j
    exact slice2_axis0_apply 128 _ _ k j ⟨128 + k.val, by omega⟩ rfl
  · funext j
    exact slice2_axis0_apply 256 _ _ 0 j ⟨256, by omega⟩ rfl
  · funext j
    exact shapeCast_a_1a_apply _ _ 0 j
  · funext j
    exact shapeCast_a_1a_apply _ _ 0 j
  · exact shapeCast_a_1a_apply _ _ 0 0
  · funext j
    exact shapeCast_a_1a_apply _ _ 0 j

/-! ## The arguments as the second region's entry finds them

The arguments end as launched; between the second region's entry and the end nothing writes them either, and the last
stretch before that entry writes none of them. -/

/-- The second node matrix is one of the second region's input arrays: the region leaves it as entered. -/
theorem W15_arg14 (c : Dev nD) : W15 m ρ c (Proc.devRef .tc main_arg14) = m ((c : Thread nD τ).loc main_arg14) :=
  ((W16_arr m ρ c 5).trans (((dat1 (V15 m ρ) c).arrAt_in 5 rfl _).trans (A_eq1 (V15 m ρ) c 5))).symm.trans (W16_main_arg14 m ρ c)
theorem W15_arg12 (c : Dev nD) : W15 m ρ c (Proc.devRef .tc main_arg12) = m ((c : Thread nD τ).loc main_arg12) :=
  (W16_of_ne m ρ c main_arg12 (by decide)).symm.trans (W16_main_arg12 m ρ c)
theorem W15_arg13 (c : Dev nD) : W15 m ρ c (Proc.devRef .tc main_arg13) = m ((c : Thread nD τ).loc main_arg13) :=
  (W16_of_ne m ρ c main_arg13 (by decide)).symm.trans (W16_main_arg13 m ρ c)
theorem W15_arg15 (c : Dev nD) : W15 m ρ c (Proc.devRef .tc main_arg15) = m ((c : Thread nD τ).loc main_arg15) :=
  (W16_of_ne m ρ c main_arg15 (by decide)).symm.trans (W16_main_arg15 m ρ c)

theorem W14_arg12 (c : Dev nD) : W14 m ρ c (Proc.devRef .tc main_arg12) = m ((c : Thread nD τ).loc main_arg12) :=
  (show W15 m ρ c (Proc.devRef .tc main_arg12) = W14 m ρ c (Proc.devRef .tc main_arg12) from untouched hostOps1_4).symm.trans (W15_arg12 m ρ c)
theorem W14_arg13 (c : Dev nD) : W14 m ρ c (Proc.devRef .tc main_arg13) = m ((c : Thread nD τ).loc main_arg13) :=
  (show W15 m ρ c (Proc.devRef .tc main_arg13) = W14 m ρ c (Proc.devRef .tc main_arg13) from untouched hostOps1_4).symm.trans (W15_arg13 m ρ c)
theorem W14_arg15 (c : Dev nD) : W14 m ρ c (Proc.devRef .tc main_arg15) = m ((c : Thread nD τ).loc main_arg15) :=
  (show W15 m ρ c (Proc.devRef .tc main_arg15) = W14 m ρ c (Proc.devRef .tc main_arg15) from untouched hostOps1_4).symm.trans (W15_arg15 m ρ c)

/-! ## What the last stretch before the second region writes, from any contents V

The two row bands of the first node matrix and the two bias vectors as one-row blocks. -/

theorem v37_after (V : Valuation τ sig (Elt Ideal)) :
    StableHlo.after hostOps1_4 V (Proc.devRef .tc main_v37)
      = extractStridedSlice S128x128 ![0, 0] (V (Proc.devRef .tc main_arg12)) slices_S256x128_S128x128_0_0 := by
  after_results
theorem v38_after (V : Valuation τ sig (Elt Ideal)) :
    StableHlo.after hostOps1_4 V (Proc.devRef .tc main_v38)
      = extractStridedSlice S128x128 ![128, 0] (V (Proc.devRef .tc main_arg12)) slices_S256x128_S128x128_128_0 := by
  after_results
theorem v39_after (V : Valuation τ sig (Elt Ideal)) :
    StableHlo.after hostOps1_4 V (Proc.devRef .tc main_v39)
      = shapeCast S1x128 (V (Proc.devRef .tc main_arg13)) shapeCasts_S128_S1x128 := by
  after_results
  rfl
theorem v40_after (V : Valuation τ sig (Elt Ideal)) :
    StableHlo.after hostOps1_4 V (Proc.devRef .tc main_v40)
      = shapeCast S1x128 (V (Proc.devRef .tc main_arg15)) shapeCasts_S128_S1x128 := by
  after_results
  rfl

/-! ## The node kernel's weights -/

/-- The weight blocks the second region finds are the argument arrays' row bands and one-row readings. -/
theorem entry1_weights (c : Dev nD) :
    nodeP (V15 m ρ c main_v37) (V15 m ρ c main_v38) (V15 m ρ c main_v39) (V15 m ρ c main_arg14) (V15 m ρ c main_v40)
      = argNodeP (m ((c : Thread nD τ).loc main_arg12)) (m ((c : Thread nD τ).loc main_arg13))
          (m ((c : Thread nD τ).loc main_arg14)) (m ((c : Thread nD τ).loc main_arg15)) := by
  have e37 : (V15 m ρ c main_v37 : Vec Ideal S128x128 .f32)
      = extractStridedSlice S128x128 ![0, 0] (m ((c : Thread nD τ).loc main_arg12) : Vec Ideal S256x128 .f32) slices_S256x128_S128x128_0_0 := by
    rw [← W14_arg12 m ρ c]
    exact v37_after (W14 m ρ c)
  have e38 : (V15 m ρ c main_v38 : Vec Ideal S128x128 .f32)
      = extractStridedSlice S128x128 ![128, 0] (m ((c : Thread nD τ).loc main_arg12) : Vec Ideal S256x128 .f32) slices_S256x128_S128x128_128_0 := by
    rw [← W14_arg12 m ρ c]
    exact v38_after (W14 m ρ c)
  have e39 : (V15 m ρ c main_v39 : Vec Ideal S1x128 .f32)
      = shapeCast S1x128 (m ((c : Thread nD τ).loc main_arg13) : Vec Ideal S128 .f32) shapeCasts_S128_S1x128 := by
    rw [← W14_arg13 m ρ c]
    exact v39_after (W14 m ρ c)
  have e40 : (V15 m ρ c main_v40 : Vec Ideal S1x128 .f32)
      = shapeCast S1x128 (m ((c : Thread nD τ).loc main_arg15) : Vec Ideal S128 .f32) shapeCasts_S128_S1x128 := by
    rw [← W14_arg15 m ρ c]
    exact v40_after (W14 m ρ c)
  have e14 : (V15 m ρ c main_arg14 : Vec Ideal S128x128 .f32) = m ((c : Thread nD τ).loc main_arg14) := W15_arg14 m ρ c
  rw [e37, e38, e39, e40, e14]
  unfold nodeP argNodeP
  congr 1
  · funext k j
    exact slice2_axis0_apply 0 _ _ k j ⟨k.val, by omega⟩ (Nat.zero_add _).symm
  · funext k j
    exact slice2_axis0_apply 128 _ _ k j ⟨128 + k.val, by omega⟩ rfl
  · funext j
    exact shapeCast_a_1a_apply _ _ 0 j
  · funext j
    exact shapeCast_a_1a_apply _ _ 0 j

end Cert.KernelIdeal.Weights

end
-- ==== Proof.KValue.lean ====
/-
  The idealized kernel program's three results as the layer's specification of its arguments, once every edge end
  point names a node: the edge-feature array the first kernel leaves, the coordinates updated from the scatter sums
  of the translations it leaves, and the node array the second kernel leaves from the node features and the scatter sum
  of the edge features. Each is the array-level fact of its kernel region with the region's entry contents read back to
  the arguments.
-/
import proofs.«409691_j59871844106306_3_alg».proof.Proof.KArr
import proofs.«409691_j59871844106306_3_alg».proof.Proof.KHost0
import proofs.«409691_j59871844106306_3_alg».proof.Proof.KHost1
import proofs.«409691_j59871844106306_3_alg».proof.Proof.KWeights
import proofs.«409691_j59871844106306_3_alg».proof.Proof.SpecHost

set_option maxRecDepth 16384

noncomputable section

namespace Cert.KernelIdeal.Results

open Cert.KernelIdeal Cert.KernelIdeal.Gen Cert.Egcl
open Idealize.ShloMosaic Idealize.ShloMosaic.TcCoe Idealize.ShloMosaic.ValueIdx Idealize.SL.Sem

variable (m : (ℓ : Loc nD τ sig) → Buf (Elt Ideal) ℓ) (ρ : Dev nD → PrngReg)

/-- The edge weights and the node weights, from the arguments. -/
abbrev argP (c : Dev nD) : EdgeP :=
  argEdgeP (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
abbrev argQ (c : Dev nD) : NodeP :=
  argNodeP (m ((c : Thread nD τ).loc main_arg12)) (m ((c : Thread nD τ).loc main_arg13)) (m ((c : Thread nD τ).loc main_arg14)) (m ((c : Thread nD τ).loc main_arg15))

/-- The edge-feature array after the first kernel. -/
theorem efeat_arr (c : Dev nD) (hidx : InRange (m ((c : Thread nD τ).loc main_arg1))) :
    (dat0 (V9 m ρ) c).arrAt 15 cfg0.N = edgeFeatArr (m ((c : Thread nD τ).loc main_arg0)) (m ((c : Thread nD τ).loc main_arg1)) (m ((c : Thread nD τ).loc main_arg2)) (argP m c) := by
  rw [RegionValue.edgeFeat_arr]
  unfold edgeFeatArr RegionValue.edgeW
  rw [Weights.entry0_weights m ρ c, Entry0.entry_hrow m ρ c hidx, Entry0.entry_hcol m ρ c hidx]
  refine congrArg atRC ?_
  funext e j
  rw [Entry0.entry_rad m ρ c hidx e]

/-- The translation array after the first kernel. -/
theorem trans_arr (c : Dev nD) (hidx : InRange (m ((c : Thread nD τ).loc main_arg1))) :
    (dat0 (V9 m ρ) c).arrAt 16 cfg0.N = edgeTransArr (m ((c : Thread nD τ).loc main_arg0)) (m ((c : Thread nD τ).loc main_arg1)) (m ((c : Thread nD τ).loc main_arg2)) (argP m c) := by
  rw [RegionValue.edgeTrans_arr]
  unfold edgeTransArr RegionValue.edgeW
  rw [Weights.entry0_weights m ρ c, Entry0.entry_hrow m ρ c hidx, Entry0.entry_hcol m ρ c hidx, Entry0.entry_diff m ρ c hidx]
  refine congrArg atRC ?_
  funext e a
  rw [Entry0.entry_rad m ρ c hidx e]

/-- The program's third result: the edge features. -/
theorem efeat (c : Dev nD) (hidx : InRange (m ((c : Thread nD τ).loc main_arg1))) :
    W16 m ρ c (Proc.devRef .tc main_v21_0) = edgeFeatArr (m ((c : Thread nD τ).loc main_arg0)) (m ((c : Thread nD τ).loc main_arg1)) (m ((c : Thread nD τ).loc main_arg2)) (argP m c) :=
  (Entry1.result_efeat m ρ c).trans (efeat_arr m ρ c hidx)

/-- The program's second result: the updated coordinates. -/
theorem cout (c : Dev nD) (hidx : InRange (m ((c : Thread nD τ).loc main_arg1))) :
    W16 m ρ c (Proc.devRef .tc main_v36) = coordOutArr (m ((c : Thread nD τ).loc main_arg0)) (m ((c : Thread nD τ).loc main_arg1)) (m ((c : Thread nD τ).loc main_arg2)) (argP m c) := by
  unfold coordOutArr
  rw [Entry1.result_cout m ρ c hidx, trans_arr m ρ c hidx]

/-- The program's first result: the updated node features. -/
theorem hout (c : Dev nD) (hidx : InRange (m ((c : Thread nD τ).loc main_arg1))) :
    W16 m ρ c (Proc.devRef .tc main_v41) = nodeOutArr (m ((c : Thread nD τ).loc main_arg0)) (m ((c : Thread nD τ).loc main_arg1)) (m ((c : Thread nD τ).loc main_arg2)) (argP m c) (argQ m c) := by
  rw [Entry1.result_hout m ρ c, RegionValue.nodeOut_arr]
  unfold nodeOutArr RegionValue.nodeW
  rw [Weights.entry1_weights m ρ c, Entry1.entry_h m ρ c, Entry1.entry_agg m ρ c hidx, efeat_arr m ρ c hidx]

end Cert.KernelIdeal.Results

end
-- ==== Proof.RefHost.lean ====
/-
  The reference program's stages outside its perceptrons, once every edge end point names a node: wrapping a
  negative index does nothing, so each gather reads the node row the end point names; the coordinate difference and its
  squared length follow entry by entry; the scatter sums are indexed by the source end points as given.
-/
import proofs.«409691_j59871844106306_3_alg».proof.Proof.RunP
import proofs.«409691_j59871844106306_3_alg».proof.Proof.ReadP
import proofs.«409691_j59871844106306_3_alg».proof.Proof.SpecHost
import proofs.«409691_j59871844106306_3_alg».proof.Proof.IdxWords
import Idealize.ShloMosaic.Lib.ValueIdx
import Idealize.ShloMosaic.Lib.Pipeline.Value

noncomputable section

namespace Cert.ReferenceIdeal.HostStages

open Cert.ReferenceIdeal Cert.ReferenceIdeal.Read Cert.Egcl
open Idealize.ShloMosaic Idealize.ShloMosaic.ValueIdx

open scoped BigOperators

/-- The one coordinate of a one-axis index is below the axis's extent, the extent written as the number itself. -/
theorem idx1_lt {n : Nat} (j : (⟨1, ![n]⟩ : Shape).Idx) : (j 0).val < n := (j 0).isLt

/-! ## The two rows of the edge index, flattened to [E] -/

/-- Row 0 of the edge index, sliced and flattened: entry e is the edge index at (0, e), since e mod E = e. -/
theorem row0_apply (x1 : (⟨S2x500000, .i32⟩ : BufTy).Contents (Elt Ideal)) (j : S500000.Idx) :
    val_main_v1 (F := Ideal) x1 j = x1 (ix2 (0 : Fin 2) (⟨(j 0).val, idx1_lt j⟩ : Fin 500000)) := by
  refine (val_main_v1_apply x1 j).trans ((val_main_v0_apply x1 _).trans (congrArg x1 (funext fun a => Fin.ext ?_)))
  match a with
  | ⟨0, _⟩ => rfl
  | ⟨1, _⟩ =>
    show ((j 0).val) % 500000 = (j 0).val
    exact Nat.mod_eq_of_lt (idx1_lt j)

/-- Row 1 likewise: entry e is the edge index at (1, e). -/
theorem row1_apply (x1 : (⟨S2x500000, .i32⟩ : BufTy).Contents (Elt Ideal)) (j : S500000.Idx) :
    val_main_v3 (F := Ideal) x1 j = x1 (ix2 (1 : Fin 2) (⟨(j 0).val, idx1_lt j⟩ : Fin 500000)) := by
  refine (val_main_v3_apply x1 j).trans ((val_main_v2_apply x1 _).trans (congrArg x1 (funext fun a => Fin.ext ?_)))
  match a with
  | ⟨0, _⟩ => rfl
  | ⟨1, _⟩ =>
    show ((j 0).val) % 500000 = (j 0).val
    exact Nat.mod_eq_of_lt (idx1_lt j)

/-! ## Wrapping a negative index: the identity on an end point that names a node

Each of the four wrapped rows is select (w < 0) (w + N) w entry by entry, with w a nonnegative entry of the edge index. -/

/-- The source row wrapped for the coordinate gather is the source row. -/
theorem wrap_src (x1 : (⟨S2x500000, .i32⟩ : BufTy).Contents (Elt Ideal)) (hidx : InRange x1) (j : S500000.Idx) :
    val_main_v8 (F := Ideal) x1 j = val_main_v1 (F := Ideal) x1 j := by
  rw [val_main_v8_apply, val_main_v5_apply, val_main_v7_apply, val_main_v4_apply, val_main_v6_apply, val_main_c_apply, val_main_c_0_apply]
  exact Words.wrap_word _ (by rw [row0_apply]; exact (hidx _).1)

/-- The target row wrapped for the coordinate gather is the target row. -/
theorem wrap_tgt (x1 : (⟨S2x500000, .i32⟩ : BufTy).Contents (Elt Ideal)) (hidx : InRange x1) (j : S500000.Idx) :
    val_main_v15 (F := Ideal) x1 j = val_main_v3 (F := Ideal) x1 j := by
  rw [val_main_v15_apply, val_main_v12_apply, val_main_v14_apply, val_main_v11_apply, val_main_v13_apply, val_main_c_1_apply, val_main_c_2_apply]
  exact Words.wrap_word _ (by rw [row1_apply]; exact (hidx _).1)

/-- The source row wrapped a second time, for the feature gather. -/
theorem wrap_src' (x1 : (⟨S2x500000, .i32⟩ : BufTy).Contents (Elt Ideal)) (hidx : InRange x1) (j : S500000.Idx) :
    val_main_v26 (F := Ideal) x1 j = val_main_v1 (F := Ideal) x1 j := by
  rw [val_main_v26_apply, val_main_v23_apply, val_main_v25_apply, val_main_v22_apply, val_main_v24_apply, val_main_c_3_apply, val_main_c_4_apply]
  exact Words.wrap_word _ (by rw [row0_apply]; exact (hidx _).1)

/-- The target row wrapped a second time, for the feature gather. -/
theorem wrap_tgt' (x1 : (⟨S2x500000, .i32⟩ : BufTy).Contents (Elt Ideal)) (hidx : InRange x1) (j : S500000.Idx) :
    val_main_v33 (F := Ideal) x1 j = val_main_v3 (F := Ideal) x1 j := by
  rw [val_main_v33_apply, val_main_v30_apply, val_main_v32_apply, val_main_v29_apply, val_main_v31_apply, val_main_c_5_apply, val_main_c_6_apply]
  exact Words.wrap_word _ (by rw [row1_apply]; exact (hidx _).1)

/-! ## The start-index columns [E, 1] of the four gathers -/

/-- The coordinate gather's source column is the source end points. -/
theorem col_src (x1 : (⟨S2x500000, .i32⟩ : BufTy).Contents (Elt Ideal)) (hidx : InRange x1) : val_main_v9 (F := Ideal) x1 = endCol 0 x1 := by
  funext i
  rw [val_main_v9_apply, wrap_src x1 hidx, row0_apply]
  rfl

/-- The coordinate gather's target column is the target end points. -/
theorem col_tgt (x1 : (⟨S2x500000, .i32⟩ : BufTy).Contents (Elt Ideal)) (hidx : InRange x1) : val_main_v16 (F := Ideal) x1 = endCol 1 x1 := by
  funext i
  rw [val_main_v16_apply, wrap_tgt x1 hidx, row1_apply]
  rfl

/-- The feature gather's source column is the source end points. -/
theorem col_src' (x1 : (⟨S2x500000, .i32⟩ : BufTy).Contents (Elt Ideal)) (hidx : InRange x1) : val_main_v27 (F := Ideal) x1 = endCol 0 x1 := by
  funext i
  rw [val_main_v27_apply, wrap_src' x1 hidx, row0_apply]
  rfl

/-- The feature gather's target column is the target end points. -/
theorem col_tgt' (x1 : (⟨S2x500000, .i32⟩ : BufTy).Contents (Elt Ideal)) (hidx : InRange x1) : val_main_v34 (F := Ideal) x1 = endCol 1 x1 := by
  funext i
  rw [val_main_v34_apply, wrap_tgt' x1 hidx, row1_apply]
  rfl

/-- The three scatter sums' index columns are the source end points. -/
theorem scatterCol_a (x1 : (⟨S2x500000, .i32⟩ : BufTy).Contents (Elt Ideal)) : val_main_v69 (F := Ideal) x1 = endCol 0 x1 := by
  funext i
  rw [val_main_v69_apply, row0_apply]
  rfl
theorem scatterCol_b (x1 : (⟨S2x500000, .i32⟩ : BufTy).Contents (Elt Ideal)) : val_main_v73 (F := Ideal) x1 = endCol 0 x1 := by
  funext i
  rw [val_main_v73_apply, row0_apply]
  rfl
theorem scatterCol_c (x1 : (⟨S2x500000, .i32⟩ : BufTy).Contents (Elt Ideal)) : val_main_v80 (F := Ideal) x1 = endCol 0 x1 := by
  funext i
  rw [val_main_v80_apply, row0_apply]
  rfl

/-- The gathered feature rows of the source and of the target end points: the same gather, of equal columns. -/
theorem featRow (x0 : (⟨S50000x128, .f32⟩ : BufTy).Contents (Elt Ideal)) (x1 : (⟨S2x500000, .i32⟩ : BufTy).Contents (Elt Ideal)) (hidx : InRange x1) : val_main_v28 (F := Ideal) x0 x1 = featAt x0 0 x1 := by
  show Host.gather (gatherRows 128 gwf128) x0 (val_main_v27 (F := Ideal) x1) = Host.gather (gatherRows 128 gwf128) x0 (endCol 0 x1)
  exact congrArg (Host.gather (gatherRows 128 gwf128) x0) (col_src' x1 hidx)
theorem featCol (x0 : (⟨S50000x128, .f32⟩ : BufTy).Contents (Elt Ideal)) (x1 : (⟨S2x500000, .i32⟩ : BufTy).Contents (Elt Ideal)) (hidx : InRange x1) : val_main_v35 (F := Ideal) x0 x1 = featAt x0 1 x1 := by
  show Host.gather (gatherRows 128 gwf128) x0 (val_main_v34 (F := Ideal) x1) = Host.gather (gatherRows 128 gwf128) x0 (endCol 1 x1)
  exact congrArg (Host.gather (gatherRows 128 gwf128) x0) (col_tgt' x1 hidx)

/-- The gathered coordinates of the source and of the target end points. -/
theorem coord_src (x1 : (⟨S2x500000, .i32⟩ : BufTy).Contents (Elt Ideal)) (x2 : (⟨S50000x3, .f32⟩ : BufTy).Contents (Elt Ideal)) (hidx : InRange x1) : val_main_v10 (F := Ideal) x1 x2 = coordAt x2 0 x1 := by
  show Host.gather (gatherRows 3 gwf3) x2 (val_main_v9 (F := Ideal) x1) = Host.gather (gatherRows 3 gwf3) x2 (endCol 0 x1)
  exact congrArg (Host.gather (gatherRows 3 gwf3) x2) (col_src x1 hidx)
theorem coord_tgt (x1 : (⟨S2x500000, .i32⟩ : BufTy).Contents (Elt Ideal)) (x2 : (⟨S50000x3, .f32⟩ : BufTy).Contents (Elt Ideal)) (hidx : InRange x1) : val_main_v17 (F := Ideal) x1 x2 = coordAt x2 1 x1 := by
  show Host.gather (gatherRows 3 gwf3) x2 (val_main_v16 (F := Ideal) x1) = Host.gather (gatherRows 3 gwf3) x2 (endCol 1 x1)
  exact congrArg (Host.gather (gatherRows 3 gwf3) x2) (col_tgt x1 hidx)

/-- The coordinate difference, source minus target. -/
theorem diff_eq (x1 : (⟨S2x500000, .i32⟩ : BufTy).Contents (Elt Ideal)) (x2 : (⟨S50000x3, .f32⟩ : BufTy).Contents (Elt Ideal)) (hidx : InRange x1) : val_main_v18 (F := Ideal) x1 x2 = coordDiff x2 x1 := by
  funext i
  rw [val_main_v18_apply, coord_src x1 x2 hidx, coord_tgt x1 x2 hidx]
  rfl

/-- Its squared length, kept as an [E, 1] column. -/
theorem rad_eq (x1 : (⟨S2x500000, .i32⟩ : BufTy).Contents (Elt Ideal)) (x2 : (⟨S50000x3, .f32⟩ : BufTy).Contents (Elt Ideal)) (hidx : InRange x1) (e : Fin 500000) :
    val_main_v21 (F := Ideal) x1 x2 (ix2 e 0) = sqDist x2 x1 e := by
  refine (val_main_v21_apply x1 x2 _).trans ((val_main_v20_apply x1 x2 _).trans ?_)
  unfold sqDist
  refine congrArg (_ + ·) (Finset.sum_congr rfl fun k _ => ?_)
  -- the summand's index (e, k), coordinate by coordinate
  have hk : idx_main_v20 (idx_main_v21 (ix2 e 0)) k = ix2 e k :=
    funext fun a => Fin.ext (by match a with | ⟨0, _⟩ => rfl | ⟨1, _⟩ => rfl)
  calc val_main_v19 (F := Ideal) x1 x2 (idx_main_v20 (idx_main_v21 (ix2 e 0)) k)
      = val_main_v19 (F := Ideal) x1 x2 (ix2 e k) := congrArg (val_main_v19 (F := Ideal) x1 x2) hk
    _ = val_main_v18 (F := Ideal) x1 x2 (ix2 e k) * val_main_v18 (F := Ideal) x1 x2 (ix2 e k) := rfl
    _ = coordDiff x2 x1 (ix2 e k) * coordDiff x2 x1 (ix2 e k) := by rw [diff_eq x1 x2 hidx]

end Cert.ReferenceIdeal.HostStages

end
-- ==== Proof.RefEdge.lean ====
/-
  The reference program's edge perceptrons, stage by stage, against the row functions of the layer: the first layer's
  product with the 257-column concatenation [source features, target features, squared distance] is the sum of its three
  parts; every later stage is the same operation on both sides.
-/
import proofs.«409691_j59871844106306_3_alg».proof.Proof.ReadP
import proofs.«409691_j59871844106306_3_alg».proof.Proof.RefHost
import proofs.«409691_j59871844106306_3_alg».proof.Proof.SpecHost
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.EdgeStages

open Cert.ReferenceIdeal Cert.ReferenceIdeal.Read Cert.Egcl Cert.ReferenceIdeal.HostStages
open Idealize.ShloMosaic Idealize.ShloMosaic.ValueIdx

/-! ## The two activations, spelled with the constant one -/

/-- One over one plus e to the minus x, the one written as its f32 word, is the logistic function. -/
theorem logistic_spelled (x : EReal) :
    Ideal.div (Ideal.ofBits .f32 0x3F800000#32) (Ideal.ofBits .f32 0x3F800000#32 + Ideal.exp (-x)) = Ideal.logistic x := by
  rw [Ideal.ofBits_one_f32]
  all_goals rfl

/-- x times that quotient is silu x. -/
theorem silu_spelled (x : EReal) :
    x * Ideal.div (Ideal.ofBits .f32 0x3F800000#32) (Ideal.ofBits .f32 0x3F800000#32 + Ideal.exp (-x)) = silu x := by
  rw [logistic_spelled]
  all_goals rfl

/-! ## The 257-column concatenation, band by band -/

/-- Columns 0 to 127 of the concatenation are the source end point's features. -/
theorem cat_src (x0 : (⟨S50000x128, .f32⟩ : BufTy).Contents (Elt Ideal)) (x1 : (⟨S2x500000, .i32⟩ : BufTy).Contents (Elt Ideal)) (x2 : (⟨S50000x3, .f32⟩ : BufTy).Contents (Elt Ideal)) (e : Fin 500000) (k : Fin 128) :
    val_main_v36 (F := Ideal) x0 x1 x2 (ix2 e ⟨k.val, by omega⟩) = val_main_v28 (F := Ideal) x0 x1 (ix2 e k) := by
  unfold val_main_v36
  generalize val_main_v28 (F := Ideal) x0 x1 = y0
  generalize val_main_v35 (F := Ideal) x0 x1 = y1
  generalize val_main_v21 (F := Ideal) x1 x2 = y2
  refine concatenate_apply_piece _ _ _ _ 0 (by show (0 : Nat) < 3; omega) S500000x128 y0 (by rfl) (by rfl) 0 (by rfl) (ix2 e k) ?_ ?_
  · intro b hb
    match b, hb with
    | ⟨0, _⟩, _ => rfl
    | ⟨1, _⟩, hb => exact absurd (Fin.ext rfl) hb
  · show 0 + k.val = k.val
    omega

/-- Columns 128 to 255 are the target end point's features. -/
theorem cat_tgt (x0 : (⟨S50000x128, .f32⟩ : BufTy).Contents (Elt Ideal)) (x1 : (⟨S2x500000, .i32⟩ : BufTy).Contents (Elt Ideal)) (x2 : (⟨S50000x3, .f32⟩ : BufTy).Contents (Elt Ideal)) (e : Fin 500000) (k : Fin 128) :
    val_main_v36 (F := Ideal) x0 x1 x2 (ix2 e ⟨128 + k.val, by omega⟩) = val_main_v35 (F := Ideal) x0 x1 (ix2 e k) := by
  unfold val_main_v36
  generalize val_main_v28 (F := Ideal) x0 x1 = y0
  generalize val_main_v35 (F := Ideal) x0 x1 = y1
  generalize val_main_v21 (F := Ideal) x1 x2 = y2
  refine concatenate_apply_piece _ _ _ _ 1 (by show (1 : Nat) < 3; omega) S500000x128 y1 (by rfl) (by rfl) 128 (by rfl) (ix2 e k) ?_ ?_
  · intro b hb
    match b, hb with
    | ⟨0, _⟩, _ => rfl
    | ⟨1, _⟩, hb => exact absurd (Fin.ext rfl) hb
  · show 128 + k.val = 128 + k.val
    rfl

/-- Column 256 is the squared distance. -/
theorem cat_rad (x0 : (⟨S50000x128, .f32⟩ : BufTy).Contents (Elt Ideal)) (x1 : (⟨S2x500000, .i32⟩ : BufTy).Contents (Elt Ideal)) (x2 : (⟨S50000x3, .f32⟩ : BufTy).Contents (Elt Ideal)) (e : Fin 500000) :
    val_main_v36 (F := Ideal) x0 x1 x2 (ix2 e ⟨256, by omega⟩) = val_main_v21 (F := Ideal) x1 x2 (ix2 e 0) := by
  unfold val_main_v36
  generalize val_main_v28 (F := Ideal) x0 x1 = y0
  generalize val_main_v35 (F := Ideal) x0 x1 = y1
  generalize val_main_v21 (F := Ideal) x1 x2 = y2
  refine concatenate_apply_piece _ _ _ _ 2 (by show (2 : Nat) < 3; omega) S500000x1 y2 (by rfl) (by rfl) 256 (by rfl) (ix2 e 0) ?_ ?_
  · intro b hb
    match b, hb with
    | ⟨0, _⟩, _ => rfl
    | ⟨1, _⟩, hb => exact absurd (Fin.ext rfl) hb
  · show 256 + 0 = 256
    rfl

/-! ## The first layer -/

/-- The product with the first weight matrix is the sum of its three bands' products. -/
theorem stage37 (x0 : (⟨S50000x128, .f32⟩ : BufTy).Contents (Elt Ideal)) (x1 : (⟨S2x500000, .i32⟩ : BufTy).Contents (Elt Ideal)) (x2 : (⟨S50000x3, .f32⟩ : BufTy).Contents (Elt Ideal)) (x3 : (⟨S257x128, .f32⟩ : BufTy).Contents (Elt Ideal)) (hidx : InRange x1) (e : Fin 500000) (j : Fin 128) :
    val_main_v37 (F := Ideal) x0 x1 x2 x3 (ix2 e j)
      = (dot (fun k => featAt x0 0 x1 (ix2 e k)) (fun k => x3 (ix2 ⟨k.val, by omega⟩ j))
          + dot (fun k => featAt x0 1 x1 (ix2 e k)) (fun k => x3 (ix2 ⟨128 + k.val, by omega⟩ j)))
        + sqDist x2 x1 e * x3 (ix2 ⟨256, by omega⟩ j) := by
  rw [val_main_v37_apply]
  have hl : ∀ k : Fin 257, lidx_main_v37 (ix2 e j) k = ix2 e k := fun k => funext fun a => Fin.ext (by match a with | ⟨0, _⟩ => rfl | ⟨1, _⟩ => rfl)
  have hr : ∀ k : Fin 257, ridx_main_v37 (ix2 e j) k = ix2 k j := fun k => funext fun a => Fin.ext (by match a with | ⟨0, _⟩ => rfl | ⟨1, _⟩ => rfl)
  rw [Finset.sum_congr rfl (fun k _ => by rw [hl k, hr k] :
    ∀ k ∈ (Finset.univ : Finset (Fin 257)), val_main_v36 (F := Ideal) x0 x1 x2 (lidx_main_v37 (ix2 e j) k) * x3 (ridx_main_v37 (ix2 e j) k)
      = val_main_v36 (F := Ideal) x0 x1 x2 (ix2 e k) * x3 (ix2 k j))]
  rw [sum_257 (fun k => val_main_v36 (F := Ideal) x0 x1 x2 (ix2 e k) * x3 (ix2 k j))]
  unfold dot
  refine congrArg₂ (· + ·) (congrArg₂ (· + ·) ?_ ?_) ?_
  · refine Finset.sum_congr rfl fun k _ => ?_
    show val_main_v36 (F := Ideal) x0 x1 x2 (ix2 e ⟨k.val, by omega⟩) * x3 (ix2 ⟨k.val, by omega⟩ j) = _
    rw [cat_src, featRow x0 x1 hidx]
  · refine Finset.sum_congr rfl fun k _ => ?_
    show val_main_v36 (F := Ideal) x0 x1 x2 (ix2 e ⟨128 + k.val, by omega⟩) * x3 (ix2 ⟨128 + k.val, by omega⟩ j) = _
    rw [cat_tgt, featCol x0 x1 hidx]
  · show val_main_v36 (F := Ideal) x0 x1 x2 (ix2 e ⟨256, by omega⟩) * x3 (ix2 ⟨256, by omega⟩ j) = _
    rw [cat_rad, rad_eq x1 x2 hidx e]

/-- A bias row broadcast over the edges reads the bias at its column. -/
theorem bias39 (x4 : (⟨S128, .f32⟩ : BufTy).Contents (Elt Ideal)) (e : Fin 500000) (j : Fin 128) : val_main_v39 (F := Ideal) x4 (ix2 e j) = x4 (ix1 j) := by
  rw [val_main_v39_apply, val_main_v38_apply]
  exact congrArg x4 (funext fun a => Fin.ext (by match a with | ⟨0, _⟩ => rfl))

/-- The first layer before its activation. -/
theorem stage40 (x0 : (⟨S50000x128, .f32⟩ : BufTy).Contents (Elt Ideal)) (x1 : (⟨S2x500000, .i32⟩ : BufTy).Contents (Elt Ideal)) (x2 : (⟨S50000x3, .f32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x1, .f32⟩ : BufTy).Contents (Elt Ideal)) (x8 : (⟨S1, .f32⟩ : BufTy).Contents (Elt Ideal)) (x9 : (⟨S128x128, .f32⟩ : BufTy).Contents (Elt Ideal)) (x10 : (⟨S128, .f32⟩ : BufTy).Contents (Elt Ideal)) (x11 : (⟨S128x1, .f32⟩ : BufTy).Contents (Elt Ideal)) (hidx : InRange x1) (e : Fin 500000) (j : Fin 128) :
    val_main_v40 (F := Ideal) x0 x1 x2 x3 x4 (ix2 e j) = edgePre1 (argEdgeP x3 x4 x5 x6 x7 x8 x9 x10 x11) (fun k => featAt x0 0 x1 (ix2 e k)) (fun k => featAt x0 1 x1 (ix2 e k)) (sqDist x2 x1 e) j := by
  rw [val_main_v40_apply, stage37 x0 x1 x2 x3 hidx, bias39]
  all_goals rfl

/-- The first layer, activated. -/
theorem stage41 (x0 : (⟨S50000x128, .f32⟩ : BufTy).Contents (Elt Ideal)) (x1 : (⟨S2x500000, .i32⟩ : BufTy).Contents (Elt Ideal)) (x2 : (⟨S50000x3, .f32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x1, .f32⟩ : BufTy).Contents (Elt Ideal)) (x8 : (⟨S1, .f32⟩ : BufTy).Contents (Elt Ideal)) (x9 : (⟨S128x128, .f32⟩ : BufTy).Contents (Elt Ideal)) (x10 : (⟨S128, .f32⟩ : BufTy).Contents (Elt Ideal)) (x11 : (⟨S128x1, .f32⟩ : BufTy).Contents (Elt Ideal)) (hidx : InRange x1) (e : Fin 500000) (j : Fin 128) :
    val_main_v41 (F := Ideal) x0 x1 x2 x3 x4 (ix2 e j) = silu (edgePre1 (argEdgeP x3 x4 x5 x6 x7 x8 x9 x10 x11) (fun k => featAt x0 0 x1 (ix2 e k)) (fun k => featAt x0 1 x1 (ix2 e k)) (sqDist x2 x1 e) j) := by
  rw [val_main_v41_apply, val_main_call0_v5_apply, val_main_call0_v4_apply, val_main_call0_cst_0_apply,
    val_main_call0_v3_apply, val_main_call0_v2_apply, val_main_call0_cst_apply, val_main_call0_v1_apply,
    val_main_call0_v0_apply, stage40 x0 x1 x2 x3 x4 x5 x6 x7 x8 x9 x10 x11 hidx]
  exact silu_spelled _

/-! ## The second layer, the gate, the edge feature -/

theorem stage42 (x0 : (⟨S50000x128, .f32⟩ : BufTy).Contents (Elt Ideal)) (x1 : (⟨S2x500000, .i32⟩ : BufTy).Contents (Elt Ideal)) (x2 : (⟨S50000x3, .f32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x1, .f32⟩ : BufTy).Contents (Elt Ideal)) (x8 : (⟨S1, .f32⟩ : BufTy).Contents (Elt Ideal)) (x9 : (⟨S128x128, .f32⟩ : BufTy).Contents (Elt Ideal)) (x10 : (⟨S128, .f32⟩ : BufTy).Contents (Elt Ideal)) (x11 : (⟨S128x1, .f32⟩ : BufTy).Contents (Elt Ideal)) (hidx : InRange x1) (e : Fin 500000) (j : Fin 128) :
    val_main_v42 (F := Ideal) x0 x1 x2 x3 x4 x5 (ix2 e j)
      = dot (fun k => silu (edgePre1 (argEdgeP x3 x4 x5 x6 x7 x8 x9 x10 x11) (fun k => featAt x0 0 x1 (ix2 e k)) (fun k => featAt x0 1 x1 (ix2 e k)) (sqDist x2 x1 e) k)) (fun k => x5 (ix2 k j)) := by
  rw [val_main_v42_apply]
  unfold dot
  refine Finset.sum_congr rfl fun k _ => ?_
  rw [show lidx_main_v42 (ix2 e j) k = ix2 e k from funext fun a => Fin.ext (by match a with | ⟨0, _⟩ => rfl | ⟨1, _⟩ => rfl),
    show ridx_main_v42 (ix2 e j) k = ix2 k j from funext fun a => Fin.ext (by match a with | ⟨0, _⟩ => rfl | ⟨1, _⟩ => rfl),
    stage41 x0 x1 x2 x3 x4 x5 x6 x7 x8 x9 x10 x11 hidx]
  all_goals rfl

theorem bias44 (x6 : (⟨S128, .f32⟩ : BufTy).Contents (Elt Ideal)) (e : Fin 500000) (j : Fin 128) : val_main_v44 (F := Ideal) x6 (ix2 e j) = x6 (ix1 j) := by
  rw [val_main_v44_apply, val_main_v43_apply]
  exact congrArg x6 (funext fun a => Fin.ext (by match a with | ⟨0, _⟩ => rfl))

/-- The hidden row of an edge. -/
theorem stage46 (x0 : (⟨S50000x128, .f32⟩ : BufTy).Contents (Elt Ideal)) (x1 : (⟨S2x500000, .i32⟩ : BufTy).Contents (Elt Ideal)) (x2 : (⟨S50000x3, .f32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x1, .f32⟩ : BufTy).Contents (Elt Ideal)) (x8 : (⟨S1, .f32⟩ : BufTy).Contents (Elt Ideal)) (x9 : (⟨S128x128, .f32⟩ : BufTy).Contents (Elt Ideal)) (x10 : (⟨S128, .f32⟩ : BufTy).Contents (Elt Ideal)) (x11 : (⟨S128x1, .f32⟩ : BufTy).Contents (Elt Ideal)) (hidx : InRange x1) (e : Fin 500000) (j : Fin 128) :
    val_main_v46 (F := Ideal) x0 x1 x2 x3 x4 x5 x6 (ix2 e j) = edgeHidden (argEdgeP x3 x4 x5 x6 x7 x8 x9 x10 x11) (fun k => featAt x0 0 x1 (ix2 e k)) (fun k => featAt x0 1 x1 (ix2 e k)) (sqDist x2 x1 e) j := by
  rw [val_main_v46_apply, val_main_call1_v5_apply, val_main_call1_v4_apply, val_main_call1_cst_0_apply,
    val_main_call1_v3_apply, val_main_call1_v2_apply, val_main_call1_cst_apply, val_main_call1_v1_apply,
    val_main_call1_v0_apply, val_main_v45_apply, stage42 x0 x1 x2 x3 x4 x5 x6 x7 x8 x9 x10 x11 hidx, bias44]
  exact silu_spelled _

theorem stage47 (x0 : (⟨S50000x128, .f32⟩ : BufTy).Contents (Elt Ideal)) (x1 : (⟨S2x500000, .i32⟩ : BufTy).Contents (Elt Ideal)) (x2 : (⟨S50000x3, .f32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x1, .f32⟩ : BufTy).Contents (Elt Ideal)) (x8 : (⟨S1, .f32⟩ : BufTy).Contents (Elt Ideal)) (x9 : (⟨S128x128, .f32⟩ : BufTy).Contents (Elt Ideal)) (x10 : (⟨S128, .f32⟩ : BufTy).Contents (Elt Ideal)) (x11 : (⟨S128x1, .f32⟩ : BufTy).Contents (Elt Ideal)) (hidx : InRange x1) (e : Fin 500000) :
    val_main_v47 (F := Ideal) x0 x1 x2 x3 x4 x5 x6 x7 (ix2 e 0)
      = dot (edgeHidden (argEdgeP x3 x4 x5 x6 x7 x8 x9 x10 x11) (fun k => featAt x0 0 x1 (ix2 e k)) (fun k => featAt x0 1 x1 (ix2 e k)) (sqDist x2 x1 e)) (fun k => x7 (ix2 k 0)) := by
  rw [val_main_v47_apply]
  unfold dot
  refine Finset.sum_congr rfl fun k _ => ?_
  rw [show lidx_main_v47 (ix2 e 0) k = ix2 e k from funext fun a => Fin.ext (by match a with | ⟨0, _⟩ => rfl | ⟨1, _⟩ => rfl),
    show ridx_main_v47 (ix2 e 0) k = ix2 k 0 from funext fun a => Fin.ext (by match a with | ⟨0, _⟩ => rfl | ⟨1, _⟩ => rfl),
    stage46 x0 x1 x2 x3 x4 x5 x6 x7 x8 x9 x10 x11 hidx]
  all_goals rfl

theorem bias49 (x8 : (⟨S1, .f32⟩ : BufTy).Contents (Elt Ideal)) (e : Fin 500000) : val_main_v49 (F := Ideal) x8 (ix2 e 0) = x8 (ix1 0) := by
  rw [val_main_v49_apply, val_main_v48_apply]
  exact congrArg x8 (funext fun a => Fin.ext (by match a with | ⟨0, _⟩ => rfl))

/-- The attention gate of an edge. -/
theorem stage56 (x0 : (⟨S50000x128, .f32⟩ : BufTy).Contents (Elt Ideal)) (x1 : (⟨S2x500000, .i32⟩ : BufTy).Contents (Elt Ideal)) (x2 : (⟨S50000x3, .f32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x1, .f32⟩ : BufTy).Contents (Elt Ideal)) (x8 : (⟨S1, .f32⟩ : BufTy).Contents (Elt Ideal)) (x9 : (⟨S128x128, .f32⟩ : BufTy).Contents (Elt Ideal)) (x10 : (⟨S128, .f32⟩ : BufTy).Contents (Elt Ideal)) (x11 : (⟨S128x1, .f32⟩ : BufTy).Contents (Elt Ideal)) (hidx : InRange x1) (e : Fin 500000) :
    val_main_v56 (F := Ideal) x0 x1 x2 x3 x4 x5 x6 x7 x8 (ix2 e 0) = edgeGate (argEdgeP x3 x4 x5 x6 x7 x8 x9 x10 x11) (fun k => featAt x0 0 x1 (ix2 e k)) (fun k => featAt x0 1 x1 (ix2 e k)) (sqDist x2 x1 e) := by
  rw [val_main_v56_apply, val_main_v55_apply, val_main_cst_8_apply, val_main_v54_apply, val_main_v53_apply,
    val_main_cst_7_apply, val_main_v52_apply, val_main_v51_apply, val_main_v50_apply,
    stage47 x0 x1 x2 x3 x4 x5 x6 x7 x8 x9 x10 x11 hidx, bias49]
  exact logistic_spelled _

/-- The edge feature: the hidden row times the gate. -/
theorem stage58 (x0 : (⟨S50000x128, .f32⟩ : BufTy).Contents (Elt Ideal)) (x1 : (⟨S2x500000, .i32⟩ : BufTy).Contents (Elt Ideal)) (x2 : (⟨S50000x3, .f32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x1, .f32⟩ : BufTy).Contents (Elt Ideal)) (x8 : (⟨S1, .f32⟩ : BufTy).Contents (Elt Ideal)) (x9 : (⟨S128x128, .f32⟩ : BufTy).Contents (Elt Ideal)) (x10 : (⟨S128, .f32⟩ : BufTy).Contents (Elt Ideal)) (x11 : (⟨S128x1, .f32⟩ : BufTy).Contents (Elt Ideal)) (hidx : InRange x1) (e : Fin 500000) (j : Fin 128) :
    val_main_v58 (F := Ideal) x0 x1 x2 x3 x4 x5 x6 x7 x8 (ix2 e j) = edgeFeat (argEdgeP x3 x4 x5 x6 x7 x8 x9 x10 x11) (fun k => featAt x0 0 x1 (ix2 e k)) (fun k => featAt x0 1 x1 (ix2 e k)) (sqDist x2 x1 e) j := by
  rw [val_main_v58_apply, val_main_v57_apply,
    show idx_main_v57 (ix2 e j) = ix2 e 0 from funext fun a => Fin.ext (by match a with | ⟨0, _⟩ => rfl | ⟨1, _⟩ => rfl),
    stage46 x0 x1 x2 x3 x4 x5 x6 x7 x8 x9 x10 x11 hidx, stage56 x0 x1 x2 x3 x4 x5 x6 x7 x8 x9 x10 x11 hidx]
  all_goals rfl

/-! ## The coordinate weight and the clipped translation -/

theorem stage59 (x0 : (⟨S50000x128, .f32⟩ : BufTy).Contents (Elt Ideal)) (x1 : (⟨S2x500000, .i32⟩ : BufTy).Contents (Elt Ideal)) (x2 : (⟨S50000x3, .f32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x1, .f32⟩ : BufTy).Contents (Elt Ideal)) (x8 : (⟨S1, .f32⟩ : BufTy).Contents (Elt Ideal)) (x9 : (⟨S128x128, .f32⟩ : BufTy).Contents (Elt Ideal)) (x10 : (⟨S128, .f32⟩ : BufTy).Contents (Elt Ideal)) (x11 : (⟨S128x1, .f32⟩ : BufTy).Contents (Elt Ideal)) (hidx : InRange x1) (e : Fin 500000) (j : Fin 128) :
    val_main_v59 (F := Ideal) x0 x1 x2 x3 x4 x5 x6 x7 x8 x9 (ix2 e j)
      = dot (edgeFeat (argEdgeP x3 x4 x5 x6 x7 x8 x9 x10 x11) (fun k => featAt x0 0 x1 (ix2 e k)) (fun k => featAt x0 1 x1 (ix2 e k)) (sqDist x2 x1 e)) (fun k => x9 (ix2 k j)) := by
  rw [val_main_v59_apply]
  unfold dot
  refine Finset.sum_congr rfl fun k _ => ?_
  rw [show lidx_main_v59 (ix2 e j) k = ix2 e k from funext fun a => Fin.ext (by match a with | ⟨0, _⟩ => rfl | ⟨1, _⟩ => rfl),
    show ridx_main_v59 (ix2 e j) k = ix2 k j from funext fun a => Fin.ext (by match a with | ⟨0, _⟩ => rfl | ⟨1, _⟩ => rfl),
    stage58 x0 x1 x2 x3 x4 x5 x6 x7 x8 x9 x10 x11 hidx]
  all_goals rfl

theorem bias61 (x10 : (⟨S128, .f32⟩ : BufTy).Contents (Elt Ideal)) (e : Fin 500000) (j : Fin 128) : val_main_v61 (F := Ideal) x10 (ix2 e j) = x10 (ix1 j) := by
  rw [val_main_v61_apply, val_main_v60_apply]
  exact congrArg x10 (funext fun a => Fin.ext (by match a with | ⟨0, _⟩ => rfl))

theorem stage63 (x0 : (⟨S50000x128, .f32⟩ : BufTy).Contents (Elt Ideal)) (x1 : (⟨S2x500000, .i32⟩ : BufTy).Contents (Elt Ideal)) (x2 : (⟨S50000x3, .f32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x1, .f32⟩ : BufTy).Contents (Elt Ideal)) (x8 : (⟨S1, .f32⟩ : BufTy).Contents (Elt Ideal)) (x9 : (⟨S128x128, .f32⟩ : BufTy).Contents (Elt Ideal)) (x10 : (⟨S128, .f32⟩ : BufTy).Contents (Elt Ideal)) (x11 : (⟨S128x1, .f32⟩ : BufTy).Contents (Elt Ideal)) (hidx : InRange x1) (e : Fin 500000) (j : Fin 128) :
    val_main_v63 (F := Ideal) x0 x1 x2 x3 x4 x5 x6 x7 x8 x9 x10 (ix2 e j)
      = silu (dot (edgeFeat (argEdgeP x3 x4 x5 x6 x7 x8 x9 x10 x11) (fun k => featAt x0 0 x1 (ix2 e k)) (fun k => featAt x0 1 x1 (ix2 e k)) (sqDist x2 x1 e)) (fun k => x9 (ix2 k j)) + x10 (ix1 j)) := by
  rw [val_main_v63_apply, val_main_call2_v5_apply, val_main_call2_v4_apply, val_main_call2_cst_0_apply,
    val_main_call2_v3_apply, val_main_call2_v2_apply, val_main_call2_cst_apply, val_main_call2_v1_apply,
    val_main_call2_v0_apply, val_main_v62_apply, stage59 x0 x1 x2 x3 x4 x5 x6 x7 x8 x9 x10 x11 hidx, bias61]
  exact silu_spelled _

/-- The coordinate weight of an edge. -/
theorem stage64 (x0 : (⟨S50000x128, .f32⟩ : BufTy).Contents (Elt Ideal)) (x1 : (⟨S2x500000, .i32⟩ : BufTy).Contents (Elt Ideal)) (x2 : (⟨S50000x3, .f32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x1, .f32⟩ : BufTy).Contents (Elt Ideal)) (x8 : (⟨S1, .f32⟩ : BufTy).Contents (Elt Ideal)) (x9 : (⟨S128x128, .f32⟩ : BufTy).Contents (Elt Ideal)) (x10 : (⟨S128, .f32⟩ : BufTy).Contents (Elt Ideal)) (x11 : (⟨S128x1, .f32⟩ : BufTy).Contents (Elt Ideal)) (hidx : InRange x1) (e : Fin 500000) :
    val_main_v64 (F := Ideal) x0 x1 x2 x3 x4 x5 x6 x7 x8 x9 x10 x11 (ix2 e 0) = coordWeight (argEdgeP x3 x4 x5 x6 x7 x8 x9 x10 x11) (fun k => featAt x0 0 x1 (ix2 e k)) (fun k => featAt x0 1 x1 (ix2 e k)) (sqDist x2 x1 e) := by
  rw [val_main_v64_apply]
  show _ = ∑ k : Fin 128, (fun j => silu (dot (edgeFeat (argEdgeP x3 x4 x5 x6 x7 x8 x9 x10 x11) (fun k => featAt x0 0 x1 (ix2 e k)) (fun k => featAt x0 1 x1 (ix2 e k)) (sqDist x2 x1 e)) (fun k => x9 (ix2 k j)) + x10 (ix1 j))) k * x11 (ix2 k 0)
  refine Finset.sum_congr rfl fun k _ => ?_
  rw [show lidx_main_v64 (ix2 e 0) k = ix2 e k from funext fun a => Fin.ext (by match a with | ⟨0, _⟩ => rfl | ⟨1, _⟩ => rfl),
    show ridx_main_v64 (ix2 e 0) k = ix2 k 0 from funext fun a => Fin.ext (by match a with | ⟨0, _⟩ => rfl | ⟨1, _⟩ => rfl),
    stage63 x0 x1 x2 x3 x4 x5 x6 x7 x8 x9 x10 x11 hidx]
  all_goals rfl

/-- The clipped translation of an edge along one coordinate. -/
theorem stage67 (x0 : (⟨S50000x128, .f32⟩ : BufTy).Contents (Elt Ideal)) (x1 : (⟨S2x500000, .i32⟩ : BufTy).Contents (Elt Ideal)) (x2 : (⟨S50000x3, .f32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x1, .f32⟩ : BufTy).Contents (Elt Ideal)) (x8 : (⟨S1, .f32⟩ : BufTy).Contents (Elt Ideal)) (x9 : (⟨S128x128, .f32⟩ : BufTy).Contents (Elt Ideal)) (x10 : (⟨S128, .f32⟩ : BufTy).Contents (Elt Ideal)) (x11 : (⟨S128x1, .f32⟩ : BufTy).Contents (Elt Ideal)) (hidx : InRange x1) (e : Fin 500000) (a : Fin 3) :
    val_main_v67 (F := Ideal) x0 x1 x2 x3 x4 x5 x6 x7 x8 x9 x10 x11 (ix2 e a)
      = edgeTrans (argEdgeP x3 x4 x5 x6 x7 x8 x9 x10 x11) (Ideal.ofBits .f32 0xC1200000#32) (Ideal.ofBits .f32 0x41200000#32)
          (fun k => featAt x0 0 x1 (ix2 e k)) (fun k => featAt x0 1 x1 (ix2 e k)) (sqDist x2 x1 e) (fun b => coordDiff x2 x1 (ix2 e b)) a := by
  rw [val_main_v67_apply, val_main_call3_v4_apply, val_main_call3_v3_apply, val_main_cst_10_apply,
    val_main_call3_v2_apply, val_main_call3_v1_apply, val_main_call3_v0_apply, val_main_cst_9_apply,
    val_main_v66_apply, val_main_v65_apply,
    show idx_main_v65 (ix2 e a) = ix2 e 0 from funext fun a => Fin.ext (by match a with | ⟨0, _⟩ => rfl | ⟨1, _⟩ => rfl),
    stage64 x0 x1 x2 x3 x4 x5 x6 x7 x8 x9 x10 x11 hidx, diff_eq x1 x2 hidx]
  all_goals rfl

/-- The edge-feature array. -/
theorem edgeFeat_eq (x0 : (⟨S50000x128, .f32⟩ : BufTy).Contents (Elt Ideal)) (x1 : (⟨S2x500000, .i32⟩ : BufTy).Contents (Elt Ideal)) (x2 : (⟨S50000x3, .f32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x1, .f32⟩ : BufTy).Contents (Elt Ideal)) (x8 : (⟨S1, .f32⟩ : BufTy).Contents (Elt Ideal)) (x9 : (⟨S128x128, .f32⟩ : BufTy).Contents (Elt Ideal)) (x10 : (⟨S128, .f32⟩ : BufTy).Contents (Elt Ideal)) (x11 : (⟨S128x1, .f32⟩ : BufTy).Contents (Elt Ideal)) (hidx : InRange x1) :
    val_main_v58 (F := Ideal) x0 x1 x2 x3 x4 x5 x6 x7 x8 = edgeFeatArr x0 x1 x2 (argEdgeP x3 x4 x5 x6 x7 x8 x9 x10 x11) := by
  unfold edgeFeatArr
  exact eq_atRC _ _ fun e j => stage58 x0 x1 x2 x3 x4 x5 x6 x7 x8 x9 x10 x11 hidx e j

/-- The clipped translation array. -/
theorem edgeTrans_eq (x0 : (⟨S50000x128, .f32⟩ : BufTy).Contents (Elt Ideal)) (x1 : (⟨S2x500000, .i32⟩ : BufTy).Contents (Elt Ideal)) (x2 : (⟨S50000x3, .f32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x1, .f32⟩ : BufTy).Contents (Elt Ideal)) (x8 : (⟨S1, .f32⟩ : BufTy).Contents (Elt Ideal)) (x9 : (⟨S128x128, .f32⟩ : BufTy).Contents (Elt Ideal)) (x10 : (⟨S128, .f32⟩ : BufTy).Contents (Elt Ideal)) (x11 : (⟨S128x1, .f32⟩ : BufTy).Contents (Elt Ideal)) (hidx : InRange x1) :
    val_main_v67 (F := Ideal) x0 x1 x2 x3 x4 x5 x6 x7 x8 x9 x10 x11 = edgeTransArr x0 x1 x2 (argEdgeP x3 x4 x5 x6 x7 x8 x9 x10 x11) := by
  unfold edgeTransArr
  exact eq_atRC _ _ fun e a => stage67 x0 x1 x2 x3 x4 x5 x6 x7 x8 x9 x10 x11 hidx e a

end Cert.ReferenceIdeal.EdgeStages

end
-- ==== Proof.RefNode.lean ====
/-
  The reference program's coordinate update and node perceptron against the layer's: the mean translation is the
  scatter sum over the scatter count, clipped, and the node layer's product with the 256-column concatenation [features,
  aggregated edge features] is the sum of its two parts.
-/
import proofs.«409691_j59871844106306_3_alg».proof.Proof.ReadP
import proofs.«409691_j59871844106306_3_alg».proof.Proof.RefHost
import proofs.«409691_j59871844106306_3_alg».proof.Proof.RefEdge
import proofs.«409691_j59871844106306_3_alg».proof.Proof.SpecHost
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.NodeStages

open Cert.ReferenceIdeal Cert.ReferenceIdeal.Read Cert.Egcl
open Idealize.ShloMosaic Idealize.ShloMosaic.ValueIdx

/-! ## The three scatter sums -/

/-- The reference's row-scatter dimension numbers are the layer's. -/
theorem scat3 : scatter_S50000x3_S500000x1_S500000x3_1_0_0_1 = scatterRows 3 swf3 := rfl
theorem scat128 : scatter_S50000x128_S500000x1_S500000x128_1_0_0_1 = scatterRows 128 swf128 := rfl

/-- The arrays the sums start from are zero everywhere, and the counted array is one everywhere. -/
theorem zeroA : val_main_v68 (F := Ideal) = (fun _ => Ideal.ofBits .f32 0x00000000#32 : FVec Ideal (SN 3) .f32) :=
  funext fun i => ((val_main_v68_apply i).trans (val_main_cst_11_apply _)).trans (Ideal.ofBits_def _)
theorem zeroB : val_main_v72 (F := Ideal) = (fun _ => Ideal.ofBits .f32 0x00000000#32 : FVec Ideal (SN 3) .f32) :=
  funext fun i => ((val_main_v72_apply i).trans (val_main_cst_13_apply _)).trans (Ideal.ofBits_def _)
theorem zeroC : val_main_v79 (F := Ideal) = (fun _ => Ideal.ofBits .f32 0x00000000#32 : FVec Ideal (SN 128) .f32) :=
  funext fun i => ((val_main_v79_apply i).trans (val_main_cst_17_apply _)).trans (Ideal.ofBits_def _)
theorem onesE : val_main_v71 (F := Ideal) = (fun _ => Ideal.ofBits .f32 0x3F800000#32 : FVec Ideal (SE 3) .f32) :=
  funext fun i => ((val_main_v71_apply i).trans (val_main_cst_12_apply _)).trans (Ideal.ofBits_def _)

section Stages
variable (x0 : (⟨S50000x128, .f32⟩ : BufTy).Contents (Elt Ideal)) (x1 : (⟨S2x500000, .i32⟩ : BufTy).Contents (Elt Ideal)) (x2 : (⟨S50000x3, .f32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x1, .f32⟩ : BufTy).Contents (Elt Ideal)) (x8 : (⟨S1, .f32⟩ : BufTy).Contents (Elt Ideal)) (x9 : (⟨S128x128, .f32⟩ : BufTy).Contents (Elt Ideal)) (x10 : (⟨S128, .f32⟩ : BufTy).Contents (Elt Ideal)) (x11 : (⟨S128x1, .f32⟩ : BufTy).Contents (Elt Ideal)) (x12 : (⟨S256x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal))

/-- The summed translations: each node's sum of the clipped translations of the edges it is the source of. -/
theorem transSum_eq (hidx : InRange x1) :
    val_main_v70 (F := Ideal) x0 x1 x2 x3 x4 x5 x6 x7 x8 x9 x10 x11 = sumInto3 x1 (edgeTransArr x0 x1 x2 (argEdgeP x3 x4 x5 x6 x7 x8 x9 x10 x11)) := by
  unfold val_main_v70 sumInto3
  rw [zeroA, HostStages.scatterCol_a, EdgeStages.edgeTrans_eq x0 x1 x2 x3 x4 x5 x6 x7 x8 x9 x10 x11 hidx, scat3]

/-- The count: each node's number of edges it is the source of, as a sum of ones. -/
theorem countSum_eq : val_main_v74 (F := Ideal) x1 = sumInto3 x1 (fun _ => Ideal.ofBits .f32 0x3F800000#32) := by
  unfold val_main_v74 sumInto3
  rw [zeroB, HostStages.scatterCol_b, onesE, scat3]

/-- The aggregated edge features: each node's sum of the feature rows of the edges it is the source of. -/
theorem aggSum_eq (hidx : InRange x1) :
    val_main_v81 (F := Ideal) x0 x1 x2 x3 x4 x5 x6 x7 x8 = sumInto128 x1 (edgeFeatArr x0 x1 x2 (argEdgeP x3 x4 x5 x6 x7 x8 x9 x10 x11)) := by
  unfold val_main_v81 sumInto128
  rw [zeroC, HostStages.scatterCol_c, EdgeStages.edgeFeat_eq x0 x1 x2 x3 x4 x5 x6 x7 x8 x9 x10 x11 hidx, scat128]

/-! ## The concatenation [features, aggregated features], read on each band -/

/-- A column below 128 reads the node's features. -/
theorem cat_left (n : Fin 50000) (l : Fin 128) :
    val_main_v82 (F := Ideal) x0 x1 x2 x3 x4 x5 x6 x7 x8 (ix2 n (⟨l.val, by omega⟩ : Fin 256)) = x0 (ix2 n l) := by
  unfold val_main_v82
  generalize val_main_v81 (F := Ideal) x0 x1 x2 x3 x4 x5 x6 x7 x8 = y
  exact concatenate_pair_apply_left (t := S50000x256) (s₁ := S50000x128) (s₂ := S50000x128) 1 x0 y _ _ rfl _ (fun b => by
    match b with
    | ⟨0, _⟩ => rfl
    | ⟨1, _⟩ => rfl)

/-- A column from 128 on reads the aggregated edge features, 128 columns to the left. -/
theorem cat_right (n : Fin 50000) (l : Fin 128) :
    val_main_v82 (F := Ideal) x0 x1 x2 x3 x4 x5 x6 x7 x8 (ix2 n (⟨128 + l.val, by omega⟩ : Fin 256))
      = val_main_v81 (F := Ideal) x0 x1 x2 x3 x4 x5 x6 x7 x8 (ix2 n l) := by
  unfold val_main_v82
  generalize val_main_v81 (F := Ideal) x0 x1 x2 x3 x4 x5 x6 x7 x8 = y
  exact concatenate_pair_apply_right (t := S50000x256) (s₁ := S50000x128) (s₂ := S50000x128) 1 x0 y _ _ rfl rfl _
    (fun b hb => by
      match b with
      | ⟨0, _⟩ => rfl
      | ⟨1, _⟩ => exact absurd rfl hb)
    (by show l.val + 128 = 128 + l.val; omega)

/-! ## The node perceptron, stage by stage -/

/-- The first layer's product over the 256 concatenated columns is the features' part plus the aggregated part. -/
theorem dot1_eq (n : Fin 50000) (k : Fin 128) :
    val_main_v83 (F := Ideal) x0 x1 x2 x3 x4 x5 x6 x7 x8 x12 (ix2 n k)
      = dot (fun l => x0 (ix2 n l)) (fun l => x12 (ix2 (⟨l.val, by omega⟩ : Fin 256) k))
        + dot (fun l => val_main_v81 (F := Ideal) x0 x1 x2 x3 x4 x5 x6 x7 x8 (ix2 n l)) (fun l => x12 (ix2 (⟨128 + l.val, by omega⟩ : Fin 256) k)) := by
  refine (val_main_v83_apply x0 x1 x2 x3 x4 x5 x6 x7 x8 x12 (ix2 n k)).trans ?_
  refine (sum_256 _).trans ?_
  unfold dot
  refine congrArg₂ (· + ·) (Finset.sum_congr rfl fun l _ => ?_) (Finset.sum_congr rfl fun l _ => ?_)
  · refine congrArg₂ (· * ·) ?_ ?_
    · refine Eq.trans (congrArg _ ?_) (cat_left x0 x1 x2 x3 x4 x5 x6 x7 x8 n l)
      exact funext fun a => Fin.ext (by match a with | ⟨0, _⟩ => rfl | ⟨1, _⟩ => rfl)
    · exact congrArg x12 (funext fun a => Fin.ext (by match a with | ⟨0, _⟩ => rfl | ⟨1, _⟩ => rfl))
  · refine congrArg₂ (· * ·) ?_ ?_
    · refine Eq.trans (congrArg _ ?_) (cat_right x0 x1 x2 x3 x4 x5 x6 x7 x8 n l)
      exact funext fun a => Fin.ext (by match a with | ⟨0, _⟩ => rfl | ⟨1, _⟩ => rfl)
    · exact congrArg x12 (funext fun a => Fin.ext (by match a with | ⟨0, _⟩ => rfl | ⟨1, _⟩ => rfl))

/-- The first layer before its activation: the two-part product plus the bias. -/
theorem pre_eq (n : Fin 50000) (k : Fin 128) :
    val_main_v86 (F := Ideal) x0 x1 x2 x3 x4 x5 x6 x7 x8 x12 x13 (ix2 n k)
      = (dot (fun l => x0 (ix2 n l)) (fun l => x12 (ix2 (⟨l.val, by omega⟩ : Fin 256) k))
        + dot (fun l => val_main_v81 (F := Ideal) x0 x1 x2 x3 x4 x5 x6 x7 x8 (ix2 n l)) (fun l => x12 (ix2 (⟨128 + l.val, by omega⟩ : Fin 256) k)))
        + x13 (ix1 k) := by
  rw [val_main_v86_apply, dot1_eq, val_main_v85_apply, val_main_v84_apply, Ideal.addf_def]
  refine congrArg₂ (· + ·) rfl (congrArg x13 ?_)
  exact funext fun a => Fin.ext (by match a with | ⟨0, _⟩ => rfl)

/-- The outlined activation x · (1 / (1 + exp (−x))) is silu. -/
theorem act_eq (i : S50000x128.Idx) :
    val_main_v87 (F := Ideal) x0 x1 x2 x3 x4 x5 x6 x7 x8 x12 x13 i = silu (val_main_v86 (F := Ideal) x0 x1 x2 x3 x4 x5 x6 x7 x8 x12 x13 i) := by
  have h4 : val_main_call6_v4 (F := Ideal) i = (1 : EReal) :=
    (((val_main_call6_v4_apply i).trans (val_main_call6_cst_0_apply _)).trans (Ideal.ofBits_def _)).trans Ideal.ofBits_one_f32
  have h2 : val_main_call6_v2 (F := Ideal) i = (1 : EReal) :=
    (((val_main_call6_v2_apply i).trans (val_main_call6_cst_apply _)).trans (Ideal.ofBits_def _)).trans Ideal.ofBits_one_f32
  rw [val_main_v87_apply, val_main_call6_v5_apply, val_main_call6_v3_apply, val_main_call6_v1_apply, val_main_call6_v0_apply, h4, h2]
  generalize val_main_v86 (F := Ideal) x0 x1 x2 x3 x4 x5 x6 x7 x8 x12 x13 i = y
  rfl

end Stages

/-- The updated coordinates. -/
theorem coordOut_eq (x0 : (⟨S50000x128, .f32⟩ : BufTy).Contents (Elt Ideal)) (x1 : (⟨S2x500000, .i32⟩ : BufTy).Contents (Elt Ideal)) (x2 : (⟨S50000x3, .f32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x1, .f32⟩ : BufTy).Contents (Elt Ideal)) (x8 : (⟨S1, .f32⟩ : BufTy).Contents (Elt Ideal)) (x9 : (⟨S128x128, .f32⟩ : BufTy).Contents (Elt Ideal)) (x10 : (⟨S128, .f32⟩ : BufTy).Contents (Elt Ideal)) (x11 : (⟨S128x1, .f32⟩ : BufTy).Contents (Elt Ideal)) (hidx : InRange x1) :
    val_main_v78 (F := Ideal) x0 x1 x2 x3 x4 x5 x6 x7 x8 x9 x10 x11 = coordOutArr x0 x1 x2 (argEdgeP x3 x4 x5 x6 x7 x8 x9 x10 x11) := by
  funext i
  have hhi : val_main_call5_v4 (F := Ideal) i = Ideal.ofBits .f32 0x41200000#32 :=
    (((val_main_call5_v4_apply i).trans (val_main_call5_v3_apply _)).trans (val_main_cst_16_apply _)).trans (Ideal.ofBits_def _)
  have hlo : val_main_call5_v1 (F := Ideal) i = Ideal.ofBits .f32 0xC1200000#32 :=
    (((val_main_call5_v1_apply i).trans (val_main_call5_v0_apply _)).trans (val_main_cst_15_apply _)).trans (Ideal.ofBits_def _)
  have hone : val_main_call4_v1 (F := Ideal) i = Ideal.ofBits .f32 0x3F800000#32 :=
    (((val_main_call4_v1_apply i).trans (val_main_call4_v0_apply _)).trans (val_main_cst_14_apply _)).trans (Ideal.ofBits_def _)
  unfold coordOutArr coordOut
  rw [val_main_v78_apply, val_main_v77_apply, val_main_call5_v2_apply, val_main_v76_apply, val_main_v75_apply, hhi, hlo, hone,
    transSum_eq x0 x1 x2 x3 x4 x5 x6 x7 x8 x9 x10 x11 hidx, countSum_eq x1]
  rfl

/-- The updated node features. -/
theorem nodeOut_eq (x0 : (⟨S50000x128, .f32⟩ : BufTy).Contents (Elt Ideal)) (x1 : (⟨S2x500000, .i32⟩ : BufTy).Contents (Elt Ideal)) (x2 : (⟨S50000x3, .f32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x1, .f32⟩ : BufTy).Contents (Elt Ideal)) (x8 : (⟨S1, .f32⟩ : BufTy).Contents (Elt Ideal)) (x9 : (⟨S128x128, .f32⟩ : BufTy).Contents (Elt Ideal)) (x10 : (⟨S128, .f32⟩ : BufTy).Contents (Elt Ideal)) (x11 : (⟨S128x1, .f32⟩ : BufTy).Contents (Elt Ideal)) (x12 : (⟨S256x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (hidx : InRange x1) :
    val_main_v92 (F := Ideal) x0 x1 x2 x3 x4 x5 x6 x7 x8 x12 x13 x14 x15
      = nodeOutArr x0 x1 x2 (argEdgeP x3 x4 x5 x6 x7 x8 x9 x10 x11) (argNodeP x12 x13 x14 x15) := by
  unfold nodeOutArr
  refine eq_atRC _ _ fun n j => ?_
  rw [val_main_v92_apply, val_main_v91_apply, val_main_v88_apply, val_main_v90_apply, val_main_v89_apply,
    Ideal.addf_def, Ideal.addf_def]
  unfold nodeOut dot
  refine congrArg₂ (· + ·) rfl (congrArg₂ (· + ·) (Finset.sum_congr rfl fun k _ => ?_) (congrArg x15 ?_))
  · refine congrArg₂ (· * ·) ?_ (congrArg x14 ?_)
    · refine Eq.trans (congrArg _ (?_ : _ = ix2 n k)) ?_
      · exact funext fun a => Fin.ext (by match a with | ⟨0, _⟩ => rfl | ⟨1, _⟩ => rfl)
      · rw [act_eq, pre_eq, aggSum_eq x0 x1 x2 x3 x4 x5 x6 x7 x8 x9 x10 x11 hidx]
        rfl
    · exact funext fun a => Fin.ext (by match a with | ⟨0, _⟩ => rfl | ⟨1, _⟩ => rfl)
  · exact funext fun a => Fin.ext (by match a with | ⟨0, _⟩ => rfl)

end Cert.ReferenceIdeal.NodeStages

end
-- ==== Proof.PreDecode.lean ====
/-
  The printed precondition, read back for the edge index. The precondition is a conjunction of "all" tests, one after
  the other: that every float input is finite, and, last, that every entry of the [2, E] edge index is at least 0 and
  that every entry is below the number of nodes, 50000. When the whole conjunction is one, each conjunct is one; an
  "all" that is one had a one at every entry; and a signed comparison word that is one says the comparison holds of
  the two words read as signed integers. So every edge end point names a node.
-/
import proofs.«409691_j59871844106306_3_alg».proof.Defs
import proofs.«409691_j59871844106306_3_alg».proof.Proof.Gen.Pre_finite_inputs
import proofs.«409691_j59871844106306_3_alg».proof.Proof.Spec
import Idealize.ShloMosaic.Lib.ReduceAll
import Idealize.ShloMosaic.Lib.ValueIdx

noncomputable section

namespace Cert.Proof.PreDecode

open Idealize.ShloMosaic Idealize.ShloMosaic.ValueIdx
open Cert.Pre_finite_inputs

/-- The scalar shape has one index. -/
instance : Subsingleton S_.Idx := ⟨fun a b => funext fun d => d.elim0⟩

/-- The last stretch of the conjunction alone: whatever the earlier conjuncts a and b are, if the conjunction ending in
    the two tests of the edge index is one, then every entry of the edge index, read signed, is in [0, 50000). -/
theorem inRange_of_part4 [Cert.Pre_finite_inputs.Facts] (x1 : IVec S2x500000 32) (x15 : FVec Ideal S128 .f32)
    (a b : IVec S_ 1) (h : fn_part4 (F := Ideal) x1 x15 a b = (fun _ => 1#1)) : Cert.Egcl.InRange x1 := by
  have e := congrFun h ix0
  dsimp only [fn_part4] at e
  -- the outermost conjunction: everything before, and "every entry < 50000"
  obtain ⟨e1, hlt⟩ := IntOp.andi_eq_one.1 e
  -- the next: everything before, and "every entry ≥ 0"
  obtain ⟨-, hge⟩ := IntOp.andi_eq_one.1 e1
  intro i
  have g0 := Host.reduce_andi_all _ _ _ _ _ hge i
  have g1 := Host.reduce_andi_all _ _ _ _ _ hlt i
  have g0' : (0#32 : BitVec 32).toInt ≤ (x1 i).toInt := IntOp.cmpi_sge.1 g0
  have g1' : (x1 i).toInt < (50000#32 : BitVec 32).toInt := IntOp.cmpi_slt.1 g1
  have z0 : (0#32 : BitVec 32).toInt = 0 := by decide
  have z1 : (50000#32 : BitVec 32).toInt = 50000 := by decide
  rw [z0] at g0'
  rw [z1] at g1'
  exact ⟨g0', g1'⟩

/-- The precondition as the claim states it for one device, decoded: every edge end point names a node. -/
theorem inRange_of_pre [Cert.Pre_finite_inputs.Facts] (x0 : FVec Ideal S50000x128 .f32) (x1 : IVec S2x500000 32)
    (x2 : FVec Ideal S50000x3 .f32) (x3 : FVec Ideal S257x128 .f32) (x4 : FVec Ideal S128 .f32)
    (x5 : FVec Ideal S128x128 .f32) (x6 : FVec Ideal S128 .f32) (x7 : FVec Ideal S128x1 .f32) (x8 : FVec Ideal S1 .f32)
    (x9 : FVec Ideal S128x128 .f32) (x10 : FVec Ideal S128 .f32) (x11 : FVec Ideal S128x1 .f32)
    (x12 : FVec Ideal S256x128 .f32) (x13 : FVec Ideal S128 .f32) (x14 : FVec Ideal S128x128 .f32)
    (x15 : FVec Ideal S128 .f32)
    (h : Cert.Pre_finite_inputs.fn (F := Ideal) x0 x1 x2 x3 x4 x5 x6 x7 x8 x9 x10 x11 x12 x13 x14 x15 = (fun _ => 1#1)) :
    Cert.Egcl.InRange x1 :=
  -- the chain of parts unfolds to its last part applied to the earlier conjuncts
  inRange_of_part4 x1 x15 _ _ h

end Cert.Proof.PreDecode

end
-- ==== Proof.lean ====
/-
  One equivariant graph-convolution layer (edge perceptron with an attention gate, coordinate update by the clipped mean
  translation, node perceptron with a residual) computed by two blocked kernels between host gathers and scatter sums,
  against the plain array program, over the extended reals.

  Under the precondition every float input is finite and every entry of the edge index names a node (0 ≤ index < 50000).
  Then the kernel program's clamp of the indices, its fill mask and the reference's negative-index wrap all do nothing,
  and both programs gather the same node rows. Per edge both compute the same row function: the kernel splits the first
  layer's 257-column product into the source-feature part, the target-feature part and the squared-distance term, which
  is the same finite sum regrouped (sums of extended reals are commutative and associative); its changes of float
  format are the identity; a logistic is 1 / (1 + e^(-x)) on both sides. The scatter sums are the same operation on
  equal operands, except the degree count, which the kernel takes in one column and the reference in three equal
  columns. Per node the first layer's 256-column product splits in the same way.

  The two kernel frames are the generated ones; the reference's is its run, read stretch by stretch, with the results dropped; no rewrite
  was applied to the kernel, so there is nothing to preserve; the algebraic claim puts the two runs side by side at
  the layer's specification of the arguments.
-/
import proofs.«409691_j59871844106306_3_alg».proof.Defs
import proofs.«409691_j59871844106306_3_alg».proof.Proof.Gen.Kernel
import proofs.«409691_j59871844106306_3_alg».proof.Proof.Gen.Kernel.Frame
import proofs.«409691_j59871844106306_3_alg».proof.Proof.Gen.KernelIdeal
import proofs.«409691_j59871844106306_3_alg».proof.Proof.Gen.KernelIdeal.Frame
import proofs.«409691_j59871844106306_3_alg».proof.Proof.Gen.ReferenceIdeal
import proofs.«409691_j59871844106306_3_alg».proof.Proof.RunP
import proofs.«409691_j59871844106306_3_alg».proof.Proof.ReadP
import proofs.«409691_j59871844106306_3_alg».proof.Proof.RefRun
import proofs.«409691_j59871844106306_3_alg».proof.Proof.Gen.Pre_finite_inputs
import proofs.«409691_j59871844106306_3_alg».proof.Proof.KRun
import proofs.«409691_j59871844106306_3_alg».proof.Proof.KValue
import proofs.«409691_j59871844106306_3_alg».proof.Proof.RefEdge
import proofs.«409691_j59871844106306_3_alg».proof.Proof.RefNode
import proofs.«409691_j59871844106306_3_alg».proof.Proof.PreDecode
import Idealize.ShloMosaic.Adequacy
import Idealize.ShloMosaic.Init

noncomputable section

namespace Cert.Proof

open Idealize.ShloMosaic Idealize.ShloMosaic.TcCoe Idealize.SL.Sem Cert.Egcl

namespace LayerClaims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.RefRun.run (F := Ideal) m ρ)

/-- The kernel was printed with no rewrite applied. -/
theorem preserves : Cert.preserves_Kernel_KernelIdeal := trivial

/-- Both runs end at the layer's specification of the arguments: the kernel program's by its regions' array facts and
    its host stretches read back, the reference's stage by stage; the memories agree on the arguments. -/
theorem algebraic : Cert.algebraic_KernelIdeal_ReferenceIdeal := by
  intro m ρ m' ρ' hpre hagree
  have hidx : ∀ c : Dev Cert.KernelIdeal.nD, InRange (m ((c.tc : Thread Cert.KernelIdeal.nD Cert.KernelIdeal.τ).loc Cert.KernelIdeal.main_arg1)) := fun c =>
    PreDecode.inRange_of_pre _ _ _ _ _ _ _ _ _ _ _ _ _ _ _ _ (hpre c)
  refine ⟨fun c => nodeOutArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.Results.argP m c) (Cert.KernelIdeal.Results.argQ m c),
    fun c => coordOutArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.Results.argP m c),
    fun c => edgeFeatArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.Results.argP m c), ?_, ?_⟩
  · exact (θ_run Cert.KernelIdeal.defs _ _).mono (fun r h c =>
      ⟨(h c).1.trans (Cert.KernelIdeal.Results.hout m ρ c (hidx c)),
       (h c).2.1.trans (Cert.KernelIdeal.Results.cout m ρ c (hidx c)),
       (h c).2.2.1.trans (Cert.KernelIdeal.Results.efeat m ρ c (hidx c)),
       (h c).2.2.2⟩) (Cert.KernelIdeal.Gen.run_results m ρ)
  · refine (θ_run Cert.ReferenceIdeal.defs _ _).mono (fun r h c => ?_) (Cert.ReferenceIdeal.RefRun.run (F := Ideal) m' ρ')
    obtain ⟨h0, h1, h2, hargs⟩ := h c
    obtain ⟨a0, a1, a2, a3, a4, a5, a6, a7, a8, a9, a10, a11, a12, a13, a14, a15⟩ := hagree c
    have hidx' : InRange (m' ((c.tc : Thread Cert.ReferenceIdeal.nD Cert.ReferenceIdeal.τ).loc Cert.ReferenceIdeal.main_arg1)) := by rw [a1]; exact hidx c
    refine ⟨?_, ?_, ?_, hargs⟩
    · rw [h0, Cert.ReferenceIdeal.NodeStages.nodeOut_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) hidx']
      rw [a0, a1, a2, a3, a4, a5, a6, a7, a8, a9, a10, a11, a12, a13, a14, a15]
    · rw [h1, Cert.ReferenceIdeal.NodeStages.coordOut_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) hidx']
      rw [a0, a1, a2, a3, a4, a5, a6, a7, a8, a9, a10, a11]
    · rw [h2, Cert.ReferenceIdeal.EdgeStages.edgeFeat_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) hidx']
      rw [a0, a1, a2, a3, a4, a5, a6, a7, a8, a9, a10, a11]

end LayerClaims

theorem claim : Cert.Claim :=
  ⟨Cert.Kernel.Gen.facts, Cert.KernelIdeal.Gen.facts, Cert.ReferenceIdeal.Gen.facts, Cert.Pre_finite_inputs.Gen.facts,
    LayerClaims.frame_k, LayerClaims.frame_ki, LayerClaims.frame_ri, LayerClaims.preserves, LayerClaims.algebraic⟩

end Cert.Proof

end
